-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S8 : Shape := ⟨1, ![8]⟩
abbrev S8x256 : Shape := ⟨2, ![8, 256]⟩
abbrev S8x128x256 : Shape := ⟨3, ![8, 128, 256]⟩
abbrev S8x128 : Shape := ⟨2, ![8, 128]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8 : S_.BroadcastsInDim S8 (![] : Fin 0 → Fin S8.rank)
  reducesTo_S8_S_d0 : S8.ReducesTo [0] S_
  bcast_S_S8x256 : S_.BroadcastsInDim S8x256 (![] : Fin 0 → Fin S8x256.rank)
  reducesTo_S8x256_S_d0_1 : S8x256.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg7 : FVec F S8x128 .f32) (main_v33 : IVec S_ 1) : IVec S_ 1 :=
  let main_v34 : FVec F S8x128 .f32 := Host.absf main_arg7
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  main_v38

def fn_part1 {F : FTy → Type} [FloatOps F] (main_arg4 : FVec F S8x256 .f32) (main_arg5 : FVec F S8 .f32) (main_arg6 : FVec F S8x128x256 .f32) (main_arg7 : FVec F S8x128 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x256 .f32 := Host.absf main_arg4
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x128x256 .f32 := Host.absf main_arg6
  let main_cst_10 : FVec F S_ .f32 := constant S_ .f32 0x7F800000#32
  let main_v30 : FVec F S8x128x256 .f32 := broadcastInDim S8x128x256 ![] bcast_S_S8x128x256 main_cst_10
  let main_v31 : IVec S8x128x256 1 := cmpf .olt main_v29 main_v30
  let main_c_11 : IVec S_ 1 := constantI S_ 1 1#1
  let main_v32 : IVec S_ 1 := (fun x v => Host.reduce IntOp.andi x v reducesTo_S8x128x256_S_d0_1_2 h_S_) main_v31 main_c_11
  let main_v33 : IVec S_ 1 := andi main_v28 main_v32
  fn_part2 (F := F) main_arg7 main_v33

def fn {F : FTy → Type} [FloatOps F] (main_arg0 : FVec F S16384x256 .f32) (main_arg1 : FVec F S8 .f32) (main_arg2 : FVec F S8x256 .f32) (main_arg3 : FVec F S8 .f32) (main_arg4 : FVec F S8x256 .f32) (main_arg5 : FVec F S8 .f32) (main_arg6 : FVec F S8x128x256 .f32) (main_arg7 : FVec F S8x128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_v13 main_v16
-- ==== Kernel.lean ====
abbrev S16384x256 : Shape := ⟨2, ![16384, 256]⟩
abbrev S8 : Shape := ⟨1, ![8]⟩
abbrev S8x256 : Shape := ⟨2, ![8, 256]⟩
abbrev S8x128x256 : Shape := ⟨3, ![8, 128, 256]⟩
abbrev S8x128 : Shape := ⟨2, ![8, 128]⟩
abbrev S256x8 : Shape := ⟨2, ![256, 8]⟩
abbrev S1024x256 : Shape := ⟨2, ![1024, 256]⟩
abbrev S256x1024 : Shape := ⟨2, ![256, 1024]⟩
abbrev S1024 : Shape := ⟨1, ![1024]⟩
abbrev S16384x1024 : Shape := ⟨2, ![16384, 1024]⟩
abbrev S16384x8 : Shape := ⟨2, ![16384, 8]⟩
abbrev S1024x1024 : Shape := ⟨2, ![1024, 1024]⟩
abbrev S1024x8 : Shape := ⟨2, ![1024, 8]⟩
abbrev S1x8 : Shape := ⟨2, ![1, 8]⟩
abbrev S1024x1 : Shape := ⟨2, ![1024, 1]⟩
abbrev S1x1024 : Shape := ⟨2, ![1, 1024]⟩
abbrev S1024x128 : Shape := ⟨2, ![1024, 128]⟩

abbrev nBuf : Space → Nat
  | .hbm => 15
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S8, .f32⟩
  | .hbm, ⟨2, _⟩ => ⟨S8x256, .f32⟩
  | .hbm, ⟨3, _⟩ => ⟨S8, .f32⟩
  | .hbm, ⟨4, _⟩ => ⟨S8x256, .f32⟩
  | .hbm, ⟨5, _⟩ => ⟨S8, .f32⟩
  | .hbm, ⟨6, _⟩ => ⟨S8x128x256, .f32⟩
  | .hbm, ⟨7, _⟩ => ⟨S8x128, .f32⟩
  | .hbm, ⟨8, _⟩ => ⟨S256x8, .f32⟩
  | .hbm, ⟨9, _⟩ => ⟨S256x8, .f32⟩
  | .hbm, ⟨10, _⟩ => ⟨S1024x256, .f32⟩
  | .hbm, ⟨11, _⟩ => ⟨S256x1024, .f32⟩
  | .hbm, ⟨12, _⟩ => ⟨S1024, .f32⟩
  | .hbm, ⟨13, _⟩ => ⟨S16384x1024, .f32⟩
  | .hbm, ⟨14, _⟩ => ⟨S16384x8, .f32⟩
  | .local _ .vmem, ⟨0, _⟩ => ⟨S1024x256, .f32⟩
  | .local _ .vmem, ⟨1, _⟩ => ⟨S1024x256, .f32⟩
  | .local _ .vmem, ⟨2, _⟩ => ⟨S256x8, .f32⟩
  | .local _ .vmem, ⟨3, _⟩ => ⟨S8, .f32⟩
  | .local _ .vmem, ⟨4, _⟩ => ⟨S256x8, .f32⟩
  | .local _ .vmem, ⟨5, _⟩ => ⟨S8, .f32⟩
  | .local _ .vmem, ⟨6, _⟩ => ⟨S8, .f32⟩
  | .local _ .vmem, ⟨7, _⟩ => ⟨S256x1024, .f32⟩
  | .local _ .vmem, ⟨8, _⟩ => ⟨S1024, .f32⟩
  | .local _ .vmem, ⟨9, _⟩ => ⟨S1024x1024, .f32⟩
  | .local _ .vmem, ⟨10, _⟩ => ⟨S1024x1024, .f32⟩
  | .local _ .vmem, ⟨11, _⟩ => ⟨S1024x8, .f32⟩
  | .local _ .vmem, ⟨12, _⟩ => ⟨S1024x8, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S8x256_S256x8_1_0 : S8x256.Transposes [1, 0] S256x8
  shapeCasts_S8x128x256_S1024x256 : S8x128x256.ShapeCasts S1024x256
  transposes_S1024x256_S256x1024_1_0 : S1024x256.Transposes [1, 0] S256x1024
  shapeCasts_S8x128_S1024 : S8x128.ShapeCasts S1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  reduces_S1024x8_S1024 : S1024x8.Reduces [1] S1024
  shapeCasts_S1024_S1024x1 : S1024.ShapeCasts S1024x1
  broadcasts_S1024x1_S1024x8 : S1024x1.Broadcasts S1024x8
  inb_S1024x8_S1024x8_0_0 : ∀ a, (![0, 0] : Fin 2 → Nat) a + S1024x8.size a ≤ S1024x8.size a
  h_S1024x8 : 0 < S1024x8.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  slices_S1024x8_o0_0_S1024x1 : S1024x8.Slices ![0, 0] S1024x1
  shapeCasts_S1024x1_S1024 : S1024x1.ShapeCasts S1024
  natLt_1_32 : 1 < 32
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  slices_S1024x1024_o0_0_S1024x128 : S1024x1024.Slices ![0, 0] S1024x128
  broadcasts_S1024x1_S1024x128 : S1024x1.Broadcasts S1024x128
  slices_S1024x1024_o0_128_S1024x128 : S1024x1024.Slices ![0, 128] S1024x128
  slices_S1024x1024_o0_256_S1024x128 : S1024x1024.Slices ![0, 256] S1024x128
  slices_S1024x1024_o0_384_S1024x128 : S1024x1024.Slices ![0, 384] S1024x128
  slices_S1024x1024_o0_512_S1024x128 : S1024x1024.Slices ![0, 512] S1024x128
  slices_S1024x1024_o0_640_S1024x128 : S1024x1024.Slices ![0, 640] S1024x128
  slices_S1024x1024_o0_768_S1024x128 : S1024x1024.Slices ![0, 768] S1024x128
  slices_S1024x1024_o0_896_S1024x128 : S1024x1024.Slices ![0, 896] S1024x128
  inb_S1024x1024_S1024x128_0_0 : ∀ a, (![0, 0] : Fin 2 → Nat) a + S1024x128.size a ≤ S1024x1024.size a
  h_S1024x128 : 0 < S1024x128.numel
  inb_S1024x1024_S1024x128_0_128 : ∀ a, (![0, 128] : Fin 2 → Nat) a + S1024x128.size a ≤ S1024x1024.size a
  inb_S1024x1024_S1024x128_0_256 : ∀ a, (![0, 256] : Fin 2 → Nat) a + S1024x128.size a ≤ S1024x1024.size a
  inb_S1024x1024_S1024x128_0_384 : ∀ a, (![0, 384] : Fin 2 → Nat) a + S1024x128.size a ≤ S1024x1024.size a
  inb_S1024x1024_S1024x128_0_512 : ∀ a, (![0, 512] : Fin 2 → Nat) a + S1024x128.size a ≤ S1024x1024.size a
  inb_S1024x1024_S1024x128_0_640 : ∀ a, (![0, 640] : Fin 2 → Nat) a + S1024x128.size a ≤ S1024x1024.size a
  inb_S1024x1024_S1024x128_0_768 : ∀ a, (![0, 768] : Fin 2 → Nat) a + S1024x128.size a ≤ S1024x1024.size a
  inb_S1024x1024_S1024x128_0_896 : ∀ a, (![0, 896] : Fin 2 → Nat) a + S1024x128.size a ≤ S1024x1024.size a
  dot_S1024x256_S256x8_S1024x8_1_0_0_1_n_n_wf : DotDims.WF S1024x256 S256x8 S1024x8 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .f32 = 32 ∨ (Rect.block (s := S256x1024) S256x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x8.size a ≤ S16384x8.size a
  hwx0_9 : ∀ i : grid0.Coords, EltTy.bits .f32 = 32 ∨ (Rect.block (s := S16384x8) S1024x8.size (cc0_transform_9 i) (hinb0_9 i)).WholeWords (EltTy.packing .f32)

variable [Facts₀]

def dot_S1024x256_S256x8_S1024x8_1_0_0_1_n_n : DotDims S1024x256 S256x8 S1024x8 where
  lhsContracting := [1]
  rhsContracting := [0]
  lhsNonContracting := [0]
  rhsNonContracting := [1]
  lhsBatch := []
  rhsBatch := []
  wf := dot_S1024x256_S256x8_S1024x8_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1024x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x256 : Shape := ⟨2, ![16384, 256]⟩
abbrev S8 : Shape := ⟨1, ![8]⟩
abbrev S8x256 : Shape := ⟨2, ![8, 256]⟩
abbrev S8x128x256 : Shape := ⟨3, ![8, 128, 256]⟩
abbrev S8x128 : Shape := ⟨2, ![8, 128]⟩
abbrev S256x8 : Shape := ⟨2, ![256, 8]⟩
abbrev S16384x8 : Shape := ⟨2, ![16384, 8]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S16384x8x128 : Shape := ⟨3, ![16384, 8, 128]⟩
abbrev S1x8x128 : Shape := ⟨3, ![1, 8, 128]⟩
abbrev S16384x8x1 : Shape := ⟨3, ![16384, 8, 1]⟩
abbrev S1x1x9 : Shape := ⟨3, ![1, 1, 9]⟩
abbrev S16384x8x9 : Shape := ⟨3, ![16384, 8, 9]⟩
abbrev S16384x9x128 : Shape := ⟨3, ![16384, 9, 128]⟩
abbrev S16384x1024 : Shape := ⟨2, ![16384, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8, .f32⟩
  | .hbm, ⟨2, _⟩ => ⟨S8x256, .f32⟩
  | .hbm, ⟨3, _⟩ => ⟨S8, .f32⟩
  | .hbm, ⟨4, _⟩ => ⟨S8x256, .f32⟩
  | .hbm, ⟨5, _⟩ => ⟨S8, .f32⟩
  | .hbm, ⟨6, _⟩ => ⟨S8x128x256, .f32⟩
  | .hbm, ⟨7, _⟩ => ⟨S8x128, .f32⟩
  | .hbm, ⟨8, _⟩ => ⟨S256x8, .f32⟩
  | .hbm, ⟨9, _⟩ => ⟨S16384x8, .f32⟩
  | .hbm, ⟨10, _⟩ => ⟨S1x8, .f32⟩
  | .hbm, ⟨11, _⟩ => ⟨S16384x8, .f32⟩
  | .hbm, ⟨12, _⟩ => ⟨S16384x8, .f32⟩
  | .hbm, ⟨13, _⟩ => ⟨S256x8, .f32⟩
  | .hbm, ⟨14, _⟩ => ⟨S16384x8, .f32⟩
  | .hbm, ⟨15, _⟩ => ⟨S1x8, .f32⟩
  | .hbm, ⟨16, _⟩ => ⟨S16384x8, .f32⟩
  | .hbm, ⟨17, _⟩ => ⟨S16384x8, .f32⟩
  | .hbm, ⟨18, _⟩ => ⟨S_, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .i1⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S1x8, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S_, .f32⟩
  | .hbm, ⟨37, _⟩ => ⟨S16384x8, .f32⟩
  | .hbm, ⟨38, _⟩ => ⟨S16384x8, .i1⟩
  | .hbm, ⟨39, _⟩ => ⟨S_, .f32⟩
  | .hbm, ⟨40, _⟩ => ⟨S16384x8, .f32⟩
  | .hbm, ⟨41, _⟩ => ⟨S16384x8, .f32⟩
  | .hbm, ⟨42, _⟩ => ⟨S_, .f32⟩
  | .hbm, ⟨43, _⟩ => ⟨S_, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x8, .f32⟩
  | .hbm, ⟨54, _⟩ => ⟨S16384x8, .f32⟩
  | .hbm, ⟨55, _⟩ => ⟨S16384x8, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x8, .f32⟩
  | .hbm, ⟨60, _⟩ => ⟨S16384x8, .f32⟩
  | .hbm, ⟨61, _⟩ => ⟨S_, .f32⟩
  | .hbm, ⟨62, _⟩ => ⟨S16384x8, .f32⟩
  | .hbm, ⟨63, _⟩ => ⟨S16384x8, .i1⟩
  | .hbm, ⟨64, _⟩ => ⟨S16384x8x128, .f32⟩
  | .hbm, ⟨65, _⟩ => ⟨S1x8x128, .f32⟩
  | .hbm, ⟨66, _⟩ => ⟨S16384x8x128, .f32⟩
  | .hbm, ⟨67, _⟩ => ⟨S16384x8x128, .f32⟩
  | .hbm, ⟨68, _⟩ => ⟨S16384x8x1, .i1⟩
  | .hbm, ⟨69, _⟩ => ⟨S16384x8x1, .f32⟩
  | .hbm, ⟨70, _⟩ => ⟨S16384x8x128, .f32⟩
  | .hbm, ⟨71, _⟩ => ⟨S16384x8x128, .f32⟩
  | .hbm, ⟨72, _⟩ => ⟨S_, .f32⟩
  | .hbm, ⟨73, _⟩ => ⟨S_, .f32⟩
  | .hbm, ⟨74, _⟩ => ⟨S16384x8x128, .i1⟩
  | .hbm, ⟨75, _⟩ => ⟨S16384x8x128, .f32⟩
  | .hbm, ⟨76, _⟩ => ⟨S16384x8x128, .f32⟩
  | .hbm, ⟨77, _⟩ => ⟨S16384x8, .i32⟩
  | .hbm, ⟨78, _⟩ => ⟨S_, .i32⟩
  | .hbm, ⟨79, _⟩ => ⟨S_, .i32⟩
  | .hbm, ⟨80, _⟩ => ⟨S16384x8, .i32⟩
  | .hbm, ⟨81, _⟩ => ⟨S16384x8, .i32⟩
  | .hbm, ⟨82, _⟩ => ⟨S_, .i32⟩
  | .hbm, ⟨83, _⟩ => ⟨S_, .i32⟩
  | .hbm, ⟨84, _⟩ => ⟨S16384x8, .i32⟩
  | .hbm, ⟨85, _⟩ => ⟨S16384x8, .i32⟩
  | .hbm, ⟨86, _⟩ => ⟨S16384x8x1, .i32⟩
  | .hbm, ⟨87, _⟩ => ⟨S1x1x9, .i32⟩
  | .hbm, ⟨88, _⟩ => ⟨S16384x8x9, .i32⟩
  | .hbm, ⟨89, _⟩ => ⟨S16384x8x9, .i32⟩
  | .hbm, ⟨90, _⟩ => ⟨S16384x8x9, .i1⟩
  | .hbm, ⟨91, _⟩ => ⟨S16384x8x9, .f32⟩
  | .hbm, ⟨92, _⟩ => ⟨S16384x9x128, .f32⟩
  | .hbm, ⟨93, _⟩ => ⟨S16384x8x128, .f32⟩
  | .hbm, ⟨94, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v42 : Ref sig .tc := ⟨.hbm, 76, rfl⟩
abbrev main_v43 : Ref sig .tc := ⟨.hbm, 77, rfl⟩
abbrev main_call3_call0_c : Ref sig .tc := ⟨.hbm, 78, rfl⟩
abbrev main_call3_call0_v0 : Ref sig .tc := ⟨.hbm, 79, rfl⟩
abbrev main_v44 : Ref sig .tc := ⟨.hbm, 80, rfl⟩
abbrev main_v45 : Ref sig .tc := ⟨.hbm, 81, rfl⟩
abbrev main_c : Ref sig .tc := ⟨.hbm, 82, rfl⟩
abbrev main_call4_v0 : Ref sig .tc := ⟨.hbm, 83, rfl⟩
abbrev main_call4_v1 : Ref sig .tc := ⟨.hbm, 84, rfl⟩
abbrev main_v46 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]

class Facts₀ : Prop where
  transposes_S8x256_S256x8_1_0 : S8x256.Transposes [1, 0] S256x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  bcast_S8x128_S1x8x128_1_2 : S8x128.BroadcastsInDim S1x8x128 (![1, 2] : Fin 2 → Fin S1x8x128.rank)
  bcast_S1x8x128_S16384x8x128_0_1_2 : S1x8x128.BroadcastsInDim S16384x8x128 (![0, 1, 2] : Fin 3 → Fin S16384x8x128.rank)
  bcast_S16384x8_S16384x8x1_0_1 : S16384x8.BroadcastsInDim S16384x8x1 (![0, 1] : Fin 2 → Fin S16384x8x1.rank)
  bcast_S16384x8x1_S16384x8x128_0_1_2 : S16384x8x1.BroadcastsInDim S16384x8x128 (![0, 1, 2] : Fin 3 → Fin S16384x8x128.rank)
  bcast_S_S16384x8x128 : S_.BroadcastsInDim S16384x8x128 (![] : Fin 0 → Fin S16384x8x128.rank)
  natLt_1_32 : 1 < 32
  bcast_S_S_ : S_.BroadcastsInDim S_ (![] : Fin 0 → Fin S_.rank)
  reduceWindows_S16384x8_S16384x8_w1s1p0_0_w8s1p7_0 : S16384x8.ReduceWindows (![1, 8] : Fin 2 → Nat) ![1, 1] ![0, 7] ![0, 0] S16384x8
  bcast_S16384x8x1_S16384x8x9_0_1_2 : S16384x8x1.BroadcastsInDim S16384x8x9 (![0, 1, 2] : Fin 3 → Fin S16384x8x9.rank)
  bcast_S1x1x9_S16384x8x9_0_1_2 : S1x1x9.BroadcastsInDim S16384x8x9 (![0, 1, 2] : Fin 3 → Fin S16384x8x9.rank)
  slices_S16384x9x128_S16384x8x128_0_0_0 : S16384x9x128.Slices ![0, 0, 0] S16384x8x128
  shapeCasts_S16384x8x128_S16384x1024 : S16384x8x128.ShapeCasts S16384x1024
  dot_S16384x256_S256x8_S16384x8_1_0_0_1_n_n_wf : DotDims.WF S16384x256 S256x8 S16384x8 [1] [0] [0] [1] [] []
  dot_S16384x256_S8x128x256_S16384x8x128_1_2_0_01_n_n_wf : DotDims.WF S16384x256 S8x128x256 S16384x8x128 [1] [2] [0] [0, 1] [] []
  dot_S16384x8x9_S16384x8x128_S16384x9x128_1_1_2_2_0_0_wf : DotDims.WF S16384x8x9 S16384x8x128 S16384x9x128 [1] [1] [2] [2] [0] [0]

variable [Facts₀]

def dot_S16384x256_S256x8_S16384x8_1_0_0_1_n_n : DotDims S16384x256 S256x8 S16384x8 where
  lhsContracting := [1]
  rhsContracting := [0]
  lhsNonContracting := [0]
  rhsNonContracting := [1]
  lhsBatch := []
  rhsBatch := []
  wf := dot_S16384x256_S256x8_S16384x8_1_0_0_1_n_n_wf
def dot_S16384x256_S8x128x256_S16384x8x128_1_2_0_01_n_n : DotDims S16384x256 S8x128x256 S16384x8x128 where
  lhsContracting := [1]
  rhsContracting := [2]
  lhsNonContracting := [0]
  rhsNonContracting := [0, 1]
  lhsBatch := []
  rhsBatch := []
  wf := dot_S16384x256_S8x128x256_S16384x8x128_1_2_0_01_n_n_wf
def dot_S16384x8x9_S16384x8x128_S16384x9x128_1_1_2_2_0_0 : DotDims S16384x8x9 S16384x8x128 S16384x9x128 where
  lhsContracting := [1]
  rhsContracting := [1]
  lhsNonContracting := [2]
  rhsNonContracting := [2]
  lhsBatch := [0]
  rhsBatch := [0]
  wf := dot_S16384x8x9_S16384x8x128_S16384x9x128_1_1_2_2_0_0_wf

class Facts : Prop extends Facts₀ where

variable [Facts]
-- ==== Proof.Spec.lean ====
/-
  What one row of the two results is, as a function of one row of `x` and of the weight arrays, written twice:
  once in the arrangement the kernel's body computes it in (names starting `k`) and once in the arrangement the
  jnp reference computes it in (names starting `r`). Everything is over the extended reals; index types are plain `Fin`s.

  One row: the gate logits `h n = x·Wg n + bg n + noise n · softplus (x·Wn n + bn n)`; logits at or below zero are replaced
  by the large negative stand-in (`negBig`); the softmax `G` of the result over the eight experts; an expert is
  SELECTED when its `G` is positive; the experts' outputs `Y n d = x·cw n d + cb n d`; and the packed output, whose
  slot `s` holds `G n · Y n` of the selected expert `n` that has exactly `s` selected experts before it (zero if none).
  The two arrangements differ in how the thresholding is spelt (a select, against adding `negBig − h`), in the
  softmax's initial values, in how the running count of selected experts is taken, and in how slot `s` is summed
  (over the experts `n ≥ s` with a selected-and-counted coefficient, against a one-hot matrix product over all experts).
-/
import Idealize.ShloMosaic.PureOps.Ideal
import Idealize.ShloMosaic.Lib.ValueIdx

noncomputable section

open scoped BigOperators

namespace Cert.Spec

open Idealize.ShloMosaic Idealize.ShloMosaic.ValueIdx

/-- The f32 zero word, read at the extended reals. -/
abbrev zero32 : EReal := Ideal.ofBits .f32 0x00000000#32
/-- The finite stand-in for minus infinity both programs use (about `-1e38`). -/
abbrev negBig : EReal := Ideal.ofBits .f32 0xFE967699#32
/-- The f32 minus-infinity word, read at the extended reals. -/
abbrev negInf : EReal := Ideal.ofBits .f32 0xFF800000#32

/-- A row of `x` against a row of a weight matrix: the sum of the 256 products. -/
def dot (a b : Fin 256 → EReal) : EReal := ∑ k : Fin 256, a k * b k

/-! ## The gate logit and its threshold -/

/-- `softplus z = max z 0 + log1p (exp (−|z|))` as the kernel's body spells it (the guard's first branch is dead:
    an extended real is never different from itself). -/
def kSoftplus (z : EReal) : EReal :=
  Scalar.select (Ideal.cmp .one (z - zero32) (z - zero32)) (z + zero32)
    (max z zero32 + Ideal.log1p (Ideal.exp (zero32 - max (z - zero32) (-(z - zero32)))))

/-- The same as the reference spells it (a negation where the kernel subtracts from zero). -/
def rSoftplus (z : EReal) : EReal :=
  Scalar.select (Ideal.cmp .une (z - zero32) (z - zero32)) (z + zero32)
    (max z zero32 + Ideal.log1p (Ideal.exp (-(max (z - zero32) (-(z - zero32))))))

/-- The kernel's gate logit of one expert. -/
def kH (xr wg : Fin 256 → EReal) (bg : EReal) (wn : Fin 256 → EReal) (bn nz : EReal) : EReal :=
  (dot xr wg + bg) + nz * kSoftplus (dot xr wn + bn)

/-- The reference's gate logit of one expert. -/
def rH (xr wg : Fin 256 → EReal) (bg : EReal) (wn : Fin 256 → EReal) (bn nz : EReal) : EReal :=
  (dot xr wg + bg) + nz * rSoftplus (dot xr wn + bn)

/-- The kernel's thresholded logit: `negBig` where the logit is at most zero, else the logit. -/
def kThr (h : EReal) : EReal := Scalar.select (Ideal.cmp .ole h zero32) negBig h

/-- The reference's: the logit plus `negBig − logit` where it is at most zero, plus zero elsewhere. -/
def rThr (h : EReal) : EReal := h + Scalar.select (Ideal.cmp .ole h zero32) (negBig - h) zero32

/-! ## The softmax over the eight experts -/

/-- The kernel's row maximum: the fold of `max` from minus infinity. -/
def kMax (g : Fin 8 → EReal) : EReal := (Finset.univ : Finset (Fin 8)).fold max negInf g

/-- The kernel's softmax. -/
def kSoft (g : Fin 8 → EReal) (n : Fin 8) : EReal :=
  Ideal.div (Ideal.exp (g n - kMax g)) (∑ j : Fin 8, Ideal.exp (g j - kMax g))

/-- The reference's row maximum: the same fold, once more against minus infinity. -/
def rMax (g : Fin 8 → EReal) : EReal := max negInf ((Finset.univ : Finset (Fin 8)).fold max negInf g)

/-- The reference's softmax: its sum starts from the zero word. -/
def rSoft (g : Fin 8 → EReal) (n : Fin 8) : EReal :=
  Ideal.div (Ideal.exp (g n - rMax g)) (zero32 + ∑ j : Fin 8, Ideal.exp (g j - rMax g))

/-! ## Selection, the running count, and the packed slots -/

/-- Expert `n` is selected: its softmax weight is positive (a one-bit word). -/
def sel (G : Fin 8 → EReal) (n : Fin 8) : BitVec 1 := Ideal.cmp .ogt (G n) zero32

/-- The 32-bit running count of selected experts among the first `n`. -/
def cnt (G : Fin 8 → EReal) : ℕ → BitVec 32
  | 0 => 0#32
  | n + 1 => cnt G n + (if h : n < 8 then (sel G ⟨n, h⟩).setWidth 32 else 0#32)

/-- The kernel's coefficient of expert `n` in slot `s`: its weight if it is selected and `s` selected experts
    precede it, else zero. -/
def kCoef (G : Fin 8 → EReal) (s n : Fin 8) : EReal :=
  Scalar.select (IntOp.andi (IntOp.cmpi .eq (cnt G n.val) (BitVec.ofNat 32 s.val)) (sel G n)) (G n) zero32

/-- The kernel's slot `s`: from zero, the experts `n = s, …, 7` added in order, each `coefficient · Y n`. -/
def kPacked (G : Fin 8 → EReal) (Y : Fin 8 → Fin 128 → EReal) (s : Fin 8) (d : Fin 128) : EReal :=
  ((List.finRange 8).filter fun n => s ≤ n).foldl (fun acc n => acc + kCoef G s n * Y n d) zero32

/-- The reference's slot number of expert `i`: the inclusive count less its own bit if selected, else the dump slot 8. -/
def rSlot (G : Fin 8 → EReal) (i : Fin 8) : BitVec 32 :=
  Scalar.select (sel G i) (IntOp.subi (cnt G (i.val + 1)) ((sel G i).setWidth 32)) 8#32

/-- The reference's one-hot entry: one where expert `i`'s slot number is `s`, else zero. -/
def rHot (G : Fin 8 → EReal) (i : Fin 8) (s : Fin 9) : EReal :=
  (((IntOp.cmpi .eq (rSlot G i) (BitVec.ofNat 32 s.val)).toNat : ℝ) : EReal)

/-- The reference's gated expert output: `G i · Y i` if selected, else zero. -/
def rGated (G : Fin 8 → EReal) (Y : Fin 8 → Fin 128 → EReal) (i : Fin 8) (d : Fin 128) : EReal :=
  Scalar.select (sel G i) (G i * Y i d) zero32

/-- The reference's slot `s`: the one-hot column against the gated outputs, summed over all eight experts. -/
def rPacked (G : Fin 8 → EReal) (Y : Fin 8 → Fin 128 → EReal) (s : Fin 8) (d : Fin 128) : EReal :=
  ∑ i : Fin 8, rHot G i ⟨s.val, by omega⟩ * rGated G Y i d

/-! ## The two results as whole arrays of the eight argument arrays -/

section Arrays

variable (x : (⟨2, ![16384, 256]⟩ : Shape).Idx → EReal) (noise : (⟨1, ![8]⟩ : Shape).Idx → EReal)
  (wg : (⟨2, ![8, 256]⟩ : Shape).Idx → EReal) (bg : (⟨1, ![8]⟩ : Shape).Idx → EReal)
  (wn : (⟨2, ![8, 256]⟩ : Shape).Idx → EReal) (bn : (⟨1, ![8]⟩ : Shape).Idx → EReal)
  (cw : (⟨3, ![8, 128, 256]⟩ : Shape).Idx → EReal) (cb : (⟨2, ![8, 128]⟩ : Shape).Idx → EReal)

/-- Row `b`'s thresholded logits, the kernel's arrangement. -/
def kLogits (b : Fin 16384) : Fin 8 → EReal := fun j =>
  kThr (kH (fun k => x (ix2 b k)) (fun k => wg (ix2 j k)) (bg (ix1 j)) (fun k => wn (ix2 j k)) (bn (ix1 j)) (noise (ix1 j)))

/-- Row `b`'s thresholded logits, the reference's arrangement. -/
def rLogits (b : Fin 16384) : Fin 8 → EReal := fun j =>
  rThr (rH (fun k => x (ix2 b k)) (fun k => wg (ix2 j k)) (bg (ix1 j)) (fun k => wn (ix2 j k)) (bn (ix1 j)) (noise (ix1 j)))

/-- Row `b`'s expert outputs (the same sum on both sides). -/
def experts (b : Fin 16384) : Fin 8 → Fin 128 → EReal := fun n d =>
  dot (fun k => x (ix2 b k)) (fun k => cw (ix3 n d k)) + cb (ix2 n d)

/-- The gate array `[16384, 8]`, the kernel's arrangement. -/
def kGate : (⟨2, ![16384, 8]⟩ : Shape).Idx → EReal := fun i =>
  kSoft (kLogits x noise wg bg wn bn (i 0)) (i 1)

/-- The gate array, the reference's arrangement. -/
def rGate : (⟨2, ![16384, 8]⟩ : Shape).Idx → EReal := fun i =>
  rSoft (rLogits x noise wg bg wn bn (i 0)) (i 1)

/-- The packed output `[16384, 1024]`, the kernel's arrangement: column `q` is slot `q / 128`, channel `q % 128`. -/
def kOut : (⟨2, ![16384, 1024]⟩ : Shape).Idx → EReal := fun i =>
  kPacked (fun n => kGate x noise wg bg wn bn (ix2 (i 0) n)) (experts x cw cb (i 0))
    ⟨(i 1).val / 128, by have := idx2_lt1 i; omega⟩
    ⟨(i 1).val % 128, Nat.mod_lt _ (by decide)⟩

/-- The packed output, the reference's arrangement. -/
def rOut : (⟨2, ![16384, 1024]⟩ : Shape).Idx → EReal := fun i =>
  rPacked (fun n => rGate x noise wg bg wn bn (ix2 (i 0) n)) (experts x cw cb (i 0))
    ⟨(i 1).val / 128, by have := idx2_lt1 i; omega⟩
    ⟨(i 1).val % 128, Nat.mod_lt _ (by decide)⟩

end Arrays

end Cert.Spec

end
-- ==== Proof.KGate.lean ====
/-
  The kernel body's three dense stages read at one element, over arbitrary vectors of the loaded blocks' shapes:
  the thresholded gate logits (two matmuls against the transposed gate weights, softplus, the noise, the threshold),
  the softmax over the eight experts of a row, and the experts' outputs (the bf16-cast matmul against the flattened,
  transposed expert weights plus the flattened bias). Each is the row formula of Spec.lean at that row.

  Every operation but five kinds is pointwise and reads at (p, n) as the scalar operation on the operands at (p, n).
  The five: a matrix product into the zero constant is the sum of the 256 products of the row of the left operand and
  the column of the right one (the contraction index is its one coordinate); a shape cast to the same shape is the
  identity; a vector cast to one row and broadcast down the rows reads its entry at the column; a vector cast to one
  column and broadcast along the columns reads its entry at the row; and a reduction over the expert axis is the fold
  of `max`, or the sum, over the row's eight entries (the reduced index with the coordinate put back is (p, k)).
-/
import proofs.«400578_j13073880449226_3_alg».proof.Proof.Gen.KernelIdeal.Skeleton
import proofs.«400578_j13073880449226_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KGate

open Cert.KernelIdeal Cert.KernelIdeal.Gen Idealize.ShloMosaic Idealize.ShloMosaic.ValueIdx

/-! ## The pointwise transcendental and absolute-value operations read at an index -/

theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl
theorem absf_at {s : Shape} {φ : FTy} (a : FVec Ideal s φ) (i : s.Idx) : absf a i = max (a i) (-(a i)) := rfl

/-! ## The two matrix products read at an index: the sum over the 256 contracted coordinates -/

/-- The row block against a 256×8 block, into the zero constant, read at (p, n). -/
theorem matmul8_apply (prec : Option ContractPrecision) (A : FVec Ideal S1024x256 .f32) (B : FVec Ideal S256x8 .f32)
    (p : Fin 1024) (n : Fin 8) :
    matmul dot_S1024x256_S256x8_S1024x8_1_0_0_1_n_n prec A B (constant S1024x8 .f32 0x00000000#32) (ix2 p n)
      = ∑ k : Fin 256, A (ix2 p k) * B (ix2 k n) := by
  show FloatOps.matmul _ prec A B _ (ix2 p n) = _
  rw [Ideal.matmul_constant_zero_apply,
    ← Equiv.sum_comp (contrEquiv1 dot_S1024x256_S256x8_S1024x8_1_0_0_1_n_n 256 rfl rfl).symm]
  refine Finset.sum_congr rfl fun c _ => ?_
  have c2 := contrEquiv1_symm_val dot_S1024x256_S256x8_S1024x8_1_0_0_1_n_n 256 rfl rfl c
  have l2 : dot_S1024x256_S256x8_S1024x8_1_0_0_1_n_n.lhsIdx (ix2 p n) ((contrEquiv1 _ 256 rfl rfl).symm c) = ix2 p c := by
    funext ax; apply Fin.ext
    match ax with
    | ⟨0, _⟩ => simp [DotDims.lhsIdx, dot_S1024x256_S256x8_S1024x8_1_0_0_1_n_n]; rfl
    | ⟨1, _⟩ => simp [DotDims.lhsIdx, dot_S1024x256_S256x8_S1024x8_1_0_0_1_n_n]; exact c2
  have r2 : dot_S1024x256_S256x8_S1024x8_1_0_0_1_n_n.rhsIdx (ix2 p n) ((contrEquiv1 _ 256 rfl rfl).symm c) = ix2 c n := by
    funext ax; apply Fin.ext
    match ax with
    | ⟨0, _⟩ => simp [DotDims.rhsIdx, dot_S1024x256_S256x8_S1024x8_1_0_0_1_n_n]; exact c2
    | ⟨1, _⟩ => simp [DotDims.rhsIdx, dot_S1024x256_S256x8_S1024x8_1_0_0_1_n_n]; rfl
  rw [l2, r2]

/-- The row block against the 256×1024 block (both read as bf16), into the zero constant, read at (p, q). -/
theorem matmul1024_apply (prec : Option ContractPrecision) (A : FVec Ideal S1024x256 .bf16) (B : FVec Ideal S256x1024 .bf16)
    (p q : Fin 1024) :
    matmul dot_S1024x256_S256x1024_S1024x1024_1_0_0_1_n_n prec A B (constant S1024x1024 .f32 0x00000000#32) (ix2 p q)
      = ∑ k : Fin 256, A (ix2 p k) * B (ix2 k q) := by
  show FloatOps.matmul _ prec A B _ (ix2 p q) = _
  rw [Ideal.matmul_constant_zero_apply,
    ← Equiv.sum_comp (contrEquiv1 dot_S1024x256_S256x1024_S1024x1024_1_0_0_1_n_n 256 rfl rfl).symm]
  refine Finset.sum_congr rfl fun c _ => ?_
  have c2 := contrEquiv1_symm_val dot_S1024x256_S256x1024_S1024x1024_1_0_0_1_n_n 256 rfl rfl c
  have l2 : dot_S1024x256_S256x1024_S1024x1024_1_0_0_1_n_n.lhsIdx (ix2 p q) ((contrEquiv1 _ 256 rfl rfl).symm c) = ix2 p c := by
    funext ax; apply Fin.ext
    match ax with
    | ⟨0, _⟩ => simp [DotDims.lhsIdx, dot_S1024x256_S256x1024_S1024x1024_1_0_0_1_n_n]; rfl
    | ⟨1, _⟩ => simp [DotDims.lhsIdx, dot_S1024x256_S256x1024_S1024x1024_1_0_0_1_n_n]; exact c2
  have r2 : dot_S1024x256_S256x1024_S1024x1024_1_0_0_1_n_n.rhsIdx (ix2 p q) ((contrEquiv1 _ 256 rfl rfl).symm c) = ix2 c q := by
    funext ax; apply Fin.ext
    match ax with
    | ⟨0, _⟩ => simp [DotDims.rhsIdx, dot_S1024x256_S256x1024_S1024x1024_1_0_0_1_n_n]; exact c2
    | ⟨1, _⟩ => simp [DotDims.rhsIdx, dot_S1024x256_S256x1024_S1024x1024_1_0_0_1_n_n]; rfl
  rw [l2, r2]

/-! ## A vector laid as one row and repeated over the rows; a column repeated over the columns -/

/-- Eight entries cast to one row and broadcast over the 1024 rows: entry `n` at every (p, n). -/
theorem row8_apply (v : FVec Ideal S8 .f32) (p : Fin 1024) (n : Fin 8) :
    broadcastTo S1024x8 (shapeCast S1x8 v shapeCasts_S8_S1x8) broadcasts_S1x8_S1024x8 (ix2 p n) = v (ix1 n) :=
  (broadcastTo_1b_ab_apply _ _ p n).trans (shapeCast_a_1a_apply v _ 0 n)

/-- 1024 entries cast to one row and broadcast over the 1024 rows: entry `q` at every (p, q). -/
theorem row1024_apply (v : FVec Ideal S1024 .f32) (p q : Fin 1024) :
    broadcastTo S1024x1024 (shapeCast S1x1024 v shapeCasts_S1024_S1x1024) broadcasts_S1x1024_S1024x1024 (ix2 p q) = v (ix1 q) :=
  (broadcastTo_1b_ab_apply _ _ p q).trans (shapeCast_a_1a_apply v _ 0 q)

/-- 1024 entries cast to one column and broadcast over the 8 columns: entry `p` at every (p, n). -/
theorem col8_apply (w : FVec Ideal S1024 .f32) (p : Fin 1024) (n : Fin 8) :
    broadcastTo S1024x8 (shapeCast S1024x1 w shapeCasts_S1024_S1024x1) broadcasts_S1024x1_S1024x8 (ix2 p n) = w (ix1 p) := by
  refine (broadcastTo_apply _ _ (ix2 p n) (ix2 p (0 : Fin 1)) (fun a => ?_)).trans ?_
  · match a with
    | ⟨0, _⟩ => show p.val = (if (1024 : Nat) = 1 then 0 else p.val); rw [if_neg (by decide)]
    | ⟨1, _⟩ => show 0 = (if (1 : Nat) = 1 then 0 else n.val); rw [if_pos rfl]
  · exact shapeCast_apply _ _ (ix2 p (0 : Fin 1)) (ix1 p) (by
      rw [Shape.rowMajor_val_one, Shape.rowMajor_val_two]; show p.val = p.val * 1 + 0; omega)

/-! ## The two row reductions over the eight experts -/

/-- The reduced index `p` with coordinate `k` put back on the dropped axis is (p, k). -/
theorem lift8 (p : Fin 1024) (k : Fin 8) : reduces_S1024x8_S1024.lift (ix1 p) k = ix2 p k := by
  funext c
  match c with
  | ⟨0, _⟩ => exact Fin.ext rfl
  | ⟨1, _⟩ => exact Fin.ext rfl

/-- The row maximum: the fold of `max` from minus infinity over the row's eight entries. -/
theorem rowmax_apply (v : FVec Ideal S1024x8 .f32) (p : Fin 1024) :
    multiReduction .maximumf [1] S1024 v 0xFF800000#32 reduces_S1024x8_S1024 (.inl rfl) rfl (ix1 p)
      = Spec.kMax (fun j => v (ix2 p j)) := by
  refine (Ideal.multiReduction_maximumf_single v _ reduces_S1024x8_S1024 _ _ (ix1 p)).trans ?_
  exact congrArg (fun g : Fin 8 → EReal => (Finset.univ : Finset (Fin 8)).fold max Spec.negInf g)
    (funext fun k => congrArg v (lift8 p k))

/-- The row sum: the sum of the row's eight entries. -/
theorem rowsum_apply (v : FVec Ideal S1024x8 .f32) (p : Fin 1024) :
    multiReduction .add [1] S1024 v 0x00000000#32 reduces_S1024x8_S1024 (.inl rfl) rfl (ix1 p)
      = ∑ j : Fin 8, v (ix2 p j) := by
  refine (Ideal.multiReduction_add_single v _ reduces_S1024x8_S1024 _ _ (ix1 p)).trans ?_
  exact Finset.sum_congr rfl fun k _ => congrArg v (lift8 p k)

/-! ## The three stages -/

/-- The thresholded logit of row `p`, expert `n`: `x`'s row against column `n` of each transposed weight block. -/
theorem pay5_apply (v0 : Vec Ideal S1024x256 .f32) (v2 v4 : Vec Ideal S256x8 .f32) (v10 v15 v33 : Vec Ideal S8 .f32)
    (p : Fin 1024) (n : Fin 8) :
    k0_pay5 (F := Ideal) v0 v2 v4 v10 v15 v33 (ix2 p n)
      = Spec.kThr (Spec.kH (fun k => v0 (ix2 p k)) (fun k => v2 (ix2 k n)) (v10 (ix1 n)) (fun k => v4 (ix2 k n)) (v15 (ix1 n)) (v33 (ix1 n))) := by
  unfold k0_pay5
  simp only [select_apply, cmpf_apply, broadcast_apply, addf_apply, mulf_apply, subf_apply, maximumf_apply,
    exp_at, log1p_at, absf_at, shapeCast_self, matmul8_apply, row8_apply]
  rfl

/-- The softmax weight of row `p`, expert `n`, from that row of the thresholded logits. -/
theorem pay6_apply (v41 : FVec Ideal S1024x8 .f32) (p : Fin 1024) (n : Fin 8) :
    k0_pay6 (F := Ideal) v41 (ix2 p n) = Spec.kSoft (fun j => v41 (ix2 p j)) n := by
  unfold k0_pay6
  -- the row maximum, repeated over the columns, is `kMax` of the row at every column
  have hm : ∀ j : Fin 8,
      broadcastTo S1024x8 (shapeCast S1024x1 (multiReduction .maximumf [1] S1024 v41 0xFF800000#32 reduces_S1024x8_S1024
        (.inl rfl) rfl) shapeCasts_S1024_S1024x1) broadcasts_S1024x1_S1024x8 (ix2 p j)
        = Spec.kMax (fun j => v41 (ix2 p j)) :=
    fun j => (col8_apply _ p j).trans (rowmax_apply v41 p)
  -- so each exponential of the row is `exp (g j − kMax g)`
  have he : ∀ j : Fin 8,
      exp (subf v41 (broadcastTo S1024x8 (shapeCast S1024x1 (multiReduction .maximumf [1] S1024 v41 0xFF800000#32
        reduces_S1024x8_S1024 (.inl rfl) rfl) shapeCasts_S1024_S1024x1) broadcasts_S1024x1_S1024x8)) (ix2 p j)
        = Ideal.exp (v41 (ix2 p j) - Spec.kMax (fun j => v41 (ix2 p j))) :=
    fun j => congrArg (fun m => Ideal.exp (v41 (ix2 p j) - m)) (hm j)
  -- the quotient of the exponential by the row's sum of exponentials
  exact congrArg₂ Ideal.div (he n)
    ((col8_apply _ p n).trans ((rowsum_apply _ p).trans (Finset.sum_congr rfl fun j _ => he j)))
/-- The experts' outputs, flattened: row `p` of `x` against column `q` of the transposed weights, plus bias `q`
    (the two casts to bf16 are the identity on extended reals). -/
theorem pay7_apply (v0 : Vec Ideal S1024x256 .f32) (v6 : Vec Ideal S256x1024 .f32) (v53 : Vec Ideal S1024 .f32)
    (p q : Fin 1024) :
    k0_pay7 (F := Ideal) (k0_pay3 v0) (k0_pay4 v6) v53 (ix2 p q)
      = Spec.dot (fun k => v0 (ix2 p k)) (fun k => v6 (ix2 k q)) + v53 (ix1 q) := by
  unfold k0_pay7 k0_pay3 k0_pay4
  simp only [addf_apply, matmul1024_apply, truncf_apply, shapeCast_self, row1024_apply]
  rfl

end Cert.KernelIdeal.KGate

end
-- ==== Proof.KPack.lean ====
/-
  The kernel body's compaction read at one element. The eight stores into the output block (one per slot) are
  the eight terms `piece0 … piece7` below: the generated body's store payloads with the thresholded-logit block
  (`v41`) and the experts' outputs (`Y`) as variables. Slot `s` at row `p`, channel `d` is, from zero, the experts
  `n = s … 7` added in order, each the softmax weight of `n` where `n` is selected and exactly `s` selected experts
  precede it (the running count is the body's 32-bit sum of the selection bits) times expert `n`'s output.
-/
import proofs.«400578_j13073880449226_3_alg».proof.Proof.Gen.KernelIdeal.Skeleton
import proofs.«400578_j13073880449226_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPack

open Cert.KernelIdeal Cert.KernelIdeal.Gen Idealize.ShloMosaic Idealize.ShloMosaic.ValueIdx

/-- Row `p` of the flattened experts' outputs as expert × channel: column `n · 128 + d`. -/
def yRow (Y : FVec Ideal S1024x1024 .f32) (p : Fin 1024) : Fin 8 → Fin 128 → EReal :=
  fun n d => Y (ix2 p ⟨n.val * 128 + d.val, by have := n.isLt; have := d.isLt; omega⟩)

/-- What the body stores into columns `0 … 127` of the output block: slot 0. -/
def piece0 (v41 : FVec Ideal S1024x8 .f32) (Y : FVec Ideal S1024x1024 .f32) : FVec Ideal S1024x128 .f32 :=
  k0_pay29 Y (k0_pay22 (k0_pay6 v41) (k0_pay18 v41)) (k0_pay23 (k0_pay6 v41)) (k0_pay27 (k0_pay6 v41) Y (k0_pay14 v41) (k0_pay15 v41) (k0_pay16 v41) (k0_pay17 v41) (k0_pay18 v41) (k0_pay19 (k0_pay6 v41)) (k0_pay20 (k0_pay6 v41) (k0_pay18 v41)) (k0_pay21 (k0_pay6 v41)) (k0_pay24 (k0_pay6 v41) Y k0_pay8 (k0_pay9 v41) (k0_pay10 v41) (k0_pay11 v41)) (k0_pay25 Y) (k0_pay26 (k0_pay6 v41) (k0_pay12 v41) (k0_pay13 v41))) (k0_pay28 (k0_pay6 v41))

/-- What the body stores into columns `128 … 255` of the output block: slot 1. -/
def piece1 (v41 : FVec Ideal S1024x8 .f32) (Y : FVec Ideal S1024x1024 .f32) : FVec Ideal S1024x128 .f32 :=
  k0_pay32 (k0_pay6 v41) Y (k0_pay16 v41) (k0_pay17 v41) (k0_pay18 v41) (k0_pay19 (k0_pay6 v41)) (k0_pay20 (k0_pay6 v41) (k0_pay18 v41)) (k0_pay21 (k0_pay6 v41)) (k0_pay22 (k0_pay6 v41) (k0_pay18 v41)) (k0_pay23 (k0_pay6 v41)) (k0_pay30 (k0_pay6 v41) Y (k0_pay10 v41) (k0_pay11 v41) (k0_pay12 v41) (k0_pay13 v41)) (k0_pay31 (k0_pay6 v41) Y (k0_pay14 v41) (k0_pay15 v41))

/-- What the body stores into columns `256 … 383` of the output block: slot 2. -/
def piece2 (v41 : FVec Ideal S1024x8 .f32) (Y : FVec Ideal S1024x1024 .f32) : FVec Ideal S1024x128 .f32 :=
  k0_pay35 (k0_pay6 v41) Y (k0_pay20 (k0_pay6 v41) (k0_pay18 v41)) (k0_pay21 (k0_pay6 v41)) (k0_pay22 (k0_pay6 v41) (k0_pay18 v41)) (k0_pay23 (k0_pay6 v41)) (k0_pay33 (k0_pay6 v41) Y (k0_pay12 v41) (k0_pay13 v41) (k0_pay14 v41) (k0_pay15 v41) (k0_pay16 v41) (k0_pay17 v41) (k0_pay18 v41) (k0_pay19 (k0_pay6 v41))) (k0_pay34 (k0_pay6 v41))

/-- What the body stores into columns `384 … 511` of the output block: slot 3. -/
def piece3 (v41 : FVec Ideal S1024x8 .f32) (Y : FVec Ideal S1024x1024 .f32) : FVec Ideal S1024x128 .f32 :=
  k0_pay38 (k0_pay6 v41) Y (k0_pay18 v41) (k0_pay19 (k0_pay6 v41)) (k0_pay20 (k0_pay6 v41) (k0_pay18 v41)) (k0_pay21 (k0_pay6 v41)) (k0_pay22 (k0_pay6 v41) (k0_pay18 v41)) (k0_pay23 (k0_pay6 v41)) (k0_pay36 (k0_pay6 v41) Y (k0_pay14 v41) (k0_pay15 v41)) (k0_pay37 (k0_pay6 v41) Y (k0_pay16 v41) (k0_pay17 v41))

/-- What the body stores into columns `512 … 639` of the output block: slot 4. -/
def piece4 (v41 : FVec Ideal S1024x8 .f32) (Y : FVec Ideal S1024x1024 .f32) : FVec Ideal S1024x128 .f32 :=
  k0_pay42 (k0_pay6 v41) Y (k0_pay18 v41) (k0_pay19 (k0_pay6 v41)) (k0_pay20 (k0_pay6 v41) (k0_pay18 v41)) (k0_pay21 (k0_pay6 v41)) (k0_pay22 (k0_pay6 v41) (k0_pay18 v41)) (k0_pay23 (k0_pay6 v41)) (k0_pay39 (F := Ideal)) (k0_pay40 Y) (k0_pay41 (k0_pay6 v41) (k0_pay16 v41) (k0_pay17 v41))

/-- What the body stores into columns `640 … 767` of the output block: slot 5. -/
def piece5 (v41 : FVec Ideal S1024x8 .f32) (Y : FVec Ideal S1024x1024 .f32) : FVec Ideal S1024x128 .f32 :=
  k0_pay45 (k0_pay6 v41) Y (k0_pay20 (k0_pay6 v41) (k0_pay18 v41)) (k0_pay21 (k0_pay6 v41)) (k0_pay22 (k0_pay6 v41) (k0_pay18 v41)) (k0_pay23 (k0_pay6 v41)) (k0_pay43 (F := Ideal)) (k0_pay44 (k0_pay6 v41) (k0_pay18 v41) (k0_pay19 (k0_pay6 v41)))

/-- What the body stores into columns `768 … 895` of the output block: slot 6. -/
def piece6 (v41 : FVec Ideal S1024x8 .f32) (Y : FVec Ideal S1024x1024 .f32) : FVec Ideal S1024x128 .f32 :=
  k0_pay1 Y (k0_pay46 (k0_pay6 v41) Y (k0_pay20 (k0_pay6 v41) (k0_pay18 v41)) (k0_pay21 (k0_pay6 v41))) (k0_pay47 (k0_pay6 v41)) (k0_pay48 (k0_pay22 (k0_pay6 v41) (k0_pay18 v41)) (k0_pay23 (k0_pay6 v41))) (Scalar.ofBits .f32 0x00000000#32)

/-- What the body stores into columns `896 … 1023` of the output block: slot 7. -/
def piece7 (v41 : FVec Ideal S1024x8 .f32) (Y : FVec Ideal S1024x1024 .f32) : FVec Ideal S1024x128 .f32 :=
  k0_pay2 (k0_pay6 v41) Y (k0_pay22 (k0_pay6 v41) (k0_pay18 v41)) (k0_pay23 (k0_pay6 v41))

/-- A column block of width one, flattened: row `p` reads the block at `(p, 0)`. -/
theorem flat_apply {α : Type} (c : S1024x1.Idx → α) (hc : S1024x1.ShapeCasts S1024) (p : Fin 1024) :
    shapeCast S1024 c hc (ix1 p) = c (ix2 p ⟨0, by decide⟩) :=
  shapeCast_apply c hc (ix1 p) (ix2 p ⟨0, by decide⟩)
    (by rw [Shape.rowMajor_val_one, Shape.rowMajor_val_two]; show p.val * 1 + 0 = p.val; omega)

/-- A vector stood up as a column block of width one: `(p, z)` reads row `p`. -/
theorem stand_apply {α : Type} (c : S1024.Idx → α) (hc : S1024.ShapeCasts S1024x1) (p : Fin 1024) (z : Fin 1) :
    shapeCast S1024x1 c hc (ix2 p z) = c (ix1 p) :=
  shapeCast_apply c hc (ix2 p z) (ix1 p)
    (by rw [Shape.rowMajor_val_one, Shape.rowMajor_val_two]; show p.val = p.val * 1 + z.val; have := z.isLt; omega)

/-- A width-one column block spread over 128 lanes: `(p, d)` reads `(p, 0)`. -/
theorem spread_apply {α : Type} (c : S1024x1.Idx → α) (hb : S1024x1.Broadcasts S1024x128) (p : Fin 1024) (d : Fin 128) :
    broadcastTo S1024x128 c hb (ix2 p d) = c (ix2 p ⟨0, by decide⟩) :=
  broadcastTo_apply c hb (ix2 p d) (ix2 p ⟨0, by decide⟩) (fun a => match a with
    | ⟨0, _⟩ => by show p.val = (if (1024 : Nat) = 1 then 0 else p.val); rw [if_neg (by decide)]
    | ⟨1, _⟩ => by show 0 = (if (1 : Nat) = 1 then 0 else d.val); rw [if_pos rfl])

/-- Column `n` of the gate block as a vector: row `p` reads `(p, n)`. -/
theorem col_apply (G : FVec Ideal S1024x8 .f32) (n : ℕ) (hs : S1024x8.Slices ![0, n] S1024x1)
    (hc : S1024x1.ShapeCasts S1024) (p : Fin 1024) (k : Fin 8) (hk : n = k.val) :
    shapeCast S1024 (extractStridedSlice S1024x1 ![0, n] G hs) hc (ix1 p) = G (ix2 p k) :=
  (flat_apply _ hc p).trans (slice2_axis1_apply n G hs p ⟨0, by decide⟩ k (by show k.val = n + 0; omega))

/-- The selection bit of expert `k` at row `p`: the comparison of column `k` against zero is the row's bit. -/
theorem selv_apply (G : FVec Ideal S1024x8 .f32) (n : ℕ) (hs : S1024x8.Slices ![0, n] S1024x1)
    (hc : S1024x1.ShapeCasts S1024) (p : Fin 1024) (k : Fin 8) (hk : n = k.val) :
    cmpf .ogt (shapeCast S1024 (extractStridedSlice S1024x1 ![0, n] G hs) hc)
        (broadcast S1024 (Scalar.ofBits .f32 0x00000000#32)) (ix1 p)
      = Spec.sel (fun m => G (ix2 p m)) k :=
  congrArg (fun x => Ideal.cmp .ogt x Spec.zero32) (col_apply G n hs hc p k hk)

/-- The running count one expert further: the count so far plus that expert's widened bit. -/
theorem cnt_succ (g : Fin 8 → EReal) (n : ℕ) (h : n < 8) :
    Spec.cnt g (n + 1) = Spec.cnt g n + (Spec.sel g ⟨n, h⟩).setWidth 32 := by
  show Spec.cnt g n + (if h : n < 8 then (Spec.sel g ⟨n, h⟩).setWidth 32 else 0#32) = _
  rw [dif_pos h]

/-- The body's count vector one expert further, at row `p`. -/
theorem cntv_succ (g : Fin 8 → EReal) (c : IVec S1024 32) (sl : IVec S1024 1) (hlt : 1 < 32) (p : Fin 1024)
    (n : ℕ) (h : n < 8) (hc : c (ix1 p) = Spec.cnt g n) (hs : sl (ix1 p) = Spec.sel g ⟨n, h⟩) :
    addi c (extui 32 sl hlt) (ix1 p) = Spec.cnt g (n + 1) := by
  show IntOp.addi (c (ix1 p)) ((sl (ix1 p)).setWidth 32) = _
  rw [hc, hs, cnt_succ g n h]; rfl

/-- Lane block `k` of the experts' outputs at `(p, d)` is expert `k`'s output at channel `d`. -/
theorem lane_apply (Y : FVec Ideal S1024x1024 .f32) (o : ℕ) (hy : S1024x1024.Slices ![0, o] S1024x128)
    (p : Fin 1024) (d : Fin 128) (k : Fin 8) (ho : o = k.val * 128) :
    extractStridedSlice S1024x128 ![0, o] Y hy (ix2 p d) = yRow Y p k d :=
  slice2_axis1_apply o Y hy p d ⟨k.val * 128 + d.val, by have := k.isLt; have := d.isLt; omega⟩
    (by show k.val * 128 + d.val = o + d.val; omega)

/-- The coefficient of expert `k` in slot `s`, spread over the lanes, at `(p, d)`. -/
theorem coefv_apply (G : FVec Ideal S1024x8 .f32) (cntv : IVec S1024 32) (slv : IVec S1024 1)
    (s k : Fin 8) (sb : BitVec 32) (n : ℕ)
    (hs : S1024x8.Slices ![0, n] S1024x1) (hc : S1024x1.ShapeCasts S1024) (hc' : S1024.ShapeCasts S1024x1)
    (hb : S1024x1.Broadcasts S1024x128) (p : Fin 1024) (d : Fin 128)
    (hsb : sb = BitVec.ofNat 32 s.val) (hn : n = k.val)
    (hcnt : cntv (ix1 p) = Spec.cnt (fun m => G (ix2 p m)) k.val)
    (hsel : slv (ix1 p) = Spec.sel (fun m => G (ix2 p m)) k) :
    broadcastTo S1024x128 (shapeCast S1024x1
        (select (andi (cmpi .eq cntv (broadcast S1024 sb)) slv)
          (shapeCast S1024 (extractStridedSlice S1024x1 ![0, n] G hs) hc)
          (broadcast S1024 (Scalar.ofBits .f32 0x00000000#32))) hc') hb (ix2 p d)
      = Spec.kCoef (fun m => G (ix2 p m)) s k := by
  refine (spread_apply _ hb p d).trans ((stand_apply _ hc' p _).trans ?_)
  show Scalar.select (IntOp.andi (IntOp.cmpi .eq (cntv (ix1 p)) sb) (slv (ix1 p)))
      (shapeCast S1024 (extractStridedSlice S1024x1 ![0, n] G hs) hc (ix1 p)) Spec.zero32 = _
  rw [hcnt, hsel, hsb, col_apply G n hs hc p k hn]; rfl

/-- One more expert added to a partial slot sum, at `(p, d)`: the partial sum's value plus the expert's
    coefficient times its output. -/
theorem step_apply (G : FVec Ideal S1024x8 .f32) (Y : FVec Ideal S1024x1024 .f32)
    {acc : FVec Ideal S1024x128 .f32} {cntv : IVec S1024 32} {slv : IVec S1024 1}
    {s k : Fin 8} {sb : BitVec 32} {n o : ℕ}
    (hs : S1024x8.Slices ![0, n] S1024x1) (hy : S1024x1024.Slices ![0, o] S1024x128)
    (p : Fin 1024) (d : Fin 128) {a : EReal}
    (hsb : sb = BitVec.ofNat 32 s.val) (hn : n = k.val) (ho : o = k.val * 128)
    (hcnt : cntv (ix1 p) = Spec.cnt (fun m => G (ix2 p m)) k.val)
    (hsel : slv (ix1 p) = Spec.sel (fun m => G (ix2 p m)) k)
    (ha : acc (ix2 p d) = a) :
    addf acc (mulf (broadcastTo S1024x128 (shapeCast S1024x1
        (select (andi (cmpi .eq cntv (broadcast S1024 sb)) slv)
          (shapeCast S1024 (extractStridedSlice S1024x1 ![0, n] G hs) shapeCasts_S1024x1_S1024)
          (broadcast S1024 (Scalar.ofBits .f32 0x00000000#32))) shapeCasts_S1024_S1024x1) broadcasts_S1024x1_S1024x128)
        (extractStridedSlice S1024x128 ![0, o] Y hy)) (ix2 p d)
      = a + Spec.kCoef (fun m => G (ix2 p m)) s k * yRow Y p k d :=
  congrArg₂ (· + ·) ha (congrArg₂ (· * ·)
    (coefv_apply G cntv slv s k sb n hs _ _ _ p d hsb hn hcnt hsel) (lane_apply Y o hy p d k ho))

/-- The zero block at an element. -/
theorem zero_apply (p : Fin 1024) (d : Fin 128) :
    broadcast S1024x128 (Scalar.ofBits .f32 0x00000000#32 : Ideal .f32) (ix2 p d) = Spec.zero32 := rfl

/-! The body's eight selection-bit vectors and eight running-count vectors at row `p`. -/

theorem sel0_apply (v41 : FVec Ideal S1024x8 .f32) (p : Fin 1024) :
    k0_pay9 v41 (ix1 p) = Spec.sel (fun m => k0_pay6 (F := Ideal) v41 (ix2 p m)) ⟨0, by decide⟩ :=
  selv_apply (k0_pay6 v41) 0 _ _ p ⟨0, by decide⟩ rfl

theorem sel1_apply (v41 : FVec Ideal S1024x8 .f32) (p : Fin 1024) :
    k0_pay11 v41 (ix1 p) = Spec.sel (fun m => k0_pay6 (F := Ideal) v41 (ix2 p m)) ⟨1, by decide⟩ :=
  selv_apply (k0_pay6 v41) 1 _ _ p ⟨1, by decide⟩ rfl

theorem sel2_apply (v41 : FVec Ideal S1024x8 .f32) (p : Fin 1024) :
    k0_pay13 v41 (ix1 p) = Spec.sel (fun m => k0_pay6 (F := Ideal) v41 (ix2 p m)) ⟨2, by decide⟩ :=
  selv_apply (k0_pay6 v41) 2 _ _ p ⟨2, by decide⟩ rfl

theorem sel3_apply (v41 : FVec Ideal S1024x8 .f32) (p : Fin 1024) :
    k0_pay15 v41 (ix1 p) = Spec.sel (fun m => k0_pay6 (F := Ideal) v41 (ix2 p m)) ⟨3, by decide⟩ :=
  selv_apply (k0_pay6 v41) 3 _ _ p ⟨3, by decide⟩ rfl

theorem sel4_apply (v41 : FVec Ideal S1024x8 .f32) (p : Fin 1024) :
    k0_pay17 v41 (ix1 p) = Spec.sel (fun m => k0_pay6 (F := Ideal) v41 (ix2 p m)) ⟨4, by decide⟩ :=
  selv_apply (k0_pay6 v41) 4 _ _ p ⟨4, by decide⟩ rfl

theorem sel5_apply (G : FVec Ideal S1024x8 .f32) (p : Fin 1024) :
    k0_pay19 G (ix1 p) = Spec.sel (fun m => G (ix2 p m)) ⟨5, by decide⟩ :=
  selv_apply G 5 _ _ p ⟨5, by decide⟩ rfl

theorem sel6_apply (G : FVec Ideal S1024x8 .f32) (p : Fin 1024) :
    k0_pay21 G (ix1 p) = Spec.sel (fun m => G (ix2 p m)) ⟨6, by decide⟩ :=
  selv_apply G 6 _ _ p ⟨6, by decide⟩ rfl

theorem sel7_apply (G : FVec Ideal S1024x8 .f32) (p : Fin 1024) :
    k0_pay23 G (ix1 p) = Spec.sel (fun m => G (ix2 p m)) ⟨7, by decide⟩ :=
  selv_apply G 7 _ _ p ⟨7, by decide⟩ rfl

theorem cnt0_apply (g : Fin 8 → EReal) (p : Fin 1024) : k0_pay8 (ix1 p) = Spec.cnt g 0 := rfl

theorem cnt1_apply (v41 : FVec Ideal S1024x8 .f32) (p : Fin 1024) :
    k0_pay10 v41 (ix1 p) = Spec.cnt (fun m => k0_pay6 (F := Ideal) v41 (ix2 p m)) 1 :=
  cntv_succ _ k0_pay8 (k0_pay9 v41) _ p 0 (by decide) (cnt0_apply _ p) (sel0_apply v41 p)

theorem cnt2_apply (v41 : FVec Ideal S1024x8 .f32) (p : Fin 1024) :
    k0_pay12 v41 (ix1 p) = Spec.cnt (fun m => k0_pay6 (F := Ideal) v41 (ix2 p m)) 2 :=
  cntv_succ _ (k0_pay10 v41) (k0_pay11 v41) _ p 1 (by decide) (cnt1_apply v41 p) (sel1_apply v41 p)

theorem cnt3_apply (v41 : FVec Ideal S1024x8 .f32) (p : Fin 1024) :
    k0_pay14 v41 (ix1 p) = Spec.cnt (fun m => k0_pay6 (F := Ideal) v41 (ix2 p m)) 3 :=
  cntv_succ _ (k0_pay12 v41) (k0_pay13 v41) _ p 2 (by decide) (cnt2_apply v41 p) (sel2_apply v41 p)

theorem cnt4_apply (v41 : FVec Ideal S1024x8 .f32) (p : Fin 1024) :
    k0_pay16 v41 (ix1 p) = Spec.cnt (fun m => k0_pay6 (F := Ideal) v41 (ix2 p m)) 4 :=
  cntv_succ _ (k0_pay14 v41) (k0_pay15 v41) _ p 3 (by decide) (cnt3_apply v41 p) (sel3_apply v41 p)

theorem cnt5_apply (v41 : FVec Ideal S1024x8 .f32) (p : Fin 1024) :
    k0_pay18 v41 (ix1 p) = Spec.cnt (fun m => k0_pay6 (F := Ideal) v41 (ix2 p m)) 5 :=
  cntv_succ _ (k0_pay16 v41) (k0_pay17 v41) _ p 4 (by decide) (cnt4_apply v41 p) (sel4_apply v41 p)

theorem cnt6_apply (v41 : FVec Ideal S1024x8 .f32) (p : Fin 1024) :
    k0_pay20 (k0_pay6 v41) (k0_pay18 v41) (ix1 p) = Spec.cnt (fun m => k0_pay6 (F := Ideal) v41 (ix2 p m)) 6 :=
  cntv_succ _ (k0_pay18 v41) (k0_pay19 (k0_pay6 v41)) _ p 5 (by decide) (cnt5_apply v41 p) (sel5_apply _ p)

theorem cnt7_apply (v41 : FVec Ideal S1024x8 .f32) (p : Fin 1024) :
    k0_pay22 (k0_pay6 v41) (k0_pay18 v41) (ix1 p) = Spec.cnt (fun m => k0_pay6 (F := Ideal) v41 (ix2 p m)) 7 :=
  cntv_succ _ (k0_pay20 (k0_pay6 v41) (k0_pay18 v41)) (k0_pay21 (k0_pay6 v41)) _ p 6 (by decide) (cnt6_apply v41 p) (sel6_apply _ p)

/-! Slot `s` of the row formula written out: from zero, the experts `s … 7` added in order. The filter of the
    eight experts by `s ≤ ·` and the left fold over it compute. -/

local notation "e0" => (⟨0, by decide⟩ : Fin 8)
local notation "e1" => (⟨1, by decide⟩ : Fin 8)
local notation "e2" => (⟨2, by decide⟩ : Fin 8)
local notation "e3" => (⟨3, by decide⟩ : Fin 8)
local notation "e4" => (⟨4, by decide⟩ : Fin 8)
local notation "e5" => (⟨5, by decide⟩ : Fin 8)
local notation "e6" => (⟨6, by decide⟩ : Fin 8)
local notation "e7" => (⟨7, by decide⟩ : Fin 8)

theorem kPacked0 (g : Fin 8 → EReal) (y : Fin 8 → Fin 128 → EReal) (d : Fin 128) :
    Spec.kPacked g y e0 d
      = (((((((Spec.zero32 + Spec.kCoef g e0 e0 * y e0 d) + Spec.kCoef g e0 e1 * y e1 d)
          + Spec.kCoef g e0 e2 * y e2 d) + Spec.kCoef g e0 e3 * y e3 d) + Spec.kCoef g e0 e4 * y e4 d)
          + Spec.kCoef g e0 e5 * y e5 d) + Spec.kCoef g e0 e6 * y e6 d) + Spec.kCoef g e0 e7 * y e7 d := rfl

theorem kPacked1 (g : Fin 8 → EReal) (y : Fin 8 → Fin 128 → EReal) (d : Fin 128) :
    Spec.kPacked g y e1 d
      = ((((((Spec.zero32 + Spec.kCoef g e1 e1 * y e1 d)
          + Spec.kCoef g e1 e2 * y e2 d) + Spec.kCoef g e1 e3 * y e3 d) + Spec.kCoef g e1 e4 * y e4 d)
          + Spec.kCoef g e1 e5 * y e5 d) + Spec.kCoef g e1 e6 * y e6 d) + Spec.kCoef g e1 e7 * y e7 d := rfl

theorem kPacked2 (g : Fin 8 → EReal) (y : Fin 8 → Fin 128 → EReal) (d : Fin 128) :
    Spec.kPacked g y e2 d
      = (((((Spec.zero32 + Spec.kCoef g e2 e2 * y e2 d) + Spec.kCoef g e2 e3 * y e3 d) + Spec.kCoef g e2 e4 * y e4 d)
          + Spec.kCoef g e2 e5 * y e5 d) + Spec.kCoef g e2 e6 * y e6 d) + Spec.kCoef g e2 e7 * y e7 d := rfl

theorem kPacked3 (g : Fin 8 → EReal) (y : Fin 8 → Fin 128 → EReal) (d : Fin 128) :
    Spec.kPacked g y e3 d
      = ((((Spec.zero32 + Spec.kCoef g e3 e3 * y e3 d) + Spec.kCoef g e3 e4 * y e4 d)
          + Spec.kCoef g e3 e5 * y e5 d) + Spec.kCoef g e3 e6 * y e6 d) + Spec.kCoef g e3 e7 * y e7 d := rfl

theorem kPacked4 (g : Fin 8 → EReal) (y : Fin 8 → Fin 128 → EReal) (d : Fin 128) :
    Spec.kPacked g y e4 d
      = (((Spec.zero32 + Spec.kCoef g e4 e4 * y e4 d)
          + Spec.kCoef g e4 e5 * y e5 d) + Spec.kCoef g e4 e6 * y e6 d) + Spec.kCoef g e4 e7 * y e7 d := rfl

theorem kPacked5 (g : Fin 8 → EReal) (y : Fin 8 → Fin 128 → EReal) (d : Fin 128) :
    Spec.kPacked g y e5 d
      = ((Spec.zero32 + Spec.kCoef g e5 e5 * y e5 d) + Spec.kCoef g e5 e6 * y e6 d) + Spec.kCoef g e5 e7 * y e7 d := rfl

theorem kPacked6 (g : Fin 8 → EReal) (y : Fin 8 → Fin 128 → EReal) (d : Fin 128) :
    Spec.kPacked g y e6 d
      = (Spec.zero32 + Spec.kCoef g e6 e6 * y e6 d) + Spec.kCoef g e6 e7 * y e7 d := rfl

theorem kPacked7 (g : Fin 8 → EReal) (y : Fin 8 → Fin 128 → EReal) (d : Fin 128) :
    Spec.kPacked g y e7 d = Spec.zero32 + Spec.kCoef g e7 e7 * y e7 d := rfl

/-- Slot 0 at row `p`, channel `d`. -/
theorem piece0_apply (v41 : FVec Ideal S1024x8 .f32) (Y : FVec Ideal S1024x1024 .f32) (p : Fin 1024) (d : Fin 128) :
    piece0 v41 Y (ix2 p d) = Spec.kPacked (fun n => k0_pay6 (F := Ideal) v41 (ix2 p n)) (yRow Y p) ⟨0, by decide⟩ d := by
  refine Eq.trans ?_ (kPacked0 _ _ d).symm
  -- the body's sum, outermost term first: experts 7, 6, …, 0 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  refine step_apply (k0_pay6 v41) Y slices_S1024x8_o0_4_S1024x1 slices_S1024x1024_o0_512_S1024x128 p d rfl rfl rfl (cnt4_apply v41 p) (sel4_apply v41 p) ?_
  refine step_apply (k0_pay6 v41) Y slices_S1024x8_o0_3_S1024x1 slices_S1024x1024_o0_384_S1024x128 p d rfl rfl rfl (cnt3_apply v41 p) (sel3_apply v41 p) ?_
  refine step_apply (k0_pay6 v41) Y slices_S1024x8_o0_2_S1024x1 slices_S1024x1024_o0_256_S1024x128 p d rfl rfl rfl (cnt2_apply v41 p) (sel2_apply v41 p) ?_
  refine step_apply (k0_pay6 v41) Y slices_S1024x8_o0_1_S1024x1 slices_S1024x1024_o0_128_S1024x128 p d rfl rfl rfl (cnt1_apply v41 p) (sel1_apply v41 p) ?_
  refine step_apply (k0_pay6 v41) Y slices_S1024x8_o0_0_S1024x1 slices_S1024x1024_o0_0_S1024x128 p d rfl rfl rfl (cnt0_apply _ p) (sel0_apply v41 p) ?_
  exact zero_apply p d

/-- Slot 1 at row `p`, channel `d`. -/
theorem piece1_apply (v41 : FVec Ideal S1024x8 .f32) (Y : FVec Ideal S1024x1024 .f32) (p : Fin 1024) (d : Fin 128) :
    piece1 v41 Y (ix2 p d) = Spec.kPacked (fun n => k0_pay6 (F := Ideal) v41 (ix2 p n)) (yRow Y p) ⟨1, by decide⟩ d := by
  refine Eq.trans ?_ (kPacked1 _ _ d).symm
  -- experts 7, 6, …, 1 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  refine step_apply (k0_pay6 v41) Y slices_S1024x8_o0_4_S1024x1 slices_S1024x1024_o0_512_S1024x128 p d rfl rfl rfl (cnt4_apply v41 p) (sel4_apply v41 p) ?_
  refine step_apply (k0_pay6 v41) Y slices_S1024x8_o0_3_S1024x1 slices_S1024x1024_o0_384_S1024x128 p d rfl rfl rfl (cnt3_apply v41 p) (sel3_apply v41 p) ?_
  refine step_apply (k0_pay6 v41) Y slices_S1024x8_o0_2_S1024x1 slices_S1024x1024_o0_256_S1024x128 p d rfl rfl rfl (cnt2_apply v41 p) (sel2_apply v41 p) ?_
  refine step_apply (k0_pay6 v41) Y slices_S1024x8_o0_1_S1024x1 slices_S1024x1024_o0_128_S1024x128 p d rfl rfl rfl (cnt1_apply v41 p) (sel1_apply v41 p) ?_
  exact zero_apply p d

/-- Slot 2 at row `p`, channel `d`. -/
theorem piece2_apply (v41 : FVec Ideal S1024x8 .f32) (Y : FVec Ideal S1024x1024 .f32) (p : Fin 1024) (d : Fin 128) :
    piece2 v41 Y (ix2 p d) = Spec.kPacked (fun n => k0_pay6 (F := Ideal) v41 (ix2 p n)) (yRow Y p) ⟨2, by decide⟩ d := by
  refine Eq.trans ?_ (kPacked2 _ _ d).symm
  -- experts 7, 6, …, 2 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  refine step_apply (k0_pay6 v41) Y slices_S1024x8_o0_4_S1024x1 slices_S1024x1024_o0_512_S1024x128 p d rfl rfl rfl (cnt4_apply v41 p) (sel4_apply v41 p) ?_
  refine step_apply (k0_pay6 v41) Y slices_S1024x8_o0_3_S1024x1 slices_S1024x1024_o0_384_S1024x128 p d rfl rfl rfl (cnt3_apply v41 p) (sel3_apply v41 p) ?_
  refine step_apply (k0_pay6 v41) Y slices_S1024x8_o0_2_S1024x1 slices_S1024x1024_o0_256_S1024x128 p d rfl rfl rfl (cnt2_apply v41 p) (sel2_apply v41 p) ?_
  exact zero_apply p d

/-- Slot 3 at row `p`, channel `d`. -/
theorem piece3_apply (v41 : FVec Ideal S1024x8 .f32) (Y : FVec Ideal S1024x1024 .f32) (p : Fin 1024) (d : Fin 128) :
    piece3 v41 Y (ix2 p d) = Spec.kPacked (fun n => k0_pay6 (F := Ideal) v41 (ix2 p n)) (yRow Y p) ⟨3, by decide⟩ d := by
  refine Eq.trans ?_ (kPacked3 _ _ d).symm
  -- experts 7, 6, 5, 4, 3 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  refine step_apply (k0_pay6 v41) Y slices_S1024x8_o0_4_S1024x1 slices_S1024x1024_o0_512_S1024x128 p d rfl rfl rfl (cnt4_apply v41 p) (sel4_apply v41 p) ?_
  refine step_apply (k0_pay6 v41) Y slices_S1024x8_o0_3_S1024x1 slices_S1024x1024_o0_384_S1024x128 p d rfl rfl rfl (cnt3_apply v41 p) (sel3_apply v41 p) ?_
  exact zero_apply p d

/-- Slot 4 at row `p`, channel `d`. -/
theorem piece4_apply (v41 : FVec Ideal S1024x8 .f32) (Y : FVec Ideal S1024x1024 .f32) (p : Fin 1024) (d : Fin 128) :
    piece4 v41 Y (ix2 p d) = Spec.kPacked (fun n => k0_pay6 (F := Ideal) v41 (ix2 p n)) (yRow Y p) ⟨4, by decide⟩ d := by
  refine Eq.trans ?_ (kPacked4 _ _ d).symm
  -- experts 7, 6, 5, 4 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  refine step_apply (k0_pay6 v41) Y slices_S1024x8_o0_4_S1024x1 slices_S1024x1024_o0_512_S1024x128 p d rfl rfl rfl (cnt4_apply v41 p) (sel4_apply v41 p) ?_
  exact zero_apply p d

/-- Slot 5 at row `p`, channel `d`. -/
theorem piece5_apply (v41 : FVec Ideal S1024x8 .f32) (Y : FVec Ideal S1024x1024 .f32) (p : Fin 1024) (d : Fin 128) :
    piece5 v41 Y (ix2 p d) = Spec.kPacked (fun n => k0_pay6 (F := Ideal) v41 (ix2 p n)) (yRow Y p) ⟨5, by decide⟩ d := by
  refine Eq.trans ?_ (kPacked5 _ _ d).symm
  -- experts 7, 6, 5 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  refine step_apply (k0_pay6 v41) Y slices_S1024x8_o0_5_S1024x1 slices_S1024x1024_o0_640_S1024x128 p d rfl rfl rfl (cnt5_apply v41 p) (sel5_apply _ p) ?_
  exact zero_apply p d

/-- Slot 6 at row `p`, channel `d`. -/
theorem piece6_apply (v41 : FVec Ideal S1024x8 .f32) (Y : FVec Ideal S1024x1024 .f32) (p : Fin 1024) (d : Fin 128) :
    piece6 v41 Y (ix2 p d) = Spec.kPacked (fun n => k0_pay6 (F := Ideal) v41 (ix2 p n)) (yRow Y p) ⟨6, by decide⟩ d := by
  refine Eq.trans ?_ (kPacked6 _ _ d).symm
  -- experts 7, 6 peeled off down to the zero block
  refine step_apply (k0_pay6 v41) Y slices_S1024x8_o0_7_S1024x1 slices_S1024x1024_o0_896_S1024x128 p d rfl rfl rfl (cnt7_apply v41 p) (sel7_apply _ p) ?_
  refine step_apply (k0_pay6 v41) Y slices_S1024x8_o0_6_S1024x1 slices_S1024x1024_o0_768_S1024x128 p d rfl rfl rfl (cnt6_apply v41 p) (sel6_apply _ p) ?_
  exact zero_apply p d

/-- Slot 7 at row `p`, channel `d`. -/
theorem piece7_apply (v41 : FVec Ideal S1024x8 .f32) (Y : FVec Ideal S1024x1024 .f32) (p : Fin 1024) (d : Fin 128) :
    piece7 v41 Y (ix2 p d) = Spec.kPacked (fun n => k0_pay6 (F := Ideal) v41 (ix2 p n)) (yRow Y p) ⟨7, by decide⟩ d := by
  refine Eq.trans ?_ (kPacked7 _ _ d).symm
  -- expert 7 over the zero block
  refine step_apply (k0_pay6 v41) Y slices_S1024x8_o0_7_S1024x1 slices_S1024x1024_o0_896_S1024x128 p d rfl rfl rfl (cnt7_apply v41 p) (sel7_apply _ p) ?_
  exact zero_apply p d

end Cert.KernelIdeal.KPack

end
-- ==== Proof.KRun.lean ====
/-
  The idealized kernel's run with both result arrays named as whole-array functions of the arguments. Grid point
  `t` stages rows `1024 t … 1024 t + 1023` of `x` and the whole of every weight array — the gate weights transposed,
  the expert weights flattened to `[1024, 256]` and transposed, the expert bias flattened, by the host operations
  before the call — and writes back rows `1024 t …` of both results; the sixteen blocks cover the arrays. Element by
  element the blocks are the row formulas of Spec.lean (KGate.lean, KPack.lean), so the arrays are `Spec.kOut` and `Spec.kGate`.
-/
import proofs.«400578_j13073880449226_3_alg».proof.Proof.Gen.KernelIdeal.Value
import proofs.«400578_j13073880449226_3_alg».proof.Proof.KGate
import proofs.«400578_j13073880449226_3_alg».proof.Proof.KPack
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.KRun

open Cert.KernelIdeal Cert.KernelIdeal.Gen Idealize.ShloMosaic Idealize.ShloMosaic.TcCoe Idealize.SL.Sem Idealize.ShloMosaic.ValueIdx
open Idealize.ShloMosaic.Pipeline (Dat)

section Blocks

variable (m : (ℓ : Loc nD τ sig) → Buf (Elt Ideal) ℓ)

/-! ## The grid: sixteen points, point `t` on rows `1024 t … 1024 t + 1023`, every weight block whole -/

/-- A grid point's number is below sixteen. -/
theorem t_lt (t : Fin cfg0.N) : t.val < 16 := Nat.lt_of_lt_of_eq t.isLt N_0

/-- The array row that row `p` of grid point `t`'s block is. -/
def row (t : Fin cfg0.N) (p : Fin 1024) : Fin 16384 := ⟨1024 * t.val + p.val, by have := t_lt t; have := p.isLt; omega⟩

/-- The flattened expert column `n · 128 + d`. -/
def col (n : Fin 8) (d : Fin 128) : Fin 1024 := ⟨n.val * 128 + d.val, by have := n.isLt; have := d.isLt; omega⟩

/-- The block index of each window at grid point `t`, decided over the sixteen points: the row-blocked windows
    (`x`, the packed output, the gate array) are at block row `t`, block column 0; every other window at block 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 1) = 0 :=
  (by decide +kernel : ∀ t : Fin grid0.N, win0_2.index t (0 : Fin 1) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 1) = 0 :=
  (by decide +kernel : ∀ t : Fin grid0.N, win0_4.index t (0 : Fin 1) = 0)
theorem idx5 : ∀ t : Fin cfg0.N, win0_5.index t (0 : Fin 1) = 0 :=
  (by decide +kernel : ∀ t : Fin grid0.N, win0_5.index t (0 : Fin 1) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 1) = 0 :=
  (by decide +kernel : ∀ t : Fin grid0.N, win0_7.index t (0 : Fin 1) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-! ## The arrays the operations before the call wrote: two transposes, a flattening then a transpose, a flattening -/

/-- The first gate weight matrix, transposed. -/
theorem V_v0 (c : Dev nD) : (V m c main_v0 : S256x8.Idx → EReal) = transpose S256x8 [1, 0] (m ((c.tc : Thread nD τ).loc main_arg2)) transposes_S8x256_S256x8_1_0 := by
  dsimp only [Gen.V, Gen.hostOps0]; after_results

/-- The second gate weight matrix, transposed. -/
theorem V_v1 (c : Dev nD) : (V m c main_v1 : S256x8.Idx → EReal) = transpose S256x8 [1, 0] (m ((c.tc : Thread nD τ).loc main_arg4)) transposes_S8x256_S256x8_1_0 := by
  dsimp only [Gen.V, Gen.hostOps0]; after_results

/-- The expert weights flattened to `[1024, 256]`, then transposed. -/
theorem V_v3 (c : Dev nD) : (V m c main_v3 : S256x1024.Idx → EReal) = transpose S256x1024 [1, 0] (shapeCast S1024x256 (m ((c.tc : Thread nD τ).loc main_arg6)) shapeCasts_S8x128x256_S1024x256) transposes_S1024x256_S256x1024_1_0 := by
  dsimp only [Gen.V, Gen.hostOps0]; after_results; rfl

/-- The expert bias flattened to `[1024]`. -/
theorem V_v4 (c : Dev nD) : (V m c main_v4 : S1024.Idx → EReal) = shapeCast S1024 (m ((c.tc : Thread nD τ).loc main_arg7)) shapeCasts_S8x128_S1024 := by
  dsimp only [Gen.V, Gen.hostOps0]; after_results; rfl

/-! ## Each window's block at grid point `t`, read at an index, as an element of an argument array -/

/-- Row `p` of `x`'s block is row `1024 t + p` of `x`. -/
theorem xblk_apply (c : Dev nD) (t : Fin cfg0.N) (p : Fin 1024) (k : Fin 256) :
    (iblk m c 0 t : Vec Ideal S1024x256 .f32) (ix2 p k) = (m ((c.tc : Thread nD τ).loc main_arg0) : S16384x256.Idx → EReal) (ix2 (row t p) k) := by
  obtain ⟨e0, e1⟩ := idx0 t
  show V m c main_arg0 (((cfg0.win 0).blk t).view.emb (ix2 p k)) = _
  rw [V_main_arg0]
  congr 1
  funext a; apply Fin.ext
  match a with
  | ⟨0, _⟩ => show win0_0.index t (0 : Fin 2) * 1024 + 1 * p.val = 1024 * t.val + p.val; omega
  | ⟨1, _⟩ => show win0_0.index t (1 : Fin 2) * 256 + 1 * k.val = k.val; omega

/-- The first transposed gate weight block at `(k, n)` is the weight matrix at `(n, k)`. -/
theorem wgblk_apply (c : Dev nD) (t : Fin cfg0.N) (k : Fin 256) (n : Fin 8) :
    (iblk m c 1 t : Vec Ideal S256x8 .f32) (ix2 k n) = (m ((c.tc : Thread nD τ).loc main_arg2) : S8x256.Idx → EReal) (ix2 n k) := by
  obtain ⟨e0, e1⟩ := idx1 t
  show V m c main_v0 (((cfg0.win 1).blk t).view.emb (ix2 k n)) = _
  rw [V_v0]
  refine Eq.trans ?_ (transpose_ix2_apply _ transposes_S8x256_S256x8_1_0 k n)
  congr 1
  funext a; apply Fin.ext
  match a with
  | ⟨0, _⟩ => show win0_1.index t (0 : Fin 2) * 256 + 1 * k.val = k.val; omega
  | ⟨1, _⟩ => show win0_1.index t (1 : Fin 2) * 8 + 1 * n.val = n.val; omega

/-- The first gate bias block is the bias. -/
theorem bgblk_apply (c : Dev nD) (t : Fin cfg0.N) (n : Fin 8) :
    (iblk m c 2 t : Vec Ideal S8 .f32) (ix1 n) = (m ((c.tc : Thread nD τ).loc main_arg3) : S8.Idx → EReal) (ix1 n) := by
  have e0 := idx2 t
  show V m c main_arg3 (((cfg0.win 2).blk t).view.emb (ix1 n)) = _
  rw [V_main_arg3]
  congr 1
  funext a; apply Fin.ext
  match a with
  | ⟨0, _⟩ => show win0_2.index t (0 : Fin 1) * 8 + 1 * n.val = n.val; omega

/-- The second transposed gate weight block at `(k, n)` is the weight matrix at `(n, k)`. -/
theorem wnblk_apply (c : Dev nD) (t : Fin cfg0.N) (k : Fin 256) (n : Fin 8) :
    (iblk m c 3 t : Vec Ideal S256x8 .f32) (ix2 k n) = (m ((c.tc : Thread nD τ).loc main_arg4) : S8x256.Idx → EReal) (ix2 n k) := by
  obtain ⟨e0, e1⟩ := idx3 t
  show V m c main_v1 (((cfg0.win 3).blk t).view.emb (ix2 k n)) = _
  rw [V_v1]
  refine Eq.trans ?_ (transpose_ix2_apply _ transposes_S8x256_S256x8_1_0 k n)
  congr 1
  funext a; apply Fin.ext
  match a with
  | ⟨0, _⟩ => show win0_3.index t (0 : Fin 2) * 256 + 1 * k.val = k.val; omega
  | ⟨1, _⟩ => show win0_3.index t (1 : Fin 2) * 8 + 1 * n.val = n.val; omega

/-- The second gate bias block is the bias. -/
theorem bnblk_apply (c : Dev nD) (t : Fin cfg0.N) (n : Fin 8) :
    (iblk m c 4 t : Vec Ideal S8 .f32) (ix1 n) = (m ((c.tc : Thread nD τ).loc main_arg5) : S8.Idx → EReal) (ix1 n) := by
  have e0 := idx4 t
  show V m c main_arg5 (((cfg0.win 4).blk t).view.emb (ix1 n)) = _
  rw [V_main_arg5]
  congr 1
  funext a; apply Fin.ext
  match a with
  | ⟨0, _⟩ => show win0_4.index t (0 : Fin 1) * 8 + 1 * n.val = n.val; omega

/-- The noise block is the noise. -/
theorem nzblk_apply (c : Dev nD) (t : Fin cfg0.N) (n : Fin 8) :
    (iblk m c 5 t : Vec Ideal S8 .f32) (ix1 n) = (m ((c.tc : Thread nD τ).loc main_arg1) : S8.Idx → EReal) (ix1 n) := by
  have e0 := idx5 t
  show V m c main_arg1 (((cfg0.win 5).blk t).view.emb (ix1 n)) = _
  rw [V_main_arg1]
  congr 1
  funext a; apply Fin.ext
  match a with
  | ⟨0, _⟩ => show win0_5.index t (0 : Fin 1) * 8 + 1 * n.val = n.val; omega

/-- The flattened, transposed expert weight block at `(k, n · 128 + d)` is the expert weights at `(n, d, k)`:
    both sit at row-major position `(n · 128 + d) · 256 + k`. -/
theorem cwblk_apply (c : Dev nD) (t : Fin cfg0.N) (k : Fin 256) (n : Fin 8) (d : Fin 128) :
    (iblk m c 6 t : Vec Ideal S256x1024 .f32) (ix2 k (col n d)) = (m ((c.tc : Thread nD τ).loc main_arg6) : S8x128x256.Idx → EReal) (ix3 n d k) := by
  obtain ⟨e0, e1⟩ := idx6 t
  have hn := n.isLt
  have hd := d.isLt
  have hk := k.isLt
  show V m c main_v3 (((cfg0.win 6).blk t).view.emb (ix2 k (col n d))) = _
  rw [V_v3]
  have he : (((cfg0.win 6).blk t).view.emb (ix2 k (col n d)) : S256x1024.Idx) = ix2 k (col n d) := by
    funext a; apply Fin.ext
    match a with
    | ⟨0, _⟩ => show win0_6.index t (0 : Fin 2) * 256 + 1 * k.val = k.val; omega
    | ⟨1, _⟩ => show win0_6.index t (1 : Fin 2) * 1024 + 1 * (n.val * 128 + d.val) = n.val * 128 + d.val; omega
  rw [he, transpose_ix2_apply]
  refine shapeCast_apply _ _ _ _ ?_
  show (S8x128x256.rowMajor (ix3 n d k)).val = (S1024x256.rowMajor (ix2 (col n d) k)).val
  rw [Shape.rowMajor_val_two, Shape.rowMajor_val_three]
  show (n.val * 128 + d.val) * 256 + k.val = (n.val * 128 + d.val) * 256 + k.val
  rfl

/-- The flattened expert bias block at `n · 128 + d` is the expert bias at `(n, d)`. -/
theorem cbblk_apply (c : Dev nD) (t : Fin cfg0.N) (n : Fin 8) (d : Fin 128) :
    (iblk m c 7 t : Vec Ideal S1024 .f32) (ix1 (col n d)) = (m ((c.tc : Thread nD τ).loc main_arg7) : S8x128.Idx → EReal) (ix2 n d) := by
  have e0 := idx7 t
  show V m c main_v4 (((cfg0.win 7).blk t).view.emb (ix1 (col n d))) = _
  rw [V_v4]
  have he : (((cfg0.win 7).blk t).view.emb (ix1 (col n d)) : S1024.Idx) = ix1 (col n d) := by
    funext a; apply Fin.ext
    match a with
    | ⟨0, _⟩ => show win0_7.index t (0 : Fin 1) * 1024 + 1 * (n.val * 128 + d.val) = n.val * 128 + d.val; omega
  rw [he]
  refine shapeCast_apply _ _ _ _ ?_
  show (S8x128.rowMajor (ix2 n d)).val = (S1024.rowMajor (ix1 (col n d))).val
  rw [Shape.rowMajor_val_two, Shape.rowMajor_val_one]
  show n.val * 128 + d.val = n.val * 128 + d.val
  rfl

/-! ## One row of a block, over arbitrary loaded blocks -/

/-- The zero offsets of a rank-2 and of a rank-1 whole-block rectangle. -/
theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- The thresholded-logit block and the experts'-output block the body computes from its loads. -/
def thrL (x0 : Vec Ideal S1024x256 .f32) (x1 x3 : Vec Ideal S256x8 .f32) (x2 x4 x5 : Vec Ideal S8 .f32) : FVec Ideal S1024x8 .f32 :=
  k0_pay5 (F := Ideal) (View.ld x0 r0_0) (View.ld x1 r0_1) (View.ld x3 r0_1) (View.ld x2 r0_3) (View.ld x4 r0_3) (View.ld x5 r0_3)
def ysL (x0 : Vec Ideal S1024x256 .f32) (x6 : Vec Ideal S256x1024 .f32) (x7 : Vec Ideal S1024 .f32) : FVec Ideal S1024x1024 .f32 :=
  k0_pay7 (F := Ideal) (k0_pay3 (View.ld x0 r0_0)) (k0_pay4 (View.ld x6 r0_2)) (View.ld x7 r0_5)

/-- The loads through the whole-block rectangles read the blocks. -/
theorem thr_ld (x0 : Vec Ideal S1024x256 .f32) (x1 x3 : Vec Ideal S256x8 .f32) (x2 x4 x5 : Vec Ideal S8 .f32) :
    thrL x0 x1 x3 x2 x4 x5 = k0_pay5 x0 x1 x3 x2 x4 x5 := by
  unfold thrL
  rw [View.ld_unit_zero (S := S1024x256) hz2, View.ld_unit_zero (S := S256x8) hz2, View.ld_unit_zero (S := S256x8) hz2,
    View.ld_unit_zero (S := S8) hz1, View.ld_unit_zero (S := S8) hz1, View.ld_unit_zero (S := S8) hz1]

/-- The same for the experts'-output block. -/
theorem ys_ld (x0 : Vec Ideal S1024x256 .f32) (x6 : Vec Ideal S256x1024 .f32) (x7 : Vec Ideal S1024 .f32) :
    ysL x0 x6 x7 = k0_pay7 (k0_pay3 x0) (k0_pay4 x6) x7 := by
  unfold ysL
  rw [View.ld_unit_zero (S := S1024x256) hz2, View.ld_unit_zero (S := S256x1024) hz2, View.ld_unit_zero (S := S1024) hz1]

section Row

variable (x0 : Vec Ideal S1024x256 .f32) (x1 : Vec Ideal S256x8 .f32) (x2 : Vec Ideal S8 .f32) (x3 : Vec Ideal S256x8 .f32)
  (x4 x5 : Vec Ideal S8 .f32) (x6 : Vec Ideal S256x1024 .f32) (x7 : Vec Ideal S1024 .f32)
  (X : S16384x256.Idx → EReal) (noise : S8.Idx → EReal) (wg : S8x256.Idx → EReal) (bg : S8.Idx → EReal)
  (wn : S8x256.Idx → EReal) (bn : S8.Idx → EReal) (cw : S8x128x256.Idx → EReal) (cb : S8x128.Idx → EReal)
  (b : Fin 16384) (p : Fin 1024)

/-- The softmax weights of block row `p` are the gate array's row `b`, when block row `p` of `x` is array row `b`
    and the weight blocks are the (transposed) weight arrays. -/
theorem gate_row (h0 : ∀ k, x0 (ix2 p k) = X (ix2 b k)) (h1 : ∀ k n, x1 (ix2 k n) = wg (ix2 n k)) (h2 : ∀ n, x2 (ix1 n) = bg (ix1 n))
    (h3 : ∀ k n, x3 (ix2 k n) = wn (ix2 n k)) (h4 : ∀ n, x4 (ix1 n) = bn (ix1 n)) (h5 : ∀ n, x5 (ix1 n) = noise (ix1 n)) (n : Fin 8) :
    k0_pay6 (F := Ideal) (k0_pay5 x0 x1 x3 x2 x4 x5) (ix2 p n) = Spec.kGate X noise wg bg wn bn (ix2 b n) := by
  rw [KGate.pay6_apply]
  show Spec.kSoft _ n = Spec.kSoft (Spec.kLogits X noise wg bg wn bn b) n
  congr 1
  funext j
  rw [KGate.pay5_apply]
  simp only [h0, h1, h2, h3, h4, h5]
  rfl

/-- The experts' outputs of block row `p` are those of array row `b`. -/
theorem experts_row (h0 : ∀ k, x0 (ix2 p k) = X (ix2 b k)) (h6 : ∀ k n d, x6 (ix2 k (col n d)) = cw (ix3 n d k))
    (h7 : ∀ n d, x7 (ix1 (col n d)) = cb (ix2 n d)) :
    KPack.yRow (k0_pay7 (F := Ideal) (k0_pay3 x0) (k0_pay4 x6) x7) p = Spec.experts X cw cb b := by
  funext n d
  show k0_pay7 (F := Ideal) (k0_pay3 x0) (k0_pay4 x6) x7 (ix2 p (col n d)) = _
  rw [KGate.pay7_apply]
  simp only [h0, h6, h7]
  rfl

end Row

/-! ## The output block as one function of its index -/

/-- Slot `s`, channel `d` of block row `p`, from the block of thresholded logits and the block of experts' outputs. -/
def slot (v41 : FVec Ideal S1024x8 .f32) (Y : FVec Ideal S1024x1024 .f32) (p : Fin 1024) (s : Fin 8) (d : Fin 128) : EReal :=
  Spec.kPacked (fun n => k0_pay6 (F := Ideal) v41 (ix2 p n)) (KPack.yRow Y p) s d

/-- The output block: column `q` of row `p` is slot `q / 128`, channel `q % 128`. -/
def packedBlk (v41 : FVec Ideal S1024x8 .f32) (Y : FVec Ideal S1024x1024 .f32) : S1024x1024.Idx → EReal := fun y =>
  slot v41 Y (y 0) ⟨(y 1).val / 128, by have := idx2_lt1 y; omega⟩ ⟨(y 1).val % 128, Nat.mod_lt _ (by decide)⟩

/-- A store of slot `s` through the rectangle of columns `128 s … 128 s + 127` agrees with `packedBlk` under it. -/
theorem piece_at (v41 : FVec Ideal S1024x8 .f32) (Y : FVec Ideal S1024x1024 .f32) (s : Fin 8) (pc : FVec Ideal S1024x128 .f32)
    (hpc : ∀ (p : Fin 1024) (d : Fin 128), pc (ix2 p d) = slot v41 Y p s d)
    (off1 : Nat) (hoff : off1 = 128 * s.val) (inb : ∀ a, (![0, off1] : Fin 2 → Nat) a + S1024x128.size a ≤ S1024x1024.size a)
    (x : S1024x128.Idx) :
    pc x = packedBlk v41 Y ((Rect.unit (s := S1024x1024) ![0, off1] S1024x128.size inb).emb x) := by
  obtain ⟨p, d, rfl⟩ : ∃ (p : Fin 1024) (d : Fin 128), x = ix2 p d := ⟨x 0, x 1, eq_ix2 x⟩
  rw [hpc]
  have hs := s.isLt
  have hd := d.isLt
  show slot v41 Y p s d = slot v41 Y _ _ _
  refine congr (congr (congrArg (slot v41 Y) ?_) ?_) ?_
  · apply Fin.ext; show p.val = 0 + 1 * p.val; omega
  · apply Fin.ext; show s.val = (off1 + 1 * d.val) / 128; omega
  · apply Fin.ext; show d.val = (off1 + 1 * d.val) % 128; omega

/-- The body's eight stores into the output block, last first, are the eight slots. -/
theorem out8_eq (x0 : Vec Ideal S1024x256 .f32) (x1 : Vec Ideal S256x8 .f32) (x2 : Vec Ideal S8 .f32) (x3 : Vec Ideal S256x8 .f32)
    (x4 x5 : Vec Ideal S8 .f32) (x6 : Vec Ideal S256x1024 .f32) (x7 : Vec Ideal S1024 .f32) :
    out0_8 (F := Ideal) x0 x1 x2 x3 x4 x5 x6 x7
      = View.canon ([⟨r0_13, KPack.piece7 (thrL x0 x1 x3 x2 x4 x5) (ysL x0 x6 x7)⟩, ⟨r0_12, KPack.piece6 (thrL x0 x1 x3 x2 x4 x5) (ysL x0 x6 x7)⟩,
          ⟨r0_11, KPack.piece5 (thrL x0 x1 x3 x2 x4 x5) (ysL x0 x6 x7)⟩, ⟨r0_10, KPack.piece4 (thrL x0 x1 x3 x2 x4 x5) (ysL x0 x6 x7)⟩,
          ⟨r0_9, KPack.piece3 (thrL x0 x1 x3 x2 x4 x5) (ysL x0 x6 x7)⟩, ⟨r0_8, KPack.piece2 (thrL x0 x1 x3 x2 x4 x5) (ysL x0 x6 x7)⟩,
          ⟨r0_7, KPack.piece1 (thrL x0 x1 x3 x2 x4 x5) (ysL x0 x6 x7)⟩, ⟨r0_6, KPack.piece0 (thrL x0 x1 x3 x2 x4 x5) (ysL x0 x6 x7)⟩]
          : List (View.Piece (Elt Ideal) S1024x1024 .f32)) := rfl

/-- So the block after the body is `packedBlk` of the two computed blocks: each store agrees with it, and the stores cover. -/
theorem out8_apply (x0 : Vec Ideal S1024x256 .f32) (x1 : Vec Ideal S256x8 .f32) (x2 : Vec Ideal S8 .f32) (x3 : Vec Ideal S256x8 .f32)
    (x4 x5 : Vec Ideal S8 .f32) (x6 : Vec Ideal S256x1024 .f32) (x7 : Vec Ideal S1024 .f32) (y : S1024x1024.Idx) :
    out0_8 (F := Ideal) x0 x1 x2 x3 x4 x5 x6 x7 y = packedBlk (thrL x0 x1 x3 x2 x4 x5) (ysL x0 x6 x7) y := by
  rw [out8_eq]
  refine View.canon_apply_of_pieces (Val := Elt Ideal) (S := S1024x1024) (e := EltTy.f32) (packedBlk (thrL x0 x1 x3 x2 x4 x5) (ysL x0 x6 x7)) _ ?_ y (cover0_8 _ _ _ _ _ _ _ _ y)
  intro pc hpc
  rcases List.mem_cons.mp hpc with rfl | hpc
  · exact fun x => piece_at _ _ ⟨7, by decide⟩ _ (KPack.piece7_apply _ _) 896 rfl inb_S1024x1024_S1024x128_0_896 x
  rcases List.mem_cons.mp hpc with rfl | hpc
  · exact fun x => piece_at _ _ ⟨6, by decide⟩ _ (KPack.piece6_apply _ _) 768 rfl inb_S1024x1024_S1024x128_0_768 x
  rcases List.mem_cons.mp hpc with rfl | hpc
  · exact fun x => piece_at _ _ ⟨5, by decide⟩ _ (KPack.piece5_apply _ _) 640 rfl inb_S1024x1024_S1024x128_0_640 x
  rcases List.mem_cons.mp hpc with rfl | hpc
  · exact fun x => piece_at _ _ ⟨4, by decide⟩ _ (KPack.piece4_apply _ _) 512 rfl inb_S1024x1024_S1024x128_0_512 x
  rcases List.mem_cons.mp hpc with rfl | hpc
  · exact fun x => piece_at _ _ ⟨3, by decide⟩ _ (KPack.piece3_apply _ _) 384 rfl inb_S1024x1024_S1024x128_0_384 x
  rcases List.mem_cons.mp hpc with rfl | hpc
  · exact fun x => piece_at _ _ ⟨2, by decide⟩ _ (KPack.piece2_apply _ _) 256 rfl inb_S1024x1024_S1024x128_0_256 x
  rcases List.mem_cons.mp hpc with rfl | hpc
  · exact fun x => piece_at _ _ ⟨1, by decide⟩ _ (KPack.piece1_apply _ _) 128 rfl inb_S1024x1024_S1024x128_0_128 x
  rcases List.mem_cons.mp hpc with rfl | hpc
  · exact fun x => piece_at _ _ ⟨0, by decide⟩ _ (KPack.piece0_apply _ _) 0 rfl inb_S1024x1024_S1024x128_0_0 x
  nomatch hpc

section Row

variable (x0 : Vec Ideal S1024x256 .f32) (x1 : Vec Ideal S256x8 .f32) (x2 : Vec Ideal S8 .f32) (x3 : Vec Ideal S256x8 .f32)
  (x4 x5 : Vec Ideal S8 .f32) (x6 : Vec Ideal S256x1024 .f32) (x7 : Vec Ideal S1024 .f32)
  (X : S16384x256.Idx → EReal) (noise : S8.Idx → EReal) (wg : S8x256.Idx → EReal) (bg : S8.Idx → EReal)
  (wn : S8x256.Idx → EReal) (bn : S8.Idx → EReal) (cw : S8x128x256.Idx → EReal) (cb : S8x128.Idx → EReal)
  (b : Fin 16384)

/-- The gate block after the body, at row `p`, expert `n`, is the gate array at row `b`, expert `n`. -/
theorem gate_blk (p : Fin 1024) (n : Fin 8) (h0 : ∀ k, x0 (ix2 p k) = X (ix2 b k)) (h1 : ∀ k n, x1 (ix2 k n) = wg (ix2 n k))
    (h2 : ∀ n, x2 (ix1 n) = bg (ix1 n)) (h3 : ∀ k n, x3 (ix2 k n) = wn (ix2 n k)) (h4 : ∀ n, x4 (ix1 n) = bn (ix1 n))
    (h5 : ∀ n, x5 (ix1 n) = noise (ix1 n)) :
    out0_9 (F := Ideal) x0 x1 x2 x3 x4 x5 x6 x7 (ix2 p n) = Spec.kGate X noise wg bg wn bn (ix2 b n) := by
  unfold out0_9
  rw [View.canon_unit_zero hz2]
  show k0_pay6 (F := Ideal) (thrL x0 x1 x3 x2 x4 x5) (ix2 p n) = _
  rw [thr_ld]
  exact gate_row x0 x1 x2 x3 x4 x5 X noise wg bg wn bn b p h0 h1 h2 h3 h4 h5 n

/-- The output block after the body, at row `p`, column `q`, is the packed output array at row `b`, column `q`. -/
theorem out_blk (p q : Fin 1024) (h0 : ∀ k, x0 (ix2 p k) = X (ix2 b k)) (h1 : ∀ k n, x1 (ix2 k n) = wg (ix2 n k))
    (h2 : ∀ n, x2 (ix1 n) = bg (ix1 n)) (h3 : ∀ k n, x3 (ix2 k n) = wn (ix2 n k)) (h4 : ∀ n, x4 (ix1 n) = bn (ix1 n))
    (h5 : ∀ n, x5 (ix1 n) = noise (ix1 n)) (h6 : ∀ k n d, x6 (ix2 k (col n d)) = cw (ix3 n d k))
    (h7 : ∀ n d, x7 (ix1 (col n d)) = cb (ix2 n d)) :
    out0_8 (F := Ideal) x0 x1 x2 x3 x4 x5 x6 x7 (ix2 p q) = Spec.kOut X noise wg bg wn bn cw cb (ix2 b q) := by
  rw [out8_apply, thr_ld, ys_ld]
  show Spec.kPacked (fun n => k0_pay6 (F := Ideal) (k0_pay5 x0 x1 x3 x2 x4 x5) (ix2 p n))
      (KPack.yRow (k0_pay7 (F := Ideal) (k0_pay3 x0) (k0_pay4 x6) x7) p) _ _ = _
  rw [experts_row x0 x6 x7 X cw cb b p h0 h6 h7,
    show (fun n => k0_pay6 (F := Ideal) (k0_pay5 x0 x1 x3 x2 x4 x5) (ix2 p n)) = fun n => Spec.kGate X noise wg bg wn bn (ix2 b n)
      from funext (gate_row x0 x1 x2 x3 x4 x5 X noise wg bg wn bn b p h0 h1 h2 h3 h4 h5)]
  rfl

end Row

/-! ## What each grid point writes back, and the arrays after the run -/

/-- Grid point `t` writes back block `t` of the gate array. -/
theorem flushed9_eq (c : Dev nD) (t : Fin cfg0.N) :
    (dats m 0 c).flushed 9 t = ((cfg0.win 9).blk t).view.read (Elt Ideal)
      (Spec.kGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  obtain ⟨e0, e1⟩ := idx9 t
  rw [Value.flushed9]
  funext j
  show out0_9 (F := Ideal) (iblk m c 0 t) (iblk m c 1 t) (iblk m c 2 t) (iblk m c 3 t) (iblk m c 4 t) (iblk m c 5 t) (iblk m c 6 t) (iblk m c 7 t) j
    = Spec.kGate _ _ _ _ _ _ (((cfg0.win 9).blk t).view.emb j)
  refine (congrArg _ (eq_ix2 (n0 := 1024) (n1 := 8) j)).trans ((gate_blk (iblk m c 0 t) (iblk m c 1 t) (iblk m c 2 t) (iblk m c 3 t) (iblk m c 4 t) (iblk m c 5 t) (iblk m c 6 t) (iblk m c 7 t)
    _ _ _ _ _ _ (row t (j 0)) (j 0) (j 1) (fun k => xblk_apply m c t (j 0) k) (wgblk_apply m c t) (bgblk_apply m c t) (wnblk_apply m c t)
    (bnblk_apply m c t) (nzblk_apply m c t)).trans ?_)
  refine congrArg (Spec.kGate _ _ _ _ _ _) ?_
  funext a; apply Fin.ext
  match a with
  | ⟨0, _⟩ => show 1024 * t.val + (j 0).val = win0_9.index t (0 : Fin 2) * 1024 + 1 * (j 0).val; omega
  | ⟨1, _⟩ => show (j 1).val = win0_9.index t (1 : Fin 2) * 8 + 1 * (j 1).val; omega

/-- Grid point `t` writes back block `t` of the packed output array. -/
theorem flushed8_eq (c : Dev nD) (t : Fin cfg0.N) :
    (dats m 0 c).flushed 8 t = ((cfg0.win 8).blk t).view.read (Elt Ideal)
      (Spec.kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  obtain ⟨e0, e1⟩ := idx8 t
  rw [Value.flushed8]
  funext j
  show out0_8 (F := Ideal) (iblk m c 0 t) (iblk m c 1 t) (iblk m c 2 t) (iblk m c 3 t) (iblk m c 4 t) (iblk m c 5 t) (iblk m c 6 t) (iblk m c 7 t) j
    = Spec.kOut _ _ _ _ _ _ _ _ (((cfg0.win 8).blk t).view.emb j)
  refine (congrArg _ (eq_ix2 (n0 := 1024) (n1 := 1024) j)).trans ((out_blk (iblk m c 0 t) (iblk m c 1 t) (iblk m c 2 t) (iblk m c 3 t) (iblk m c 4 t) (iblk m c 5 t) (iblk m c 6 t) (iblk m c 7 t)
    _ _ _ _ _ _ _ _ (row t (j 0)) (j 0) (j 1) (fun k => xblk_apply m c t (j 0) k) (wgblk_apply m c t) (bgblk_apply m c t) (wnblk_apply m c t)
    (bnblk_apply m c t) (nzblk_apply m c t) (cwblk_apply m c t) (cbblk_apply m c t)).trans ?_)
  refine congrArg (Spec.kOut _ _ _ _ _ _ _ _) ?_
  funext a; apply Fin.ext
  match a with
  | ⟨0, _⟩ => show 1024 * t.val + (j 0).val = win0_8.index t (0 : Fin 2) * 1024 + 1 * (j 0).val; omega
  | ⟨1, _⟩ => show (j 1).val = win0_8.index t (1 : Fin 2) * 1024 + 1 * (j 1).val; omega

/-- An index of the gate array is in point `t`'s block iff each coordinate is in the block's range on its axis. -/
theorem mem_blk9 (t : Fin cfg0.N) (i : S16384x8.Idx) :
    i ∈ ((cfg0.win 9).blk t).view.set ↔ ∀ a : Fin 2, win0_9.index t a * S1024x8.size a ≤ (i a).val ∧ (i a).val < win0_9.index t a * S1024x8.size a + S1024x8.size a := by
  show i ∈ ((View.whole main_v5_1).slice (win0_9.rect t)).set ↔ _
  rw [View.set_slice_whole, Rect.mem_set_unit]
  exact Iff.rfl

/-- The same for the packed output array. -/
theorem mem_blk8 (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v5_0).slice (win0_8.rect t)).set ↔ _
  rw [View.set_slice_whole, Rect.mem_set_unit]
  exact Iff.rfl

/-- Row `r` of the gate array is in the block of grid point `r / 1024`. -/
theorem cover9 (i : S16384x8.Idx) : ∃ t : Fin cfg0.N, (cfg0.win 9).flush t = true ∧ i ∈ ((cfg0.win 9).blk t).view.set := by
  have hi0 : (i 0).val < 16384 := (i 0).isLt
  have hi1 : (i 1).val < 8 := (i 1).isLt
  obtain ⟨t, ht⟩ : ∃ t : Fin cfg0.N, t.val = (i 0).val / 1024 :=
    ⟨⟨(i 0).val / 1024, Nat.lt_of_lt_of_eq (by omega : (i 0).val / 1024 < 16) N_0.symm⟩, rfl⟩
  obtain ⟨e0, e1⟩ := idx9 t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 8 ≤ (i 1).val ∧ (i 1).val < win0_9.index t (1 : Fin 2) * 8 + 8; omega

/-- Row `r` of the packed output array is in the block of grid point `r / 1024`. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, Nat.lt_of_lt_of_eq (by omega : (i 0).val / 1024 < 16) N_0.symm⟩, rfl⟩
  obtain ⟨e0, e1⟩ := idx8 t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The gate array after the run. -/
theorem final9 (c : Dev nD) : (dats m 0 c).arrAt 9 cfg0.N
    = Spec.kGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 9 _ (fun t _ => flushed9_eq m c t) cover9

/-- The packed output array after the run. -/
theorem final8 (c : Dev nD) : (dats m 0 c).arrAt 8 cfg0.N
    = Spec.kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 8 _ (fun t _ => flushed8_eq m c t) cover8

end Blocks

/-- Every weakly fair execution of the idealized kernel terminates with the packed outputs at `Spec.kOut` of the
    arguments, the gate weights at `Spec.kGate` of them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5_0) = Spec.kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v5_1) = Spec.kGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun r h c => ⟨(h c).1.trans (final8 m c), (h c).2.1.trans (final9 m c), (h c).2.2⟩)
    (Value.run_blocks m ρ)

end Cert.KernelIdeal.KRun

end
-- ==== Proof.RStage.lean ====
/-
  The reference's @main as a composition of whole-array stages: each definition is one tensor value of the
  program as a function of the argument arrays (the functions jax outlined — softplus, the wheres, cumsum,
  one_hot — written out at their call sites). `gate` is the second result (the softmax weights `[16384, 8]`),
  `out` the first (the packed expert outputs `[16384, 1024]`).
-/
import proofs.«400578_j13073880449226_3_alg».proof.Proof.Gen.ReferenceIdeal

noncomputable section

namespace Cert.ReferenceIdeal.Stage

open Cert.ReferenceIdeal Cert.ReferenceIdeal.Gen Idealize.ShloMosaic

variable {F : FTy → Type} [FloatOps F]

/-- The zero word broadcast over `[16384, 8]`. -/
def zeros8 : FVec F S16384x8 .f32 := broadcastInDim S16384x8 ![] bcast_S_S16384x8 (constant S_ .f32 0x00000000#32)

/-- A vector of 8 as a row over `[16384, 8]`. -/
def row8 (v : FVec F S8 .f32) : FVec F S16384x8 .f32 :=
  broadcastInDim S16384x8 ![0, 1] bcast_S1x8_S16384x8_0_1 (broadcastInDim S1x8 ![1] bcast_S8_S1x8_1 v)

/-- A vector of 16384 as a column over `[16384, 8]`. -/
def col8 (v : FVec F S16384 .f32) : FVec F S16384x8 .f32 :=
  broadcastInDim S16384x8 ![0, 1] bcast_S16384x1_S16384x8_0_1 (broadcastInDim S16384x1 ![0] bcast_S16384_S16384x1_0 v)

/-- `x @ W.T + b` for a weight `[8, 256]` and bias `[8]`. -/
def linear (x : FVec F S16384x256 .f32) (w : FVec F S8x256 .f32) (b : FVec F S8 .f32) : FVec F S16384x8 .f32 :=
  addf (Host.dotGeneral dot_S16384x256_S256x8_S16384x8_1_0_0_1_n_n none x (transpose S256x8 [1, 0] w transposes_S8x256_S256x8_1_0)) (row8 b)

/-- jax's softplus, as outlined: `logaddexp z 0` with its not-a-number guard. -/
def softplus (z : FVec F S16384x8 .f32) : FVec F S16384x8 .f32 :=
  select (cmpf .une (subf z zeros8) (subf z zeros8)) (addf z zeros8)
    (addf (maximumf z zeros8) (Host.log1p (Host.exp (Host.negf (Host.absf (subf z zeros8))))))

/-- The gate logits `H`. -/
def logits (x : FVec F S16384x256 .f32) (noise : FVec F S8 .f32) (wg : FVec F S8x256 .f32) (bg : FVec F S8 .f32)
    (wn : FVec F S8x256 .f32) (bn : FVec F S8 .f32) : FVec F S16384x8 .f32 :=
  addf (linear x wg bg) (mulf (row8 noise) (softplus (linear x wn bn)))

/-- The thresholded logits: `H + where (H ≤ 0) (negBig − H) 0`. -/
def thresholded (h : FVec F S16384x8 .f32) : FVec F S16384x8 .f32 :=
  addf h (select (cmpf .ole h zeros8)
    (subf (broadcastInDim S16384x8 ![] bcast_S_S16384x8 (constant S_ .f32 0xFE967699#32)) h)
    (broadcastInDim S16384x8 ![] bcast_S_S16384x8 (id (constant S_ .f32 0x00000000#32))))

/-- The softmax's shifted exponentials. -/
def expShifted (g : FVec F S16384x8 .f32) : FVec F S16384x8 .f32 :=
  Host.exp (subf g (col8 (maximumf (broadcastInDim S16384 ![] bcast_S_S16384 (constant S_ .f32 0xFF800000#32))
    (Host.reduce FloatOps.maximumf g (constant S_ .f32 0xFF800000#32) reducesTo_S16384x8_S16384_d1 h_S_))))

/-- The softmax over the experts. -/
def softmax (g : FVec F S16384x8 .f32) : FVec F S16384x8 .f32 :=
  Host.divf (expShifted g) (col8 (Host.reduceAdd (expShifted g) (constant S_ .f32 0x00000000#32) reducesTo_S16384x8_S16384_d1 h_S_))

/-- THE SECOND RESULT: the gate weights `G`. -/
def gate (x : FVec F S16384x256 .f32) (noise : FVec F S8 .f32) (wg : FVec F S8x256 .f32) (bg : FVec F S8 .f32)
    (wn : FVec F S8x256 .f32) (bn : FVec F S8 .f32) : FVec F S16384x8 .f32 :=
  softmax (thresholded (logits x noise wg bg wn bn))

/-- Which experts are selected: `G > 0`. -/
def selected (G : FVec F S16384x8 .f32) : IVec S16384x8 1 := cmpf .ogt G zeros8

/-- Every expert's output `[16384, 8, 128]`. -/
def experts (x : FVec F S16384x256 .f32) (cw : FVec F S8x128x256 .f32) (cb : FVec F S8x128 .f32) : FVec F S16384x8x128 .f32 :=
  addf (Host.dotGeneral dot_S16384x256_S8x128x256_S16384x8x128_1_2_0_01_n_n none x cw)
    (broadcastInDim S16384x8x128 ![0, 1, 2] bcast_S1x8x128_S16384x8x128_0_1_2 (broadcastInDim S1x8x128 ![1, 2] bcast_S8x128_S1x8x128_1_2 cb))

/-- The gated outputs: `G · Y` where selected, zero elsewhere. -/
def gated (G : FVec F S16384x8 .f32) (Y : FVec F S16384x8x128 .f32) : FVec F S16384x8x128 .f32 :=
  select (broadcastInDim S16384x8x128 ![0, 1, 2] bcast_S16384x8x1_S16384x8x128_0_1_2 (broadcastInDim S16384x8x1 ![0, 1] bcast_S16384x8_S16384x8x1_0_1 (selected G)))
    (mulf (broadcastInDim S16384x8x128 ![0, 1, 2] bcast_S16384x8x1_S16384x8x128_0_1_2 (broadcastInDim S16384x8x1 ![0, 1] bcast_S16384x8_S16384x8x1_0_1 G)) Y)
    (broadcastInDim S16384x8x128 ![] bcast_S_S16384x8x128 (id (constant S_ .f32 0x00000000#32)))

/-- The selection bits as 32-bit words. -/
def selWords (G : FVec F S16384x8 .f32) : IVec S16384x8 32 := extui 32 (selected G) natLt_1_32

/-- The inclusive running count along the experts (jax's cumsum: a window of 8 padded 7 low). -/
def cumsum (e : IVec S16384x8 32) : IVec S16384x8 32 :=
  Host.reduceWindow IntOp.addi ![1, 8] ![1, 1] ![0, 7] ![0, 0] e (broadcastInDim S_ ![] bcast_S_S_ (constantI S_ 32 0#32))
    reduceWindows_S16384x8_S16384x8_w1s1p0_0_w8s1p7_0 h_S_

/-- The slot number of each expert: the exclusive count where selected, the dump slot 8 elsewhere. -/
def slots (G : FVec F S16384x8 .f32) : IVec S16384x8 32 :=
  select (selected G) (subi (cumsum (selWords G)) (selWords G))
    (broadcastInDim S16384x8 ![] bcast_S_S16384x8 (id (constantI S_ 32 8#32)))

/-- The one-hot matrix `[16384, 8, 9]` of the slot numbers. -/
def oneHot (sl : IVec S16384x8 32) : FVec F S16384x8x9 .f32 :=
  uitofp .f32 (cmpi .eq
    (broadcastInDim S16384x8x9 ![0, 1, 2] bcast_S16384x8x1_S16384x8x9_0_1_2 (broadcastInDim S16384x8x1 ![0, 1] bcast_S16384x8_S16384x8x1_0_1 sl))
    (broadcastInDim S16384x8x9 ![0, 1, 2] bcast_S1x1x9_S16384x8x9_0_1_2 (iotaInDim S1x1x9 32 2)))

/-- The packing: the one-hot matrix against the gated outputs, the dump slot dropped, flattened to `[16384, 1024]`. -/
def pack (P : FVec F S16384x8x9 .f32) (g : FVec F S16384x8x128 .f32) : FVec F S16384x1024 .f32 :=
  shapeCast S16384x1024
    (extractStridedSlice S16384x8x128 ![0, 0, 0]
      (Host.dotGeneral dot_S16384x8x9_S16384x8x128_S16384x9x128_1_1_2_2_0_0 none P g) slices_S16384x9x128_S16384x8x128_0_0_0)
    shapeCasts_S16384x8x128_S16384x1024

/-- THE FIRST RESULT: the packed outputs, from the gate weights `G` and the experts' outputs `Y`. -/
def outOf (G : FVec F S16384x8 .f32) (Y : FVec F S16384x8x128 .f32) : FVec F S16384x1024 .f32 :=
  pack (oneHot (slots G)) (gated G Y)

/-- The first result as a function of the arguments. -/
def out (x : FVec F S16384x256 .f32) (noise : FVec F S8 .f32) (wg : FVec F S8x256 .f32) (bg : FVec F S8 .f32)
    (wn : FVec F S8x256 .f32) (bn : FVec F S8 .f32) (cw : FVec F S8x128x256 .f32) (cb : FVec F S8x128 .f32) : FVec F S16384x1024 .f32 :=
  outOf (gate x noise wg bg wn bn) (experts x cw cb)

end Cert.ReferenceIdeal.Stage

end
-- ==== Proof.RRun.lean ====
/-
  The reference's run: @main is a straight line of host operations (the outlined functions' bodies at their call
  sites), so every weakly fair execution terminates with each tensor value at the composition of its operations; the
  two results are the stages `Stage.out` and `Stage.gate` of RStage.lean at the argument arrays.
-/
import proofs.«400578_j13073880449226_3_alg».proof.Proof.RStage
import Idealize.ShloMosaic.Lib.StableHlo.Run
import Idealize.ShloMosaic.PureOps.Ideal

noncomputable section

open scoped BigOperators

namespace Cert.ReferenceIdeal.RRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's 87 operations in order: its own sixty, and at each of its six calls the called function's operations
    over that call's buffers (softplus fourteen, the three wheres three, four and three, cumsum three, one_hot six). -/
abbrev ops : List (HloOp τ sig (Elt F)) :=
  [ unary main_arg2 main_v0 ((transpose S256x8 [1, 0] · transposes_S8x256_S256x8_1_0) : (⟨S8x256, .f32⟩ : BufTy).Contents (Elt F) → (⟨S256x8, .f32⟩ : BufTy).Contents (Elt F)),
    binary main_arg0 main_v0 main_v1 ((fun l r => Host.dotGeneral dot_S16384x256_S256x8_S16384x8_1_0_0_1_n_n none l r) : (⟨S16384x256, .f32⟩ : BufTy).Contents (Elt F) → (⟨S256x8, .f32⟩ : BufTy).Contents (Elt F) → (⟨S16384x8, .f32⟩ : BufTy).Contents (Elt F)),
    unary main_arg3 main_v2 (broadcastInDim S1x8 ![1] bcast_S8_S1x8_1 : (⟨S8, .f32⟩ : BufTy).Contents (Elt F) → (⟨S1x8, .f32⟩ : BufTy).Contents (Elt F)),
    unary main_v2 main_v3 (broadcastInDim S16384x8 ![0, 1] bcast_S1x8_S16384x8_0_1 : (⟨S1x8, .f32⟩ : BufTy).Contents (Elt F) → (⟨S16384x8, .f32⟩ : BufTy).Contents (Elt F)),
    binary main_v1 main_v3 main_v4 (addf : (⟨S16384x8, .f32⟩ : BufTy).Contents (Elt F) → (⟨S16384x8, .f32⟩ : BufTy).Contents (Elt F) → (⟨S16384x8, .f32⟩ : BufTy).Contents (Elt F)),
    unary main_arg4 main_v5 ((transpose S256x8 [1, 0] · transposes_S8x256_S256x8_1_0) : (⟨S8x256, .f32⟩ : BufTy).Contents (Elt F) → (⟨S256x8, .f32⟩ : BufTy).Contents (Elt F)),
    binary main_arg0 main_v5 main_v6 ((fun l r => Host.dotGeneral dot_S16384x256_S256x8_S16384x8_1_0_0_1_n_n none l r) : (⟨S16384x256, .f32⟩ : BufTy).Contents (Elt F) → (⟨S256x8, .f32⟩ : BufTy).Contents (Elt F) → (⟨S16384x8, .f32⟩ : BufTy).Contents (Elt F)),
    unary main_arg5 main_v7 (broadcastInDim S1x8 ![1] bcast_S8_S1x8_1 : (⟨S8, .f32⟩ : BufTy).Contents (Elt F) → (⟨S1x8, .f32⟩ : BufTy).Contents (Elt F)),
    unary main_v7 main_v8 (broadcastInDim S16384x8 ![0, 1] bcast_S1x8_S16384x8_0_1 : (⟨S1x8, .f32⟩ : BufTy).Contents (Elt F) → (⟨S16384x8, .f32⟩ : BufTy).Contents (Elt F)),
    binary main_v6 main_v8 main_v9 (addf : (⟨S16384x8, .f32⟩ : BufTy).Contents (Elt F) → (⟨S16384x8, .f32⟩ : BufTy).Contents (Elt F) → (⟨S16384x8, .f32⟩ : BufTy).Contents (Elt F)),
    TRef.nullary main_call0.cst (constant S_ .f32 0x00000000#32),
    TRef.unary main_call0.cst main_call0.v0 (broadcastInDim S16384x8 ![] bcast_S_S16384x8),
    TRef.binary (.of main_v9 : TRef sig ⟨S16384x8, .f32⟩) main_call0.v0 main_call0.v1 maximumf,
    TRef.unary main_call0.cst main_call0.v2 (broadcastInDim S16384x8 ![] bcast_S_S16384x8),
    TRef.binary (.of main_v9 : TRef sig ⟨S16384x8, .f32⟩) main_call0.v2 main_call0.v3 subf,
    TRef.binary main_call0.v3 main_call0.v3 main_call0.v4 (cmpf .une),
    TRef.unary main_call0.cst main_call0.v5 (broadcastInDim S16384x8 ![] bcast_S_S16384x8),
    TRef.binary (.of main_v9 : TRef sig ⟨S16384x8, .f32⟩) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    unary main_arg1 main_v11 (broadcastInDim S1x8 ![1] bcast_S8_S1x8_1 : (⟨S8, .f32⟩ : BufTy).Contents (Elt F) → (⟨S1x8, .f32⟩ : BufTy).Contents (Elt F)),
    unary main_v11 main_v12 (broadcastInDim S16384x8 ![0, 1] bcast_S1x8_S16384x8_0_1 : (⟨S1x8, .f32⟩ : BufTy).Contents (Elt F) → (⟨S16384x8, .f32⟩ : BufTy).Contents (Elt F)),
    binary main_v12 main_v10 main_v13 (mulf : (⟨S16384x8, .f32⟩ : BufTy).Contents (Elt F) → (⟨S16384x8, .f32⟩ : BufTy).Contents (Elt F) → (⟨S16384x8, .f32⟩ : BufTy).Contents (Elt F)),
    binary main_v4 main_v13 main_v14 (addf : (⟨S16384x8, .f32⟩ : BufTy).Contents (Elt F) → (⟨S16384x8, .f32⟩ : BufTy).Contents (Elt F) → (⟨S16384x8, .f32⟩ : BufTy).Contents (Elt F)),
    nullary main_cst (constant S_ .f32 0x00000000#32),
    unary main_cst main_v15 (broadcastInDim S16384x8 ![] bcast_S_S16384x8 : (⟨S_, .f32⟩ : BufTy).Contents (Elt F) → (⟨S16384x8, .f32⟩ : BufTy).Contents (Elt F)),
    binary main_v14 main_v15 main_v16 (cmpf .ole : (⟨S16384x8, .f32⟩ : BufTy).Contents (Elt F) → (⟨S16384x8, .f32⟩ : BufTy).Contents (Elt F) → (⟨S16384x8, .i1⟩ : BufTy).Contents (Elt F)),
    nullary main_cst_0 (constant S_ .f32 0xFE967699#32),
    unary main_cst_0 main_v17 (broadcastInDim S16384x8 ![] bcast_S_S16384x8 : (⟨S_, .f32⟩ : BufTy).Contents (Elt F) → (⟨S16384x8, .f32⟩ : BufTy).Contents (Elt F)),
    binary main_v17 main_v14 main_v18 (subf : (⟨S16384x8, .f32⟩ : BufTy).Contents (Elt F) → (⟨S16384x8, .f32⟩ : BufTy).Contents (Elt F) → (⟨S16384x8, .f32⟩ : BufTy).Contents (Elt F)),
    nullary main_cst_1 (constant S_ .f32 0x00000000#32),
    TRef.unary (.of main_cst_1 : TRef sig ⟨S_, .f32⟩) main_call1.v0 id,
    TRef.unary main_call1.v0 main_call1.v1 (broadcastInDim S16384x8 ![] bcast_S_S16384x8),
    TRef.ternary (.of main_v16 : TRef sig ⟨S16384x8, .i1⟩) (.of main_v18 : TRef sig ⟨S16384x8, .f32⟩) main_call1.v1 main_call1.v2 select,
    binary main_v14 main_v19 main_v20 (addf : (⟨S16384x8, .f32⟩ : BufTy).Contents (Elt F) → (⟨S16384x8, .f32⟩ : BufTy).Contents (Elt F) → (⟨S16384x8, .f32⟩ : BufTy).Contents (Elt F)),
    nullary main_cst_2 (constant S_ .f32 0xFF800000#32),
    binary main_v20 main_cst_2 main_v21 ((fun x v => Host.reduce FloatOps.maximumf x v reducesTo_S16384x8_S16384_d1 h_S_) : (⟨S16384x8, .f32⟩ : BufTy).Contents (Elt F) → (⟨S_, .f32⟩ : BufTy).Contents (Elt F) → (⟨S16384, .f32⟩ : BufTy).Contents (Elt F)),
    nullary main_cst_3 (constant S_ .f32 0xFF800000#32),
    unary main_cst_3 main_v22 (broadcastInDim S16384 ![] bcast_S_S16384 : (⟨S_, .f32⟩ : BufTy).Contents (Elt F) → (⟨S16384, .f32⟩ : BufTy).Contents (Elt F)),
    binary main_v22 main_v21 main_v23 (maximumf : (⟨S16384, .f32⟩ : BufTy).Contents (Elt F) → (⟨S16384, .f32⟩ : BufTy).Contents (Elt F) → (⟨S16384, .f32⟩ : BufTy).Contents (Elt F)),
    unary main_v23 main_v24 (broadcastInDim S16384x1 ![0] bcast_S16384_S16384x1_0 : (⟨S16384, .f32⟩ : BufTy).Contents (Elt F) → (⟨S16384x1, .f32⟩ : BufTy).Contents (Elt F)),
    unary main_v24 main_v25 (broadcastInDim S16384x8 ![0, 1] bcast_S16384x1_S16384x8_0_1 : (⟨S16384x1, .f32⟩ : BufTy).Contents (Elt F) → (⟨S16384x8, .f32⟩ : BufTy).Contents (Elt F)),
    binary main_v20 main_v25 main_v26 (subf : (⟨S16384x8, .f32⟩ : BufTy).Contents (Elt F) → (⟨S16384x8, .f32⟩ : BufTy).Contents (Elt F) → (⟨S16384x8, .f32⟩ : BufTy).Contents (Elt F)),
    unary main_v26 main_v27 (Host.exp : (⟨S16384x8, .f32⟩ : BufTy).Contents (Elt F) → (⟨S16384x8, .f32⟩ : BufTy).Contents (Elt F)),
    nullary main_cst_4 (constant S_ .f32 0x00000000#32),
    binary main_v27 main_cst_4 main_v28 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    unary main_v28 main_v29 (broadcastInDim S16384x1 ![0] bcast_S16384_S16384x1_0 : (⟨S16384, .f32⟩ : BufTy).Contents (Elt F) → (⟨S16384x1, .f32⟩ : BufTy).Contents (Elt F)),
    unary main_v29 main_v30 (broadcastInDim S16384x8 ![0, 1] bcast_S16384x1_S16384x8_0_1 : (⟨S16384x1, .f32⟩ : BufTy).Contents (Elt F) → (⟨S16384x8, .f32⟩ : BufTy).Contents (Elt F)),
    binary main_v27 main_v30 main_v31 (Host.divf : (⟨S16384x8, .f32⟩ : BufTy).Contents (Elt F) → (⟨S16384x8, .f32⟩ : BufTy).Contents (Elt F) → (⟨S16384x8, .f32⟩ : BufTy).Contents (Elt F)),
    nullary main_cst_5 (constant S_ .f32 0x00000000#32),
    unary main_cst_5 main_v32 (broadcastInDim S16384x8 ![] bcast_S_S16384x8 : (⟨S_, .f32⟩ : BufTy).Contents (Elt F) → (⟨S16384x8, .f32⟩ : BufTy).Contents (Elt F)),
    binary main_v31 main_v32 main_v33 (cmpf .ogt : (⟨S16384x8, .f32⟩ : BufTy).Contents (Elt F) → (⟨S16384x8, .f32⟩ : BufTy).Contents (Elt F) → (⟨S16384x8, .i1⟩ : BufTy).Contents (Elt F)),
    binary main_arg0 main_arg6 main_v34 ((fun l r => Host.dotGeneral dot_S16384x256_S8x128x256_S16384x8x128_1_2_0_01_n_n none l r) : (⟨S16384x256, .f32⟩ : BufTy).Contents (Elt F) → (⟨S8x128x256, .f32⟩ : BufTy).Contents (Elt F) → (⟨S16384x8x128, .f32⟩ : BufTy).Contents (Elt F)),
    unary main_arg7 main_v35 (broadcastInDim S1x8x128 ![1, 2] bcast_S8x128_S1x8x128_1_2 : (⟨S8x128, .f32⟩ : BufTy).Contents (Elt F) → (⟨S1x8x128, .f32⟩ : BufTy).Contents (Elt F)),
    unary main_v35 main_v36 (broadcastInDim S16384x8x128 ![0, 1, 2] bcast_S1x8x128_S16384x8x128_0_1_2 : (⟨S1x8x128, .f32⟩ : BufTy).Contents (Elt F) → (⟨S16384x8x128, .f32⟩ : BufTy).Contents (Elt F)),
    binary main_v34 main_v36 main_v37 (addf : (⟨S16384x8x128, .f32⟩ : BufTy).Contents (Elt F) → (⟨S16384x8x128, .f32⟩ : BufTy).Contents (Elt F) → (⟨S16384x8x128, .f32⟩ : BufTy).Contents (Elt F)),
    unary main_v33 main_v38 (broadcastInDim S16384x8x1 ![0, 1] bcast_S16384x8_S16384x8x1_0_1 : (⟨S16384x8, .i1⟩ : BufTy).Contents (Elt F) → (⟨S16384x8x1, .i1⟩ : BufTy).Contents (Elt F)),
    unary main_v31 main_v39 (broadcastInDim S16384x8x1 ![0, 1] bcast_S16384x8_S16384x8x1_0_1 : (⟨S16384x8, .f32⟩ : BufTy).Contents (Elt F) → (⟨S16384x8x1, .f32⟩ : BufTy).Contents (Elt F)),
    unary main_v39 main_v40 (broadcastInDim S16384x8x128 ![0, 1, 2] bcast_S16384x8x1_S16384x8x128_0_1_2 : (⟨S16384x8x1, .f32⟩ : BufTy).Contents (Elt F) → (⟨S16384x8x128, .f32⟩ : BufTy).Contents (Elt F)),
    binary main_v40 main_v37 main_v41 (mulf : (⟨S16384x8x128, .f32⟩ : BufTy).Contents (Elt F) → (⟨S16384x8x128, .f32⟩ : BufTy).Contents (Elt F) → (⟨S16384x8x128, .f32⟩ : BufTy).Contents (Elt F)),
    nullary main_cst_6 (constant S_ .f32 0x00000000#32),
    TRef.unary (.of main_cst_6 : TRef sig ⟨S_, .f32⟩) main_call2.v0 id,
    TRef.unary (.of main_v38 : TRef sig ⟨S16384x8x1, .i1⟩) main_call2.v1 (broadcastInDim S16384x8x128 ![0, 1, 2] bcast_S16384x8x1_S16384x8x128_0_1_2),
    TRef.unary main_call2.v0 main_call2.v2 (broadcastInDim S16384x8x128 ![] bcast_S_S16384x8x128),
    TRef.ternary main_call2.v1 (.of main_v41 : TRef sig ⟨S16384x8x128, .f32⟩) main_call2.v2 main_call2.v3 select,
    unary main_v33 main_v43 ((extui 32 · natLt_1_32) : (⟨S16384x8, .i1⟩ : BufTy).Contents (Elt F) → (⟨S16384x8, .i32⟩ : BufTy).Contents (Elt F)),
    TRef.nullary main_call3.call0.c (constantI S_ 32 0#32),
    TRef.unary main_call3.call0.c main_call3.call0.v0 (broadcastInDim S_ ![] bcast_S_S_),
    TRef.binary (.of main_v43 : TRef sig ⟨S16384x8, .i32⟩) main_call3.call0.v0 main_call3.call0.v1 (fun x v => Host.reduceWindow IntOp.addi ![1, 8] ![1, 1] ![0, 7] ![0, 0] x v reduceWindows_S16384x8_S16384x8_w1s1p0_0_w8s1p7_0 h_S_),
    binary main_v44 main_v43 main_v45 (subi : (⟨S16384x8, .i32⟩ : BufTy).Contents (Elt F) → (⟨S16384x8, .i32⟩ : BufTy).Contents (Elt F) → (⟨S16384x8, .i32⟩ : BufTy).Contents (Elt F)),
    nullary main_c (constantI S_ 32 8#32),
    TRef.unary (.of main_c : TRef sig ⟨S_, .i32⟩) main_call4.v0 id,
    TRef.unary main_call4.v0 main_call4.v1 (broadcastInDim S16384x8 ![] bcast_S_S16384x8),
    TRef.ternary (.of main_v33 : TRef sig ⟨S16384x8, .i1⟩) (.of main_v45 : TRef sig ⟨S16384x8, .i32⟩) main_call4.v1 main_call4.v2 select,
    TRef.unary (.of main_v46 : TRef sig ⟨S16384x8, .i32⟩) main_call5.v0 (broadcastInDim S16384x8x1 ![0, 1] bcast_S16384x8_S16384x8x1_0_1),
    TRef.nullary main_call5.v1 (iotaInDim S1x1x9 32 2),
    TRef.unary main_call5.v0 main_call5.v2 (broadcastInDim S16384x8x9 ![0, 1, 2] bcast_S16384x8x1_S16384x8x9_0_1_2),
    TRef.unary main_call5.v1 main_call5.v3 (broadcastInDim S16384x8x9 ![0, 1, 2] bcast_S1x1x9_S16384x8x9_0_1_2),
    TRef.binary main_call5.v2 main_call5.v3 main_call5.v4 (cmpi .eq),
    TRef.unary main_call5.v4 main_call5.v5 (uitofp .f32),
    binary main_v47 main_v42 main_v48 ((fun l r => Host.dotGeneral dot_S16384x8x9_S16384x8x128_S16384x9x128_1_1_2_2_0_0 none l r) : (⟨S16384x8x9, .f32⟩ : BufTy).Contents (Elt F) → (⟨S16384x8x128, .f32⟩ : BufTy).Contents (Elt F) → (⟨S16384x9x128, .f32⟩ : BufTy).Contents (Elt F)),
    unary main_v48 main_v49 ((extractStridedSlice S16384x8x128 ![0, 0, 0] · slices_S16384x9x128_S16384x8x128_0_0_0) : (⟨S16384x9x128, .f32⟩ : BufTy).Contents (Elt F) → (⟨S16384x8x128, .f32⟩ : BufTy).Contents (Elt F)),
    reshape main_v49 main_v50 rfl shapeCasts_S16384x8x128_S16384x1024 ]

set_option maxHeartbeats 4000000 in
set_option maxRecDepth 8192 in
/-- @main is that straight line: each call is its function's body at the call's buffers, and a sequence of
    sequences is one sequence. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches tensor values of @main only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., unary_bufs_sub .., binary_bufs_sub .., nullary_bufs_sub .., unary_bufs_sub ..,
    unary_bufs_sub .., unary_bufs_sub .., ternary_bufs_sub .., unary_bufs_sub .., nullary_bufs_sub .., unary_bufs_sub ..,
    binary_bufs_sub .., binary_bufs_sub .., nullary_bufs_sub .., unary_bufs_sub .., unary_bufs_sub .., ternary_bufs_sub ..,
    unary_bufs_sub .., nullary_bufs_sub .., unary_bufs_sub .., unary_bufs_sub .., binary_bufs_sub .., unary_bufs_sub ..,
    binary_bufs_sub .., unary_bufs_sub .., reshape_bufs_sub ..⟩

/-! ## The line in two parts

The gate weights (value 31) occur five times in the term the later operations compose (three times in the slot
numbers, twice in the gated outputs), so the line is cut there: the first 53 operations take the arguments to the gate
weights, the other 34 take the gate weights and the arguments to the packed outputs. Each part is read over an
arbitrary valuation, and the two are joined by `after_append`. -/

/-- A line run in two parts: the second part runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The operations up to the gate weights (the first 53). -/
abbrev opsA : List (HloOp τ sig (Elt F)) := ops.take 53
/-- The operations after the gate weights (the other 34). -/
abbrev opsB : List (HloOp τ sig (Elt F)) := ops.drop 53

theorem after_split (V : Valuation τ sig (Elt F)) : after ops V = after opsB (after opsA V) :=
  (congrArg (fun l => after l V) (List.take_append_drop 53 (ops (F := F))).symm).trans (after_append _ _ V)

/-! The folds over the elements of an array (`Host.reduce`, `Host.reduceAdd`, `Host.reduceWindow`) are kept closed
below: the equations compare how the operations are composed, never what a fold is. -/

attribute [local irreducible] Host.reduce Host.reduceAdd Host.reduceWindow in
set_option maxRecDepth 8192 in
set_option maxHeartbeats 4000000 in
/-- After the first part the gate buffer holds `Stage.gate` of the arguments: the fold over the list unrolled, each
    operation's result read at the buffer it writes and passed over at every other, the stages unfolded. -/
theorem gateA_eq (V : Valuation τ sig (Elt F)) :
    after opsA V (main_v31 : DevRef τ sig) = Stage.gate (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rfl

set_option maxRecDepth 8192 in
theorem argA0_eq (V : Valuation τ sig (Elt F)) :
    after opsA V (main_arg0 : DevRef τ sig) = V (main_arg0 : DevRef τ sig) := by
  rfl

set_option maxRecDepth 8192 in
theorem argA6_eq (V : Valuation τ sig (Elt F)) :
    after opsA V (main_arg6 : DevRef τ sig) = V (main_arg6 : DevRef τ sig) := by
  rfl

set_option maxRecDepth 8192 in
theorem argA7_eq (V : Valuation τ sig (Elt F)) :
    after opsA V (main_arg7 : DevRef τ sig) = V (main_arg7 : DevRef τ sig) := by
  rfl

attribute [local irreducible] Host.reduce Host.reduceAdd Host.reduceWindow in
set_option maxRecDepth 8192 in
set_option maxHeartbeats 4000000 in
/-- The second part takes the gate weights and the arguments to the packed outputs `Stage.outOf`. -/
theorem outB_eq (W : Valuation τ sig (Elt F)) :
    after opsB W (main_v50 : DevRef τ sig)
      = Stage.outOf (W (main_v31 : DevRef τ sig)) (Stage.experts (W (main_arg0 : DevRef τ sig)) (W (main_arg6 : DevRef τ sig)) (W (main_arg7 : DevRef τ sig))) := by
  rfl

set_option maxRecDepth 8192 in
/-- The second part does not write the gate weights. -/
theorem gateB_eq (W : Valuation τ sig (Elt F)) :
    after opsB W (main_v31 : DevRef τ sig) = W (main_v31 : DevRef τ sig) := by
  rfl

/-- The first result buffer after the whole line. -/
theorem out_eq (V : Valuation τ sig (Elt F)) :
    after ops V (main_v50 : DevRef τ sig) = Stage.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_split, outB_eq, gateA_eq, argA0_eq, argA6_eq, argA7_eq]
  rfl

/-- The second result buffer after the whole line. -/
theorem gate_eq (V : Valuation τ sig (Elt F)) :
    after ops V (main_v31 : DevRef τ sig) = Stage.gate (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_split, gateB_eq, gateA_eq]

/-! No operation writes an argument. -/

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

set_option maxRecDepth 8192 in
theorem arg4_eq (V : Valuation τ sig (Elt F)) :
    after ops V (main_arg4 : DevRef τ sig) = V (main_arg4 : DevRef τ sig) := by
  simp only [after_cons, after_nil]
  rfl

set_option maxRecDepth 8192 in
theorem arg5_eq (V : Valuation τ sig (Elt F)) :
    after ops V (main_arg5 : DevRef τ sig) = V (main_arg5 : DevRef τ sig) := by
  simp only [after_cons, after_nil]
  rfl

set_option maxRecDepth 8192 in
theorem arg6_eq (V : Valuation τ sig (Elt F)) :
    after ops V (main_arg6 : DevRef τ sig) = V (main_arg6 : DevRef τ sig) := by
  simp only [after_cons, after_nil]
  rfl

set_option maxRecDepth 8192 in
theorem arg7_eq (V : Valuation τ sig (Elt F)) :
    after ops V (main_arg7 : DevRef τ sig) = V (main_arg7 : DevRef τ sig) := by
  simp only [after_cons, after_nil]
  rfl

/-- From any memory with zero counters every weakly fair execution of @main terminates, each buffer at the fold of
    the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-- Every weakly fair execution of the reference terminates with its first result at `Stage.out` of the arguments, its
    second at `Stage.gate` of them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = Stage.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v31) = Stage.gate (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v50).trans (out_eq _), (h c main_v31).trans (gate_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_main m ρ)

end Cert.ReferenceIdeal.RRun

end
-- ==== Proof.RGate.lean ====
/-
  The reference's dense stages read at one element: the gate weights (two `dot_general`s against the transposed
  gate weights, the outlined softplus, the noise, the threshold spelt as an addition, the softmax with its reduces over
  the expert axis) are `Spec.rGate`, and the experts' outputs (one `dot_general` contracting the feature axis of the
  rank-3 weights, plus the bias) are `Spec.experts`.
-/
import proofs.«400578_j13073880449226_3_alg».proof.Proof.RStage
import proofs.«400578_j13073880449226_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RGate

open Cert.ReferenceIdeal Cert.ReferenceIdeal.Gen Idealize.ShloMosaic Idealize.ShloMosaic.ValueIdx

/-! ## The rank-2 product `x · Wᵀ`: the operand indices of its dimension numbers, axis by axis -/

/-- The left operand's row axis is free: it carries the output's row. -/
theorem lhs2_0 (i : S16384x8.Idx) (q : dot_S16384x256_S256x8_S16384x8_1_0_0_1_n_n.contr.Idx) :
    (dot_S16384x256_S256x8_S16384x8_1_0_0_1_n_n.lhsIdx i q 0).val = (i 0).val := by
  unfold DotDims.lhsIdx
  rw [dif_neg (show ¬(0 : Fin S16384x256.rank) ∈ dot_S16384x256_S256x8_S16384x8_1_0_0_1_n_n.lhsBatch by decide),
    dif_pos (show (0 : Fin S16384x256.rank) ∈ dot_S16384x256_S256x8_S16384x8_1_0_0_1_n_n.lhsNonContracting by decide)]
  rfl

/-- The left operand's feature axis is the contracted one. -/
theorem lhs2_1 (i : S16384x8.Idx) (q : dot_S16384x256_S256x8_S16384x8_1_0_0_1_n_n.contr.Idx) :
    (dot_S16384x256_S256x8_S16384x8_1_0_0_1_n_n.lhsIdx i q 1).val = (q ⟨0, by decide⟩).val :=
  dot_S16384x256_S256x8_S16384x8_1_0_0_1_n_n.lhsIdx_val_of_single rfl i q

/-- The right operand's feature axis is the contracted one. -/
theorem rhs2_0 (i : S16384x8.Idx) (q : dot_S16384x256_S256x8_S16384x8_1_0_0_1_n_n.contr.Idx) :
    (dot_S16384x256_S256x8_S16384x8_1_0_0_1_n_n.rhsIdx i q 0).val = (q ⟨0, by decide⟩).val :=
  dot_S16384x256_S256x8_S16384x8_1_0_0_1_n_n.rhsIdx_val_of_single rfl i q

/-- The right operand's expert axis is free: it carries the output's column. -/
theorem rhs2_1 (i : S16384x8.Idx) (q : dot_S16384x256_S256x8_S16384x8_1_0_0_1_n_n.contr.Idx) :
    (dot_S16384x256_S256x8_S16384x8_1_0_0_1_n_n.rhsIdx i q 1).val = (i 1).val := by
  unfold DotDims.rhsIdx
  rw [dif_neg (show ¬(1 : Fin S256x8.rank) ∈ dot_S16384x256_S256x8_S16384x8_1_0_0_1_n_n.rhsBatch by decide),
    dif_pos (show (1 : Fin S256x8.rank) ∈ dot_S16384x256_S256x8_S16384x8_1_0_0_1_n_n.rhsNonContracting by decide)]
  rfl

/-- The product at `(b, n)`: the sum over the 256 features of row `b` of the left operand against column `n` of the right. -/
theorem dot2_apply (x : FVec Ideal S16384x256 .f32) (w : FVec Ideal S256x8 .f32) (b : Fin 16384) (n : Fin 8) :
    Host.dotGeneral dot_S16384x256_S256x8_S16384x8_1_0_0_1_n_n none x w (ix2 b n)
      = ∑ k : Fin 256, x (ix2 b k) * w (ix2 k n) := by
  simp only [Host.dotGeneral]
  rw [Ideal.dotGeneral_apply,
    ← Equiv.sum_comp (contrEquiv1 dot_S16384x256_S256x8_S16384x8_1_0_0_1_n_n 256 rfl rfl).symm]
  refine Finset.sum_congr rfl fun k _ => ?_
  have hk := contrEquiv1_symm_val dot_S16384x256_S256x8_S16384x8_1_0_0_1_n_n 256 rfl rfl k
  have el : dot_S16384x256_S256x8_S16384x8_1_0_0_1_n_n.lhsIdx (ix2 b n)
      ((contrEquiv1 dot_S16384x256_S256x8_S16384x8_1_0_0_1_n_n 256 rfl rfl).symm k) = ix2 b k :=
    funext fun a => Fin.ext (by
      match a with
      | ⟨0, _⟩ => exact lhs2_0 _ _
      | ⟨1, _⟩ => exact (lhs2_1 _ _).trans hk)
  have er : dot_S16384x256_S256x8_S16384x8_1_0_0_1_n_n.rhsIdx (ix2 b n)
      ((contrEquiv1 dot_S16384x256_S256x8_S16384x8_1_0_0_1_n_n 256 rfl rfl).symm k) = ix2 k n :=
    funext fun a => Fin.ext (by
      match a with
      | ⟨0, _⟩ => exact (rhs2_0 _ _).trans hk
      | ⟨1, _⟩ => exact rhs2_1 _ _)
  rw [el, er]

/-! ## The broadcasts -/

/-- The zero word broadcast reads the zero word everywhere. -/
theorem zeros8_apply (i : S16384x8.Idx) : Stage.zeros8 (F := Ideal) i = Spec.zero32 := rfl

/-- A vector of 8 broadcast along the rows reads its entry at the column. -/
theorem row8_apply (v : FVec Ideal S8 .f32) (b : Fin 16384) (n : Fin 8) : Stage.row8 v (ix2 b n) = v (ix1 n) := by
  unfold Stage.row8
  rw [broadcastInDim_apply _ _ _ (ix2 b n) (ix2 (0 : Fin 1) n) (fun a => match a with | ⟨0, _⟩ => rfl | ⟨1, _⟩ => rfl)]
  exact broadcastInDim_apply _ _ _ (ix2 (0 : Fin 1) n) (ix1 n) (fun a => match a with | ⟨0, _⟩ => rfl)

/-- A vector of 16384 broadcast along the columns reads its entry at the row. -/
theorem col8_apply (v : FVec Ideal S16384 .f32) (b : Fin 16384) (n : Fin 8) : Stage.col8 v (ix2 b n) = v (ix1 b) := by
  unfold Stage.col8
  rw [broadcastInDim_apply _ _ _ (ix2 b n) (ix2 b (0 : Fin 1)) (fun a => match a with | ⟨0, _⟩ => rfl | ⟨1, _⟩ => rfl)]
  exact broadcastInDim_apply _ _ _ (ix2 b (0 : Fin 1)) (ix1 b) (fun a => match a with | ⟨0, _⟩ => rfl)

/-! ## The gate logits -/

/-- `x @ Wᵀ + bias` at `(b, n)`: row `b` of `x` against row `n` of `W` (the transposed weight at `(k, n)` is the weight at `(n, k)`), plus the bias. -/
theorem linear_apply (x : FVec Ideal S16384x256 .f32) (w : FVec Ideal S8x256 .f32) (bias : FVec Ideal S8 .f32)
    (b : Fin 16384) (n : Fin 8) :
    Stage.linear x w bias (ix2 b n) = Spec.dot (fun k => x (ix2 b k)) (fun k => w (ix2 n k)) + bias (ix1 n) := by
  unfold Stage.linear
  rw [addf_apply, dot2_apply, row8_apply]
  refine congrArg (· + bias (ix1 n)) ?_
  unfold Spec.dot
  refine Finset.sum_congr rfl fun k _ => ?_
  exact congrArg (x (ix2 b k) * ·) (transpose_ix2_apply w transposes_S8x256_S256x8_1_0 k n)

/-- The outlined softplus is pointwise: at an index, the reference's softplus of the element. -/
theorem softplus_apply (z : FVec Ideal S16384x8 .f32) (i : S16384x8.Idx) :
    Stage.softplus z i = Spec.rSoftplus (z i) := rfl

/-- The gate logit at `(b, n)`. -/
theorem logits_apply (x : FVec Ideal S16384x256 .f32) (noise : FVec Ideal S8 .f32) (wg : FVec Ideal S8x256 .f32)
    (bg : FVec Ideal S8 .f32) (wn : FVec Ideal S8x256 .f32) (bn : FVec Ideal S8 .f32) (b : Fin 16384) (n : Fin 8) :
    Stage.logits x noise wg bg wn bn (ix2 b n)
      = Spec.rH (fun k => x (ix2 b k)) (fun k => wg (ix2 n k)) (bg (ix1 n)) (fun k => wn (ix2 n k)) (bn (ix1 n)) (noise (ix1 n)) := by
  unfold Stage.logits Spec.rH
  rw [addf_apply, mulf_apply, linear_apply, row8_apply, softplus_apply, linear_apply]

/-- The threshold is pointwise: the logit plus the selected correction. -/
theorem thresholded_apply (h : FVec Ideal S16384x8 .f32) (i : S16384x8.Idx) :
    Stage.thresholded h i = Spec.rThr (h i) := rfl

/-! ## The softmax over the expert axis -/

/-- The reduced index `b` with the expert coordinate `k` inserted is `(b, k)`. -/
theorem lift8 (h : S16384x8.Reduces [1] S16384) (b : Fin 16384) (k : Fin 8) : h.lift (ix1 b) k = ix2 b k :=
  funext fun a => match a with | ⟨0, _⟩ => Fin.ext rfl | ⟨1, _⟩ => Fin.ext rfl

/-- The shape fact the inserted index is defined from. -/
theorem reduces8 : S16384x8.Reduces [1] S16384 := by decide

/-- The row maximum against minus infinity, at row `b`. -/
theorem rowmax_apply (g : FVec Ideal S16384x8 .f32) (b : Fin 16384) :
    maximumf (broadcastInDim S16384 ![] bcast_S_S16384 (constant (F := Ideal) S_ .f32 0xFF800000#32))
      (Host.reduce FloatOps.maximumf g (constant S_ .f32 0xFF800000#32) reducesTo_S16384x8_S16384_d1 h_S_) (ix1 b)
      = Spec.rMax (fun k => g (ix2 b k)) := by
  rw [maximumf_apply, Host.reduce_eq_fold_single FloatOps.maximumf g _ reducesTo_S16384x8_S16384_d1 reduces8 h_S_ (ix1 b)]
  unfold Spec.rMax
  have hg : (g ∘ reduces8.lift (ix1 b)) = fun k : Fin 8 => g (ix2 b k) := funext fun k => congrArg g (lift8 reduces8 b k)
  rw [hg]
  rfl

/-- The shifted exponential at `(b, n)`. -/
theorem expShifted_apply (g : FVec Ideal S16384x8 .f32) (b : Fin 16384) (n : Fin 8) :
    Stage.expShifted g (ix2 b n) = Ideal.exp (g (ix2 b n) - Spec.rMax (fun k => g (ix2 b k))) := by
  unfold Stage.expShifted
  show FloatOps.hostUnary .exp (subf g _ (ix2 b n)) = _
  rw [Ideal.hostUnary_exp_def, subf_apply, col8_apply, rowmax_apply]

/-- The row sum of the shifted exponentials, from the zero word, at row `b`. -/
theorem rowsum_apply (e : FVec Ideal S16384x8 .f32) (b : Fin 16384) :
    Host.reduceAdd e (constant (F := Ideal) S_ .f32 0x00000000#32) reducesTo_S16384x8_S16384_d1 h_S_ (ix1 b)
      = Spec.zero32 + ∑ k : Fin 8, e (ix2 b k) := by
  unfold Host.reduceAdd
  rw [Ideal.hostReduceAdd_def, Ideal.hostReduceAdd_single reducesTo_S16384x8_S16384_d1 reduces8]
  refine congrArg (Spec.zero32 + ·) ?_
  exact Finset.sum_congr rfl fun k _ => congrArg e (lift8 reduces8 b k)

/-- The softmax at `(b, n)`. -/
theorem softmax_apply (g : FVec Ideal S16384x8 .f32) (b : Fin 16384) (n : Fin 8) :
    Stage.softmax g (ix2 b n) = Spec.rSoft (fun k => g (ix2 b k)) n := by
  unfold Stage.softmax Spec.rSoft
  show FloatOps.hostDivf (Stage.expShifted g (ix2 b n)) (Stage.col8 _ (ix2 b n)) = _
  rw [Ideal.hostDivf_def, col8_apply, rowsum_apply, expShifted_apply]
  refine congrArg (fun s => Ideal.div _ (Spec.zero32 + s)) ?_
  exact Finset.sum_congr rfl fun k _ => expShifted_apply g b k

/-! ## The experts' product: `x`'s feature axis against the rank-3 weights' feature axis -/

/-- The left operand's row axis is free: it carries the output's row. -/
theorem lhs3_0 (i : S16384x8x128.Idx) (q : dot_S16384x256_S8x128x256_S16384x8x128_1_2_0_01_n_n.contr.Idx) :
    (dot_S16384x256_S8x128x256_S16384x8x128_1_2_0_01_n_n.lhsIdx i q 0).val = (i 0).val := by
  unfold DotDims.lhsIdx
  rw [dif_neg (show ¬(0 : Fin S16384x256.rank) ∈ dot_S16384x256_S8x128x256_S16384x8x128_1_2_0_01_n_n.lhsBatch by decide),
    dif_pos (show (0 : Fin S16384x256.rank) ∈ dot_S16384x256_S8x128x256_S16384x8x128_1_2_0_01_n_n.lhsNonContracting by decide)]
  rfl

/-- The left operand's feature axis is the contracted one. -/
theorem lhs3_1 (i : S16384x8x128.Idx) (q : dot_S16384x256_S8x128x256_S16384x8x128_1_2_0_01_n_n.contr.Idx) :
    (dot_S16384x256_S8x128x256_S16384x8x128_1_2_0_01_n_n.lhsIdx i q 1).val = (q ⟨0, by decide⟩).val :=
  dot_S16384x256_S8x128x256_S16384x8x128_1_2_0_01_n_n.lhsIdx_val_of_single rfl i q

/-- The weights' expert axis is free: it carries the output's second coordinate. -/
theorem rhs3_0 (i : S16384x8x128.Idx) (q : dot_S16384x256_S8x128x256_S16384x8x128_1_2_0_01_n_n.contr.Idx) :
    (dot_S16384x256_S8x128x256_S16384x8x128_1_2_0_01_n_n.rhsIdx i q 0).val = (i 1).val := by
  unfold DotDims.rhsIdx
  rw [dif_neg (show ¬(0 : Fin S8x128x256.rank) ∈ dot_S16384x256_S8x128x256_S16384x8x128_1_2_0_01_n_n.rhsBatch by decide),
    dif_pos (show (0 : Fin S8x128x256.rank) ∈ dot_S16384x256_S8x128x256_S16384x8x128_1_2_0_01_n_n.rhsNonContracting by decide)]
  rfl

/-- The weights' channel axis is free: it carries the output's third coordinate. -/
theorem rhs3_1 (i : S16384x8x128.Idx) (q : dot_S16384x256_S8x128x256_S16384x8x128_1_2_0_01_n_n.contr.Idx) :
    (dot_S16384x256_S8x128x256_S16384x8x128_1_2_0_01_n_n.rhsIdx i q 1).val = (i 2).val := by
  unfold DotDims.rhsIdx
  rw [dif_neg (show ¬(1 : Fin S8x128x256.rank) ∈ dot_S16384x256_S8x128x256_S16384x8x128_1_2_0_01_n_n.rhsBatch by decide),
    dif_pos (show (1 : Fin S8x128x256.rank) ∈ dot_S16384x256_S8x128x256_S16384x8x128_1_2_0_01_n_n.rhsNonContracting by decide)]
  rfl

/-- The weights' feature axis is the contracted one. -/
theorem rhs3_2 (i : S16384x8x128.Idx) (q : dot_S16384x256_S8x128x256_S16384x8x128_1_2_0_01_n_n.contr.Idx) :
    (dot_S16384x256_S8x128x256_S16384x8x128_1_2_0_01_n_n.rhsIdx i q 2).val = (q ⟨0, by decide⟩).val :=
  dot_S16384x256_S8x128x256_S16384x8x128_1_2_0_01_n_n.rhsIdx_val_of_single rfl i q

/-- The product at `(b, n, d)`: the sum over the 256 features of row `b` of `x` against row `(n, d)` of the weights. -/
theorem dot3_apply (x : FVec Ideal S16384x256 .f32) (cw : FVec Ideal S8x128x256 .f32) (b : Fin 16384) (n : Fin 8) (d : Fin 128) :
    Host.dotGeneral dot_S16384x256_S8x128x256_S16384x8x128_1_2_0_01_n_n none x cw (ix3 b n d)
      = ∑ k : Fin 256, x (ix2 b k) * cw (ix3 n d k) := by
  simp only [Host.dotGeneral]
  rw [Ideal.dotGeneral_apply,
    ← Equiv.sum_comp (contrEquiv1 dot_S16384x256_S8x128x256_S16384x8x128_1_2_0_01_n_n 256 rfl rfl).symm]
  refine Finset.sum_congr rfl fun k _ => ?_
  have hk := contrEquiv1_symm_val dot_S16384x256_S8x128x256_S16384x8x128_1_2_0_01_n_n 256 rfl rfl k
  have el : dot_S16384x256_S8x128x256_S16384x8x128_1_2_0_01_n_n.lhsIdx (ix3 b n d)
      ((contrEquiv1 dot_S16384x256_S8x128x256_S16384x8x128_1_2_0_01_n_n 256 rfl rfl).symm k) = ix2 b k :=
    funext fun a => Fin.ext (by
      match a with
      | ⟨0, _⟩ => exact lhs3_0 _ _
      | ⟨1, _⟩ => exact (lhs3_1 _ _).trans hk)
  have er : dot_S16384x256_S8x128x256_S16384x8x128_1_2_0_01_n_n.rhsIdx (ix3 b n d)
      ((contrEquiv1 dot_S16384x256_S8x128x256_S16384x8x128_1_2_0_01_n_n 256 rfl rfl).symm k) = ix3 n d k :=
    funext fun a => Fin.ext (by
      match a with
      | ⟨0, _⟩ => exact rhs3_0 _ _
      | ⟨1, _⟩ => exact rhs3_1 _ _
      | ⟨2, _⟩ => exact (rhs3_2 _ _).trans hk)
  rw [el, er]

/-- The bias `[8, 128]` broadcast along the rows reads its entry at the expert and channel. -/
theorem bias3_apply (cb : FVec Ideal S8x128 .f32) (b : Fin 16384) (n : Fin 8) (d : Fin 128) :
    broadcastInDim S16384x8x128 ![0, 1, 2] bcast_S1x8x128_S16384x8x128_0_1_2
      (broadcastInDim S1x8x128 ![1, 2] bcast_S8x128_S1x8x128_1_2 cb) (ix3 b n d) = cb (ix2 n d) := by
  rw [broadcastInDim_apply _ _ _ (ix3 b n d) (ix3 (0 : Fin 1) n d)
    (fun a => match a with | ⟨0, _⟩ => rfl | ⟨1, _⟩ => rfl | ⟨2, _⟩ => rfl)]
  exact broadcastInDim_apply _ _ _ (ix3 (0 : Fin 1) n d) (ix2 n d) (fun a => match a with | ⟨0, _⟩ => rfl | ⟨1, _⟩ => rfl)

/-! ## The two interface readings -/

/-- The gate weights, element by element. -/
theorem gate_apply (x : FVec Ideal S16384x256 .f32) (noise : FVec Ideal S8 .f32) (wg : FVec Ideal S8x256 .f32) (bg : FVec Ideal S8 .f32)
    (wn : FVec Ideal S8x256 .f32) (bn : FVec Ideal S8 .f32) (b : Fin 16384) (n : Fin 8) :
    Stage.gate (F := Ideal) x noise wg bg wn bn (ix2 b n) = Spec.rGate x noise wg bg wn bn (ix2 b n) := by
  unfold Stage.gate
  rw [softmax_apply]
  show Spec.rSoft _ n = Spec.rSoft (Spec.rLogits x noise wg bg wn bn b) n
  refine congrArg (fun g => Spec.rSoft g n) (funext fun k => ?_)
  rw [thresholded_apply, logits_apply]
  rfl

/-- The experts' outputs, element by element. -/
theorem experts_apply (x : FVec Ideal S16384x256 .f32) (cw : FVec Ideal S8x128x256 .f32) (cb : FVec Ideal S8x128 .f32)
    (b : Fin 16384) (n : Fin 8) (d : Fin 128) :
    Stage.experts (F := Ideal) x cw cb (ix3 b n d) = Spec.experts x cw cb b n d := by
  unfold Stage.experts Spec.experts Spec.dot
  rw [addf_apply, dot3_apply, bias3_apply]

end Cert.ReferenceIdeal.RGate

end
-- ==== Proof.RPack.lean ====
/-
  The reference's compaction read at one element, over arbitrary gate weights `G` and experts' outputs `Y`:
  the selection bits, jax's cumsum (a `reduce_window` of width 8 padded 7 low: the inclusive running count), the slot
  numbers, their one-hot matrix, the batched `dot_general` contracting the expert axis, the slice that drops the dump
  slot and the reshape to `[16384, 1024]`: column `q` of row `b` is `Spec.rPacked` at slot `q / 128`, channel `q % 128`.
-/
import proofs.«400578_j13073880449226_3_alg».proof.Proof.RStage
import proofs.«400578_j13073880449226_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RPack

open Cert.ReferenceIdeal Cert.ReferenceIdeal.Gen Idealize.ShloMosaic Idealize.ShloMosaic.ValueIdx

/-! ## Selection bits -/

/-- The selection bit of expert `i` of row `b`: its weight compared with the zero word. -/
theorem selected_apply (G : FVec Ideal S16384x8 .f32) (b : Fin 16384) (i : Fin 8) :
    Stage.selected (F := Ideal) G (ix2 b i) = Spec.sel (fun n => G (ix2 b n)) i := rfl

/-- The same bit widened to a 32-bit word. -/
theorem selWords_apply (G : FVec Ideal S16384x8 .f32) (b : Fin 16384) (i : Fin 8) :
    Stage.selWords (F := Ideal) G (ix2 b i) = (Spec.sel (fun n => G (ix2 b n)) i).setWidth 32 := rfl

/-! ## The running count: a window of eight along the experts, padded seven low -/

/-- The window shape `[1, 8]` in row-major order: position `n` is `(0, n)`. -/
theorem win_coords : ∀ n : Fin (Shape.numel ⟨2, ![1, 8]⟩),
    (((⟨2, ![1, 8]⟩ : Shape).rowMajor.symm n 0).val = 0) ∧ (((⟨2, ![1, 8]⟩ : Shape).rowMajor.symm n 1).val = n.val) := by
  decide

/-- The windowed sum at row `b`, expert `i`: from zero, the eight window positions `n` added in order, position `n`
    reading expert `i + n - 7` of the row when `7 ≤ i + n`, and the padding's zero otherwise. Position `n` of the window
    sits at `(b + 0, i + n)` of the padded array, that is `(b, i + n - 7)` of the operand when it is inside it. -/
theorem cumsum_fold (e : IVec S16384x8 32) (b : Fin 16384) (i : Fin 8) :
    Stage.cumsum e (ix2 b i)
      = (List.finRange 8).foldl (fun r n => r + (if h : 7 ≤ i.val + n.val then e (ix2 b ⟨i.val + n.val - 7, by omega⟩) else 0#32)) 0#32 := by
  unfold Stage.cumsum Host.reduceWindow
  refine congrArg (fun f => List.foldl f (0#32) (List.finRange 8)) (funext fun r => funext fun n => ?_)
  refine congrArg (fun x => r + x) ?_
  obtain ⟨h0, h1⟩ := win_coords n
  have hb := b.isLt
  have hi := i.isLt
  split_ifs with hin h h
  · -- inside the operand on both sides: the two indices agree coordinate by coordinate
    refine congrArg e (funext fun a => Fin.ext ?_)
    match a with
    | ⟨0, _⟩ =>
      show b.val * 1 + ((⟨2, ![1, 8]⟩ : Shape).rowMajor.symm n 0).val - 0 = b.val
      rw [h0]; omega
    | ⟨1, _⟩ =>
      show i.val * 1 + ((⟨2, ![1, 8]⟩ : Shape).rowMajor.symm n 1).val - 7 = i.val + n.val - 7
      rw [h1]; omega
  · -- inside the operand means `7 ≤ i + n` on the expert axis
    exfalso
    have h7 : 7 ≤ i.val * 1 + ((⟨2, ![1, 8]⟩ : Shape).rowMajor.symm n 1).val := (hin 1).1
    rw [h1] at h7; omega
  · -- and `7 ≤ i + n` puts the position inside the operand on both axes
    exfalso
    refine hin fun a => ?_
    match a with
    | ⟨0, _⟩ =>
      show 0 ≤ b.val * 1 + ((⟨2, ![1, 8]⟩ : Shape).rowMajor.symm n 0).val
        ∧ b.val * 1 + ((⟨2, ![1, 8]⟩ : Shape).rowMajor.symm n 0).val - 0 < 16384
      rw [h0]; omega
    | ⟨1, _⟩ =>
      show 7 ≤ i.val * 1 + ((⟨2, ![1, 8]⟩ : Shape).rowMajor.symm n 1).val
        ∧ i.val * 1 + ((⟨2, ![1, 8]⟩ : Shape).rowMajor.symm n 1).val - 7 < 8
      have hn8 : n.val < 8 := n.isLt
      rw [h1]; omega
  · rfl

/-- Over one row of weights: the eight window positions of expert `i` read, in order, `7 - i` zeros and then the
    selection words of experts `0, …, i`; added from zero that is the running count at `i + 1`, the zeros being
    neutral on either side of a sum. One case per expert. -/
theorem fold_eq_cnt (G' : Fin 8 → EReal) (i : Fin 8) :
    (List.finRange 8).foldl (fun acc n => acc + (if h : 7 ≤ i.val + n.val then (Spec.sel G' ⟨i.val + n.val - 7, by omega⟩).setWidth 32 else 0#32)) 0#32
      = Spec.cnt G' (i.val + 1) := by
  have hL : List.finRange 8 = [0, 1, 2, 3, 4, 5, 6, 7] := by decide
  rw [hL]
  simp only [List.foldl_cons, List.foldl_nil]
  fin_cases i <;> simp [Spec.cnt]

/-- The inclusive running count of selected experts at `(b, i)`. -/
theorem cumsum_apply (G : FVec Ideal S16384x8 .f32) (b : Fin 16384) (i : Fin 8) :
    Stage.cumsum (Stage.selWords (F := Ideal) G) (ix2 b i) = Spec.cnt (fun n => G (ix2 b n)) (i.val + 1) :=
  (cumsum_fold _ b i).trans (fold_eq_cnt (fun n => G (ix2 b n)) i)

/-! ## Slot numbers and their one-hot matrix -/

/-- The slot number of expert `i` of row `b`: the inclusive count less its own word where selected, else the dump slot 8. -/
theorem slots_apply (G : FVec Ideal S16384x8 .f32) (b : Fin 16384) (i : Fin 8) :
    Stage.slots (F := Ideal) G (ix2 b i) = Spec.rSlot (fun n => G (ix2 b n)) i := by
  unfold Stage.slots Spec.rSlot
  rw [select_apply, selected_apply]
  show Scalar.select _ (IntOp.subi (Stage.cumsum (Stage.selWords (F := Ideal) G) (ix2 b i)) (Stage.selWords (F := Ideal) G (ix2 b i))) 8#32 = _
  rw [cumsum_apply, selWords_apply]

/-- A `[16384, 8]` array kept as a column `[16384, 8, 1]` and spread over nine slots reads, at `(b, i, s)`, the array
    at `(b, i)`. -/
theorem bcast9_apply {α : Type} (x : S16384x8.Idx → α) (b : Fin 16384) (i : Fin 8) (s : Fin 9) :
    broadcastInDim S16384x8x9 ![0, 1, 2] bcast_S16384x8x1_S16384x8x9_0_1_2
      (broadcastInDim S16384x8x1 ![0, 1] bcast_S16384x8_S16384x8x1_0_1 x) (ix3 b i s) = x (ix2 b i) := by
  refine (broadcastInDim_apply _ _ _ (ix3 b i s) (ix3 b i (0 : Fin 1)) (fun a => ?_)).trans ?_
  · match a with
    | ⟨0, _⟩ => rfl
    | ⟨1, _⟩ => rfl
    | ⟨2, _⟩ => rfl
  · refine broadcastInDim_apply _ _ _ (ix3 b i (0 : Fin 1)) (ix2 b i) (fun a => ?_)
    match a with
    | ⟨0, _⟩ => rfl
    | ⟨1, _⟩ => rfl

/-- The numbers `0, …, 8` along the last axis of `[1, 1, 9]`, spread over rows and experts, read `s` at `(b, i, s)`. -/
theorem iota9_apply (b : Fin 16384) (i : Fin 8) (s : Fin 9) :
    broadcastInDim S16384x8x9 ![0, 1, 2] bcast_S1x1x9_S16384x8x9_0_1_2 (iotaInDim S1x1x9 32 2) (ix3 b i s)
      = BitVec.ofNat 32 s.val := by
  refine (broadcastInDim_apply _ _ _ (ix3 b i s) (ix3 (0 : Fin 1) (0 : Fin 1) s) (fun a => ?_)).trans rfl
  match a with
  | ⟨0, _⟩ => rfl
  | ⟨1, _⟩ => rfl
  | ⟨2, _⟩ => rfl

/-- The one-hot entry at `(b, i, s)`: one where expert `i`'s slot number is `s`, else zero (the comparison's bit read
    as a natural number, then as a real). -/
theorem oneHot_apply (sl : IVec S16384x8 32) (b : Fin 16384) (i : Fin 8) (s : Fin 9) :
    Stage.oneHot (F := Ideal) sl (ix3 b i s)
      = (((IntOp.cmpi .eq (sl (ix2 b i)) (BitVec.ofNat 32 s.val)).toNat : ℝ) : EReal) := by
  unfold Stage.oneHot
  show (((IntOp.cmpi .eq (broadcastInDim S16384x8x9 ![0, 1, 2] bcast_S16384x8x1_S16384x8x9_0_1_2
      (broadcastInDim S16384x8x1 ![0, 1] bcast_S16384x8_S16384x8x1_0_1 sl) (ix3 b i s))
    (broadcastInDim S16384x8x9 ![0, 1, 2] bcast_S1x1x9_S16384x8x9_0_1_2 (iotaInDim S1x1x9 32 2) (ix3 b i s))).toNat : ℝ) : EReal) = _
  rw [bcast9_apply, iota9_apply]

/-! ## The gated outputs -/

/-- A `[16384, 8]` array kept as a column `[16384, 8, 1]` and spread over the 128 channels reads, at `(b, i, d)`, the
    array at `(b, i)`. -/
theorem bcast128_apply {α : Type} (x : S16384x8.Idx → α) (b : Fin 16384) (i : Fin 8) (d : Fin 128) :
    broadcastInDim S16384x8x128 ![0, 1, 2] bcast_S16384x8x1_S16384x8x128_0_1_2
      (broadcastInDim S16384x8x1 ![0, 1] bcast_S16384x8_S16384x8x1_0_1 x) (ix3 b i d) = x (ix2 b i) := by
  refine (broadcastInDim_apply _ _ _ (ix3 b i d) (ix3 b i (0 : Fin 1)) (fun a => ?_)).trans ?_
  · match a with
    | ⟨0, _⟩ => rfl
    | ⟨1, _⟩ => rfl
    | ⟨2, _⟩ => rfl
  · refine broadcastInDim_apply _ _ _ (ix3 b i (0 : Fin 1)) (ix2 b i) (fun a => ?_)
    match a with
    | ⟨0, _⟩ => rfl
    | ⟨1, _⟩ => rfl

/-- The gated output at `(b, i, d)`: `G · Y` where expert `i` is selected, the zero word elsewhere. -/
theorem gated_apply (G : FVec Ideal S16384x8 .f32) (Y : FVec Ideal S16384x8x128 .f32) (b : Fin 16384) (i : Fin 8) (d : Fin 128) :
    Stage.gated (F := Ideal) G Y (ix3 b i d)
      = Spec.rGated (fun n => G (ix2 b n)) (fun n d => Y (ix3 b n d)) i d := by
  unfold Stage.gated Spec.rGated
  rw [select_apply, mulf_apply, bcast128_apply, bcast128_apply, selected_apply]
  rfl

/-! ## The packing: a product batched over the rows, contracting the expert axis -/

/-- The product's dimension numbers: batch axis 0 of both operands, axis 1 of both contracted, axis 2 of each free. -/
abbrev packDot := dot_S16384x8x9_S16384x8x128_S16384x9x128_1_1_2_2_0_0

/-- The one contracted axis is the expert axis: a contraction index is an expert. -/
def contrExpert : packDot.contr.Idx ≃ Fin 8 := contrEquiv1 packDot 8 rfl rfl

/-- At output `(b, s, d)` and expert `k` the left operand is read at `(b, k, s)` … -/
theorem lhsIdx_eq (b : Fin 16384) (s : Fin 9) (d : Fin 128) (k : Fin 8) :
    packDot.lhsIdx (ix3 b s d) (contrExpert.symm k) = ix3 b k s := by
  funext a
  refine Fin.ext ?_
  match a with
  | ⟨0, _⟩ => rfl
  | ⟨1, _⟩ => exact (packDot.lhsIdx_val_of_single rfl _ _).trans (contrEquiv1_symm_val packDot 8 rfl rfl k)
  | ⟨2, _⟩ => rfl

/-- … and the right operand at `(b, k, d)`. -/
theorem rhsIdx_eq (b : Fin 16384) (s : Fin 9) (d : Fin 128) (k : Fin 8) :
    packDot.rhsIdx (ix3 b s d) (contrExpert.symm k) = ix3 b k d := by
  funext a
  refine Fin.ext ?_
  match a with
  | ⟨0, _⟩ => rfl
  | ⟨1, _⟩ => exact (packDot.rhsIdx_val_of_single rfl _ _).trans (contrEquiv1_symm_val packDot 8 rfl rfl k)
  | ⟨2, _⟩ => rfl

/-- The packing at `(b, q)`: the flattening reads `(b, q / 128, q % 128)` (equal row-major positions,
    `(8 b + q / 128) · 128 + q % 128 = 1024 b + q`), the slice from offset zero keeps slot `q / 128` of the nine, and the
    product there is the sum over the eight experts of the left operand at `(b, k, q / 128)` times the right at
    `(b, k, q % 128)`. -/
theorem pack_apply (P : FVec Ideal S16384x8x9 .f32) (g : FVec Ideal S16384x8x128 .f32) (b : Fin 16384) (q : Fin 1024) :
    Stage.pack (F := Ideal) P g (ix2 b q)
      = ∑ k : Fin 8, P (ix3 b k ⟨q.val / 128, by have := q.isLt; omega⟩)
          * g (ix3 b k ⟨q.val % 128, Nat.mod_lt _ (by decide)⟩) := by
  unfold Stage.pack
  have hq := q.isLt
  refine (shapeCast_apply _ _ (ix2 b q)
    (ix3 b (⟨q.val / 128, by omega⟩ : Fin 8) (⟨q.val % 128, Nat.mod_lt _ (by decide)⟩ : Fin 128)) ?_).trans ?_
  · rw [Shape.rowMajor_val_three, Shape.rowMajor_val_two]
    show (b.val * 8 + q.val / 128) * 128 + q.val % 128 = b.val * 1024 + q.val
    omega
  refine (slice3_axis1_apply 0 _ _ b (⟨q.val / 128, by omega⟩ : Fin 8) _ (⟨q.val / 128, by omega⟩ : Fin 9)
    (Nat.zero_add _).symm).trans ?_
  simp only [Host.dotGeneral]
  rw [Ideal.dotGeneral_apply, ← Equiv.sum_comp contrExpert.symm]
  refine Finset.sum_congr rfl fun k _ => ?_
  rw [lhsIdx_eq, rhsIdx_eq]

/-! ## The first result at one element -/

/-- The packed outputs, element by element. -/
theorem outOf_apply (G : FVec Ideal S16384x8 .f32) (Y : FVec Ideal S16384x8x128 .f32) (b : Fin 16384) (q : Fin 1024) :
    Stage.outOf (F := Ideal) G Y (ix2 b q)
      = Spec.rPacked (fun n => G (ix2 b n)) (fun n d => Y (ix3 b n d))
          ⟨q.val / 128, by have := q.isLt; omega⟩ ⟨q.val % 128, Nat.mod_lt _ (by decide)⟩ := by
  unfold Stage.outOf Spec.rPacked
  rw [pack_apply]
  refine Finset.sum_congr rfl fun k _ => ?_
  rw [oneHot_apply, slots_apply, gated_apply]
  rfl

end Cert.ReferenceIdeal.RPack

end
-- ==== Proof.Bridge.lean ====
/-
  The two arrangements of Spec.lean are one function where the inputs are finite.
  Gate: the softplus spellings agree on every extended real (`0 − a = −a`); the logit `h` of finite inputs is a real
  number, so `h + (negBig − h) = negBig` where `h ≤ 0` and `h + 0 = h` elsewhere — the one place finiteness is used;
  the row maxima agree (`max −∞ a = a` once `a` is itself a fold from `−∞`) and so do the sums (`0 + a = a`).
  Packing, for any gate weights and any experts' outputs: the reference's exclusive count is the inclusive one less
  the expert's own bit, which is the kernel's running count; the count before expert `n` is at most `n`, so an expert
  `n < s` never lands in slot `s` and the reference's sum over all eight experts is the kernel's sum over `n ≥ s`;
  for `n ≥ s` the two products agree case by case on the selection bit and on the count's equality with `s`.
-/
import proofs.«400578_j13073880449226_3_alg».proof.Proof.Spec
import Idealize.ShloMosaic.PureOps.Ideal.Laws
import Mathlib.Data.EReal.Basic
import Mathlib.Data.EReal.Operations
import Mathlib.Algebra.BigOperators.Fin
import Mathlib.Data.Finset.Fold

noncomputable section

open scoped BigOperators

namespace Cert.Bridge

open Cert.Spec Idealize.ShloMosaic Idealize.ShloMosaic.ValueIdx

/-! ## Real numbers among the extended reals -/

/-- An extended real that is a real number. -/
def IsReal (a : EReal) : Prop := ∃ r : ℝ, a = (r : EReal)

theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem isReal_zero32 : IsReal zero32 := ⟨0, Ideal.ofBits_zero_f32.trans EReal.coe_zero.symm⟩

theorem zero32_eq : zero32 = 0 := Ideal.ofBits_zero_f32

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_dot {a b : Fin 256 → EReal} (ha : ∀ k, IsReal (a k)) (hb : ∀ k, IsReal (b k)) : IsReal (dot a b) :=
  isReal_sum _ _ fun k _ => (ha k).mul (hb k)

/-- The exponential of a real number is a real number. -/
theorem IsReal.exp {a : EReal} (ha : IsReal a) : IsReal (Ideal.exp a) := by
  obtain ⟨r, rfl⟩ := ha; exact ⟨Real.exp r, rfl⟩

/-- `log (1 + e^t)` is a real number. -/
theorem isReal_log1p_exp {a : EReal} (ha : IsReal a) : IsReal (Ideal.log1p (Ideal.exp a)) := by
  obtain ⟨r, rfl⟩ := ha
  refine ⟨Real.log (1 + Real.exp r), ?_⟩
  show Ideal.log (1 + ((Real.exp r : ℝ) : EReal)) = _
  rw [← EReal.coe_one, ← EReal.coe_add, Ideal.log_coe, if_neg]
  have := Real.exp_pos r
  linarith

/-! ## The gate logit -/

/-- The two spellings of softplus agree everywhere. -/
theorem softplus_eq (z : EReal) : kSoftplus z = rSoftplus z := by
  unfold kSoftplus rSoftplus
  rw [show (zero32 - max (z - zero32) (-(z - zero32))) = -(max (z - zero32) (-(z - zero32))) by rw [zero32_eq, zero_sub]]
  rfl

theorem isReal_select {c : BitVec 1} {a b : EReal} (ha : IsReal a) (hb : IsReal b) : IsReal (Scalar.select c a b) := by
  unfold Scalar.select; split <;> assumption

theorem isReal_rSoftplus {z : EReal} (hz : IsReal z) : IsReal (rSoftplus z) := by
  unfold rSoftplus
  refine isReal_select (hz.add isReal_zero32) ?_
  exact (hz.max isReal_zero32).add (isReal_log1p_exp (((hz.sub isReal_zero32).max (hz.sub isReal_zero32).neg).neg))

theorem isReal_rH {xr wg wn : Fin 256 → EReal} {bg bn nz : EReal} (hx : ∀ k, IsReal (xr k)) (hwg : ∀ k, IsReal (wg k))
    (hbg : IsReal bg) (hwn : ∀ k, IsReal (wn k)) (hbn : IsReal bn) (hnz : IsReal nz) : IsReal (rH xr wg bg wn bn nz) := by
  unfold rH
  exact ((isReal_dot hx hwg).add hbg).add (hnz.mul (isReal_rSoftplus ((isReal_dot hx hwn).add hbn)))

theorem kH_eq (xr wg : Fin 256 → EReal) (bg : EReal) (wn : Fin 256 → EReal) (bn nz : EReal) :
    kH xr wg bg wn bn nz = rH xr wg bg wn bn nz := by
  unfold kH rH; rw [softplus_eq]

/-- The stand-in for minus infinity is a (large negative) real number. -/
theorem isReal_negBig : IsReal negBig := by
  unfold IsReal
  simp only [Ideal.ofBits, Ideal.ieee]
  norm_num
  exact ⟨_, rfl⟩

/-- On a real logit the two spellings of the threshold agree: `h + (negBig − h) = negBig`, `h + 0 = h`. -/
theorem thr_eq {h : EReal} (hh : IsReal h) : kThr h = rThr h := by
  unfold kThr rThr Scalar.select
  obtain ⟨r, rfl⟩ := hh
  obtain ⟨nb, hnb⟩ := isReal_negBig
  split
  · rw [hnb, ← EReal.coe_sub, ← EReal.coe_add]; congr 1; ring
  · rw [zero32_eq, add_zero]

/-! ## The softmax -/

theorem max_eq (g : Fin 8 → EReal) : rMax g = kMax g := by
  unfold rMax kMax
  exact max_eq_right ((Finset.le_fold_max _).mpr (Or.inl le_rfl))

theorem soft_eq (g : Fin 8 → EReal) (n : Fin 8) : kSoft g n = rSoft g n := by
  unfold kSoft rSoft
  rw [max_eq, zero32_eq, zero_add]

/-- The gate weights: the two arrangements agree on finite inputs. -/
theorem gate_eq (x : (⟨2, ![16384, 256]⟩ : Shape).Idx → EReal) (noise : (⟨1, ![8]⟩ : Shape).Idx → EReal)
    (wg : (⟨2, ![8, 256]⟩ : Shape).Idx → EReal) (bg : (⟨1, ![8]⟩ : Shape).Idx → EReal)
    (wn : (⟨2, ![8, 256]⟩ : Shape).Idx → EReal) (bn : (⟨1, ![8]⟩ : Shape).Idx → EReal)
    (hx : ∀ i, ∃ r : ℝ, x i = (r : EReal)) (hnoise : ∀ i, ∃ r : ℝ, noise i = (r : EReal))
    (hwg : ∀ i, ∃ r : ℝ, wg i = (r : EReal)) (hbg : ∀ i, ∃ r : ℝ, bg i = (r : EReal))
    (hwn : ∀ i, ∃ r : ℝ, wn i = (r : EReal)) (hbn : ∀ i, ∃ r : ℝ, bn i = (r : EReal)) :
    kGate x noise wg bg wn bn = rGate x noise wg bg wn bn := by
  funext i
  unfold kGate rGate
  have hL : kLogits x noise wg bg wn bn (i 0) = rLogits x noise wg bg wn bn (i 0) := by
    funext j
    unfold kLogits rLogits
    rw [kH_eq]
    exact thr_eq (isReal_rH (fun k => hx _) (fun k => hwg _) (hbg _) (fun k => hwn _) (hbn _) (hnoise _))
  rw [hL]
  exact soft_eq _ _

/-! ## The packing -/

/-- A widened selection bit is `0` or `1`. -/
theorem toNat_setWidth_le_one (b : BitVec 1) : (b.setWidth 32).toNat ≤ 1 := by
  rcases BitVec.eq_zero_or_eq_one b with h | h <;> subst h <;> decide

/-- Fewer than `n + 1` experts are selected among the first `n`. -/
theorem cnt_toNat_le (G : Fin 8 → EReal) : ∀ n : ℕ, n ≤ 8 → (cnt G n).toNat ≤ n
  | 0, _ => by simp [cnt]
  | n + 1, hn => by
    have ih := cnt_toNat_le G n (by omega)
    have hlt : n < 8 := by omega
    unfold cnt
    rw [dif_pos hlt, BitVec.toNat_add]
    have h1 := toNat_setWidth_le_one (sel G ⟨n, hlt⟩)
    exact (Nat.mod_le _ _).trans (by omega)

/-- The inclusive count less the expert's own bit is the count before it. -/
theorem cnt_succ_sub (G : Fin 8 → EReal) (n : Fin 8) :
    IntOp.subi (cnt G (n.val + 1)) ((sel G n).setWidth 32) = cnt G n.val := by
  show cnt G (n.val + 1) - (sel G n).setWidth 32 = cnt G n.val
  rw [cnt, dif_pos n.isLt]
  exact BitVec.add_sub_cancel _ _

/-- A slot number below 8 is not the dump slot. -/
theorem eight_ne_slot (s : Fin 8) : IntOp.cmpi .eq (8#32 : BitVec 32) (BitVec.ofNat 32 s.val) = 0#1 := by
  fin_cases s <;> decide

/-- A one-bit word and-ed with the set bit is itself; with the clear bit, clear. -/
theorem andi_one (q : BitVec 1) : IntOp.andi q 1#1 = q := by
  rcases BitVec.eq_zero_or_eq_one q with h | h <;> subst h <;> decide
theorem andi_zero (q : BitVec 1) : IntOp.andi q 0#1 = 0#1 := by
  rcases BitVec.eq_zero_or_eq_one q with h | h <;> subst h <;> decide

/-- Where the running count before expert `n` equals `s`, `s ≤ n`. -/
theorem le_of_cnt_eq (G : Fin 8 → EReal) (s n : Fin 8)
    (h : IntOp.cmpi .eq (cnt G n.val) (BitVec.ofNat 32 s.val) = 1#1) : s ≤ n := by
  have h' : BitVec.ofBool (cnt G n.val == BitVec.ofNat 32 s.val) = 1#1 := h
  have he : cnt G n.val = BitVec.ofNat 32 s.val := by
    cases hb : (cnt G n.val == BitVec.ofNat 32 s.val) with
    | true => exact eq_of_beq hb
    | false => rw [hb] at h'; exact absurd h' (by decide)
  have hle := cnt_toNat_le G n.val (by have := n.isLt; omega)
  rw [he, BitVec.toNat_ofNat, Nat.mod_eq_of_lt (by have := s.isLt; omega)] at hle
  exact hle

/-- ONE EXPERT'S CONTRIBUTION to slot `s`: the reference's one-hot entry times its gated output is the kernel's
    coefficient times the expert's output for `n ≥ s`, and zero for `n < s`. -/
theorem term_eq (G : Fin 8 → EReal) (Y : Fin 8 → Fin 128 → EReal) (s n : Fin 8) (d : Fin 128) :
    rHot G n ⟨s.val, by omega⟩ * rGated G Y n d = if s ≤ n then kCoef G s n * Y n d else 0 := by
  unfold rHot rGated kCoef rSlot
  rw [cnt_succ_sub]
  rcases BitVec.eq_zero_or_eq_one (sel G n) with h0 | h1
  · rw [h0, select_zero, select_zero, eight_ne_slot, andi_zero, select_zero, zero32_eq]
    simp
  · rw [h1, select_one, select_one, andi_one]
    generalize hq : IntOp.cmpi .eq (cnt G n.val) (BitVec.ofNat 32 s.val) = q
    rcases BitVec.eq_zero_or_eq_one q with q0 | q1
    · subst q0
      rw [select_zero, zero32_eq]
      simp
    · subst q1
      rw [select_one, if_pos (le_of_cnt_eq G s n hq)]
      simp

/-- The packing of one row: the two arrangements agree for any gate weights and any experts' outputs. -/
theorem packed_eq (G : Fin 8 → EReal) (Y : Fin 8 → Fin 128 → EReal) (s : Fin 8) (d : Fin 128) :
    kPacked G Y s d = rPacked G Y s d := by
  unfold rPacked
  simp only [term_eq, Fin.sum_univ_eight]
  unfold kPacked
  fin_cases s
  all_goals
    simp only [List.finRange, List.ofFn, Fin.foldr, Fin.foldr.loop, List.filter, List.foldl, zero32_eq]
    simp (decide := true) [add_assoc]

/-- The packed outputs: the two arrangements agree on finite inputs. -/
theorem out_eq (x : (⟨2, ![16384, 256]⟩ : Shape).Idx → EReal) (noise : (⟨1, ![8]⟩ : Shape).Idx → EReal)
    (wg : (⟨2, ![8, 256]⟩ : Shape).Idx → EReal) (bg : (⟨1, ![8]⟩ : Shape).Idx → EReal)
    (wn : (⟨2, ![8, 256]⟩ : Shape).Idx → EReal) (bn : (⟨1, ![8]⟩ : Shape).Idx → EReal)
    (cw : (⟨3, ![8, 128, 256]⟩ : Shape).Idx → EReal) (cb : (⟨2, ![8, 128]⟩ : Shape).Idx → EReal)
    (hx : ∀ i, ∃ r : ℝ, x i = (r : EReal)) (hnoise : ∀ i, ∃ r : ℝ, noise i = (r : EReal))
    (hwg : ∀ i, ∃ r : ℝ, wg i = (r : EReal)) (hbg : ∀ i, ∃ r : ℝ, bg i = (r : EReal))
    (hwn : ∀ i, ∃ r : ℝ, wn i = (r : EReal)) (hbn : ∀ i, ∃ r : ℝ, bn i = (r : EReal)) :
    kOut x noise wg bg wn bn cw cb = rOut x noise wg bg wn bn cw cb := by
  funext i
  unfold kOut rOut
  rw [gate_eq x noise wg bg wn bn hx hnoise hwg hbg hwn hbn]
  exact packed_eq _ _ _ _

end Cert.Bridge

end
-- ==== Proof.Finite.lean ====
/-
  From the precondition to real numbers: `finite_inputs` says, array by array, that every entry's absolute value is
  below plus infinity; an extended real with that property is a real number.
-/
import proofs.«400578_j13073880449226_3_alg».proof.Defs
import proofs.«400578_j13073880449226_3_alg».proof.Proof.Gen.KernelIdeal
import proofs.«400578_j13073880449226_3_alg».proof.Proof.Gen.Pre_finite_inputs
import Idealize.ShloMosaic.Lib.ReduceAll
import Idealize.ShloMosaic.Lib.ValueIdx

noncomputable section

open scoped BigOperators

namespace Cert.Finite

open Idealize.ShloMosaic Idealize.SL.Sem Cert.KernelIdeal

/-- The bit pattern of exponent all ones and fraction zero is plus infinity. -/
theorem inf_bits : Ideal.ofBits .f32 0x7F800000#32 = (⊤ : EReal) := by
  simp [Ideal.ofBits, Ideal.ieee]

/-- A one-bit word made from a truth value is 1 exactly when the truth value is true. -/
theorem ofBool_eq_one (b : Bool) : BitVec.ofBool b = 1#1 ↔ b = true := by cases b <;> decide

/-- An extended real whose absolute value max x (-x) compares below plus infinity is a real number: at minus infinity
    and at plus infinity the maximum is plus infinity itself. -/
theorem real_of_abs_lt_inf (x : EReal)
    (h : Ideal.cmp .olt (max x (-x)) (Ideal.ofBits .f32 0x7F800000#32) = 1#1) : ∃ r : ℝ, x = (r : EReal) := by
  rw [inf_bits] at h
  unfold Ideal.cmp at h
  rw [ofBool_eq_one, decide_eq_true_eq] at h
  induction x using EReal.rec with
  | bot => exact absurd h (by simp)
  | coe r => exact ⟨r, rfl⟩
  | top => exact absurd h (by simp)

/-- The result shape of a reduction over all axes has one index. -/
instance subsingleton_scalar_idx : Subsingleton Cert.Pre_finite_inputs.S_.Idx :=
  ⟨fun a b => funext fun d => d.elim0⟩

/-- An array whose all-finite bit (the conjunction over every entry of |x| < +inf) is 1 has only real entries. -/
theorem reals_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- Under the kernel's precondition every entry of the six arrays the gate reads is a real number (the two expert
    arrays are finite too, but no law here needs it). -/
theorem reals_of_pre (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal)) := by
  -- the precondition at the one index of its scalar result, its operations laid out
  have e := congrFun (h c) ValueIdx.ix0
  dsimp only [Cert.Pre_finite_inputs.fn, Cert.Pre_finite_inputs.fn_part1, Cert.Pre_finite_inputs.fn_part2] at e
  -- a conjunction of eight all-finite bits, nested to the left: the last two (the expert arrays) are dropped
  obtain ⟨e, -⟩ := IntOp.andi_eq_one.1 e
  obtain ⟨e, -⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all_finite _ _ _ _ e0, reals_of_all_finite _ _ _ _ e1, reals_of_all_finite _ _ _ _ e2,
    reals_of_all_finite _ _ _ _ e3, reals_of_all_finite _ _ _ _ e4, reals_of_all_finite _ _ _ _ e5⟩

end Cert.Finite

end
-- ==== Proof.lean ====
/-
  The certificate of the mixture-of-experts kernel against its jnp reference, at the extended reals.

  Both programs compute, row by row: gate logits `h = x·Wg + bg + noise · softplus (x·Wn + bn)`; logits at or below
  zero replaced by a large negative number; the softmax `G` of that over the eight experts (the second result); every
  expert's output `Y n = x·cw n + cb n`; and the packed first result, whose slot `s` holds `G n · Y n` of the selected
  expert (`G n > 0`) that has exactly `s` selected experts before it. The kernel does it block by block of 1024 rows,
  thresholds by a select, counts the selected experts in a running 32-bit sum and adds slot `s` over the experts
  `n ≥ s`; the reference thresholds by adding `negBig − h`, takes the count from a cumulative sum and packs by a one-hot
  matrix product. On finite inputs the two are one function of the arguments (Bridge.lean): that is the algebraic
  claim. The frames of the two kernel programs are the generated ones; the reference's frame is its run with the
  results dropped; the idealization rewrote nothing, so `preserves` is `True`.
-/
import proofs.«400578_j13073880449226_3_alg».proof.Defs
import proofs.«400578_j13073880449226_3_alg».proof.Proof.Gen.Kernel
import proofs.«400578_j13073880449226_3_alg».proof.Proof.Gen.Kernel.Skeleton
import proofs.«400578_j13073880449226_3_alg».proof.Proof.Gen.Kernel.Launch
import proofs.«400578_j13073880449226_3_alg».proof.Proof.Gen.Kernel.Points
import proofs.«400578_j13073880449226_3_alg».proof.Proof.Gen.Kernel.Frame
import proofs.«400578_j13073880449226_3_alg».proof.Proof.Gen.KernelIdeal
import proofs.«400578_j13073880449226_3_alg».proof.Proof.Gen.KernelIdeal.Skeleton
import proofs.«400578_j13073880449226_3_alg».proof.Proof.Gen.KernelIdeal.Launch
import proofs.«400578_j13073880449226_3_alg».proof.Proof.Gen.KernelIdeal.Points
import proofs.«400578_j13073880449226_3_alg».proof.Proof.Gen.KernelIdeal.Frame
import proofs.«400578_j13073880449226_3_alg».proof.Proof.Gen.KernelIdeal.Value
import proofs.«400578_j13073880449226_3_alg».proof.Proof.Gen.ReferenceIdeal
import proofs.«400578_j13073880449226_3_alg».proof.Proof.Gen.Pre_finite_inputs
import proofs.«400578_j13073880449226_3_alg».proof.Proof.KRun
import proofs.«400578_j13073880449226_3_alg».proof.Proof.RRun
import proofs.«400578_j13073880449226_3_alg».proof.Proof.RGate
import proofs.«400578_j13073880449226_3_alg».proof.Proof.RPack
import proofs.«400578_j13073880449226_3_alg».proof.Proof.Bridge
import proofs.«400578_j13073880449226_3_alg».proof.Proof.Finite
import Idealize.ShloMosaic.Adequacy
import Idealize.ShloMosaic.Init

noncomputable section

namespace Cert.Proof

open Idealize.ShloMosaic Idealize.SL.Sem Idealize.ShloMosaic.ValueIdx

/-- The reference's gate weights, read as whole arrays, are the reference arrangement of the row formulas. -/
theorem ref_gate_eq (x : FVec Ideal Cert.ReferenceIdeal.S16384x256 .f32) (noise : FVec Ideal Cert.ReferenceIdeal.S8 .f32)
    (wg : FVec Ideal Cert.ReferenceIdeal.S8x256 .f32) (bg : FVec Ideal Cert.ReferenceIdeal.S8 .f32)
    (wn : FVec Ideal Cert.ReferenceIdeal.S8x256 .f32) (bn : FVec Ideal Cert.ReferenceIdeal.S8 .f32) :
    Cert.ReferenceIdeal.Stage.gate (F := Ideal) x noise wg bg wn bn = Cert.Spec.rGate x noise wg bg wn bn := by
  funext i
  obtain ⟨b, n, rfl⟩ : ∃ (b : Fin 16384) (n : Fin 8), i = ix2 b n := ⟨i 0, i 1, eq_ix2 i⟩
  exact Cert.ReferenceIdeal.RGate.gate_apply x noise wg bg wn bn b n

/-- The reference's packed outputs, read as a whole array, are the reference arrangement of the row formulas. -/
theorem ref_out_eq (x : FVec Ideal Cert.ReferenceIdeal.S16384x256 .f32) (noise : FVec Ideal Cert.ReferenceIdeal.S8 .f32)
    (wg : FVec Ideal Cert.ReferenceIdeal.S8x256 .f32) (bg : FVec Ideal Cert.ReferenceIdeal.S8 .f32)
    (wn : FVec Ideal Cert.ReferenceIdeal.S8x256 .f32) (bn : FVec Ideal Cert.ReferenceIdeal.S8 .f32)
    (cw : FVec Ideal Cert.ReferenceIdeal.S8x128x256 .f32) (cb : FVec Ideal Cert.ReferenceIdeal.S8x128 .f32) :
    Cert.ReferenceIdeal.Stage.out (F := Ideal) x noise wg bg wn bn cw cb = Cert.Spec.rOut x noise wg bg wn bn cw cb := by
  funext i
  obtain ⟨b, q, rfl⟩ : ∃ (b : Fin 16384) (q : Fin 1024), i = ix2 b q := ⟨i 0, i 1, eq_ix2 i⟩
  unfold Cert.ReferenceIdeal.Stage.out
  rw [Cert.ReferenceIdeal.RPack.outOf_apply, ref_gate_eq]
  unfold Cert.Spec.rOut
  congr 1
  funext n d
  exact Cert.ReferenceIdeal.RGate.experts_apply x cw cb b n d

theorem frame_k : Cert.frame_Kernel := fun m ρ _ => Cert.Kernel.Gen.frame m ρ

theorem frame_ki : Cert.frame_KernelIdeal := fun m ρ _ => Cert.KernelIdeal.Gen.frame m ρ

/-- The reference's frame: its run, the two results forgotten. -/
theorem frame_ri : Cert.frame_ReferenceIdeal := fun m ρ _ =>
  (θ_run Cert.ReferenceIdeal.defs _ _).mono (fun _ h c => (h c).2.2) (Cert.ReferenceIdeal.RRun.run m ρ)

/-- Both programs run; the kernel's results are the kernel arrangement of the row formulas at its arguments, the
    reference's the reference arrangement at arguments that agree, and on the finite inputs the precondition
    admits the two arrangements are equal. -/
theorem algebraic : Cert.algebraic_KernelIdeal_ReferenceIdeal := by
  intro m ρ m' ρ' hpre hagree
  refine ⟨fun c => Cert.Spec.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.kGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KRun.run m ρ, ?_⟩
  refine (θ_run Cert.ReferenceIdeal.defs _ _).mono (fun r h c => ?_) (Cert.ReferenceIdeal.RRun.run m' ρ')
  obtain ⟨h0, h1, h2, h3, h4, h5⟩ := Cert.Finite.reals_of_pre m hpre c
  obtain ⟨a0, a1, a2, a3, a4, a5, a6, a7⟩ := hagree c
  refine ⟨(h c).1.trans ?_, (h c).2.1.trans ?_, (h c).2.2⟩
  · rw [ref_out_eq, a0, a1, a2, a3, a4, a5, a6, a7]
    exact (Cert.Bridge.out_eq _ _ _ _ _ _ _ _ h0 h1 h2 h3 h4 h5).symm
  · rw [ref_gate_eq, a0, a1, a2, a3, a4, a5]
    exact (Cert.Bridge.gate_eq _ _ _ _ _ _ h0 h1 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
